-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S4 : Shape := ⟨1, ![4]⟩
abbrev S_ : Shape := ⟨0, ![]⟩
abbrev S64x256 : Shape := ⟨2, ![64, 256]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S256x256, .f32⟩
  | .hbm, ⟨1, _⟩ => ⟨S256x256, .bf16⟩
  | .local _ .vmem, ⟨0, _⟩ => ⟨S256x256, .f32⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_15 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_14 : BitVec 32 := 4#32
  let v23 : BitVec 32 := Scalar.muli v9 c4_i32_14
  let v24 : BitVec 32 := Scalar.addi c0_i32_15 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v25 : BitVec 32 := Scalar.muli v5 c2_i32_16
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v27 : BitVec 32 := Scalar.muli v8 c1_i32_17
  let v28 : BitVec 32 := Scalar.addi v26 v27
  v28.toNat
def k0_dev3 (d0 : Dev nD) : Nat :=
  let c0_i32_28 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_27 : BitVec 32 := 4#32
  let v41 : BitVec 32 := Scalar.muli v9 c4_i32_27
  let v42 : BitVec 32 := Scalar.addi c0_i32_28 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v43 : BitVec 32 := Scalar.muli v5 c2_i32_29
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.muli v8 c1_i32_30
  let v46 : BitVec 32 := Scalar.addi v44 v45
  v46.toNat
def k0_dev4 (d0 : Dev nD) : Nat :=
  let c0_i32_40 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_39 : BitVec 32 := 4#32
  let v59 : BitVec 32 := Scalar.muli v9 c4_i32_39
  let v60 : BitVec 32 := Scalar.addi c0_i32_40 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v61 : BitVec 32 := Scalar.muli v5 c2_i32_41
  let v62 : BitVec 32 := Scalar.addi v60 v61
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v63 : BitVec 32 := Scalar.muli v8 c1_i32_42
  let v64 : BitVec 32 := Scalar.addi v62 v63
  v64.toNat
def k0_dev5 (d0 : Dev nD) : Nat :=
  let c0_i32_51 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_50 : BitVec 32 := 4#32
  let v77 : BitVec 32 := Scalar.muli v9 c4_i32_50
  let v78 : BitVec 32 := Scalar.addi c0_i32_51 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v79 : BitVec 32 := Scalar.muli v5 c2_i32_52
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v81 : BitVec 32 := Scalar.muli v8 c1_i32_53
  let v82 : BitVec 32 := Scalar.addi v80 v81
  v82.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S256x256_S64x256_0_0 : ∀ a, (![0, 0] : Fin 2 → Nat) a + S64x256.size a ≤ S256x256.size a
  h_S64x256 : 0 < S64x256.numel
  shapeCasts_S64x256_S64x256 : S64x256.ShapeCasts S64x256
  bitsLt_bf16_f32 : FTy.bits .bf16 < FTy.bits .f32
  packedbf16_S256x256_S64x256_0_0 : (Rect.unit (s := S256x256) ![0, 0] S64x256.size inb_S256x256_S64x256_0_0).PackedRows (EltTy.packing .bf16)
  inb_S4_S1_0 : ∀ a, (![0] : Fin 1 → Nat) a + S1.size a ≤ S4.size a
  squeezes_S1_S_ : S1.Squeezes S_
  wordsbf16_S256x256_S64x256_0_0 : (Rect.unit (s := S256x256) ![0, 0] S64x256.size inb_S256x256_S64x256_0_0).WholeWords (EltTy.packing .bf16)
  inb_S256x256_S64x256_64_0 : ∀ a, (![64, 0] : Fin 2 → Nat) a + S64x256.size a ≤ S256x256.size a
  packedbf16_S256x256_S64x256_64_0 : (Rect.unit (s := S256x256) ![64, 0] S64x256.size inb_S256x256_S64x256_64_0).PackedRows (EltTy.packing .bf16)
  inb_S4_S1_1 : ∀ a, (![1] : Fin 1 → Nat) a + S1.size a ≤ S4.size a
  wordsbf16_S256x256_S64x256_64_0 : (Rect.unit (s := S256x256) ![64, 0] S64x256.size inb_S256x256_S64x256_64_0).WholeWords (EltTy.packing .bf16)
  inb_S256x256_S64x256_128_0 : ∀ a, (![128, 0] : Fin 2 → Nat) a + S64x256.size a ≤ S256x256.size a
  packedbf16_S256x256_S64x256_128_0 : (Rect.unit (s := S256x256) ![128, 0] S64x256.size inb_S256x256_S64x256_128_0).PackedRows (EltTy.packing .bf16)
  inb_S4_S1_2 : ∀ a, (![2] : Fin 1 → Nat) a + S1.size a ≤ S4.size a
  wordsbf16_S256x256_S64x256_128_0 : (Rect.unit (s := S256x256) ![128, 0] S64x256.size inb_S256x256_S64x256_128_0).WholeWords (EltTy.packing .bf16)
  inb_S256x256_S64x256_192_0 : ∀ a, (![192, 0] : Fin 2 → Nat) a + S64x256.size a ≤ S256x256.size a
  packedbf16_S256x256_S64x256_192_0 : (Rect.unit (s := S256x256) ![192, 0] S64x256.size inb_S256x256_S64x256_192_0).PackedRows (EltTy.packing .bf16)
  inb_S4_S1_3 : ∀ a, (![3] : Fin 1 → Nat) a + S1.size a ≤ S4.size a
  wordsbf16_S256x256_S64x256_192_0 : (Rect.unit (s := S256x256) ![192, 0] S64x256.size inb_S256x256_S64x256_192_0).WholeWords (EltTy.packing .bf16)
  hcc0_scratch2 : 2 + S4.numel ≤ 10
  hcc0_scratch3 : 6 + S4.numel ≤ 10
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  hstage0_0 : ∀ j, (stage0_0 j).IsWhole
  hstage0_1 : ∀ j, (stage0_1 j).IsWhole

variable [Facts₀]

abbrev cc0_scratch2 : DmaSems sig S4 := SemArray.consecutive 2 S4 hcc0_scratch2
abbrev cc0_scratch3 : DmaSems sig S4 := SemArray.consecutive 6 S4 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 5
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | .hbm, ⟨4, _⟩ => ⟨S256x256, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S512x256_S2x256x256 : S512x256.ShapeCasts S2x256x256
  reducesTo_S2x256x256_S256x256_d0 : S2x256x256.ReducesTo [0] S256x256
  h_S_ : 0 < S_.numel
  bitsLt_bf16_f32 : FTy.bits .bf16 < FTy.bits .f32

variable [Facts₀]

class Facts : Prop extends Facts₀ where

variable [Facts]
-- ==== Proof.Spec.lean ====
import proofs.«900698_g7700000000000699_dist_ar_v7x_xyz2x2x2_x_m256_n256_bf16_1_alg».proof.Proof.Gen.KernelIdeal.Skeleton
import proofs.«900698_g7700000000000699_dist_ar_v7x_xyz2x2x2_x_m256_n256_bf16_1_alg».proof.Proof.Gen.KernelIdeal.Launch
import proofs.«900698_g7700000000000699_dist_ar_v7x_xyz2x2x2_x_m256_n256_bf16_1_alg».proof.Proof.Gen.KernelIdeal.Points
import proofs.«900698_g7700000000000699_dist_ar_v7x_xyz2x2x2_x_m256_n256_bf16_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic

/-!
# The exchange with the partner device: names and contents

Eight devices on a 2 x 2 x 2 mesh. Device `c` holds one half (256 rows) of a 512 x 256 array and its
PARTNER is the device with the other half: the one whose first mesh coordinate is flipped, `c + 4 (mod 8)`.
Each device rounds its half to bf16 into a send buffer, four blocks of 64 rows at a time, copies each block
into the partner's receive buffer, and adds what it receives, block by block, to its own half.

This module fixes the vocabulary every other module speaks: the partner map and the five printed device
chains (all five are the partner), the four row blocks as rectangles of the 256 x 256 buffers, the two
functions of a block the body computes (round to bf16; add and round), the block a device sends, and the
contents `outAt` its result buffer ends with, as a function of its own half and the partner's.
-/

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The partner -/

/-- The device holding the other half: the first mesh coordinate flipped. -/
def partner (c : Dev nD) : Dev nD := ⟨(c.val + 4) % 8, Nat.mod_lt _ (by decide)⟩

theorem partner_partner (c : Dev nD) : partner (partner c) = c := by revert c; decide
theorem partner_ne (c : Dev nD) : partner c ≠ c := by revert c; decide

theorem partner_closed : ∀ c : Dev nD, (2 * ((c.val / 2) % 2) + (c.val % 2) + 4) - 4 * (c.val / 4) = (partner c).val := by decide

/-- Each printed device chain (the barrier signal's and the four copies') names the partner. -/
theorem dev1_eq (c : Dev nD) : (⟨k0_dev1 c, k0_dev1_lt c⟩ : Dev nD) = partner c := Fin.ext ((k0_dev1_eq c).trans (partner_closed c))
theorem dev2_eq (c : Dev nD) : (⟨k0_dev2 c, k0_dev2_lt c⟩ : Dev nD) = partner c := Fin.ext ((k0_dev2_eq c).trans (partner_closed c))
theorem dev3_eq (c : Dev nD) : (⟨k0_dev3 c, k0_dev3_lt c⟩ : Dev nD) = partner c := Fin.ext ((k0_dev3_eq c).trans (partner_closed c))
theorem dev4_eq (c : Dev nD) : (⟨k0_dev4 c, k0_dev4_lt c⟩ : Dev nD) = partner c := Fin.ext ((k0_dev4_eq c).trans (partner_closed c))
theorem dev5_eq (c : Dev nD) : (⟨k0_dev5 c, k0_dev5_lt c⟩ : Dev nD) = partner c := Fin.ext ((k0_dev5_eq c).trans (partner_closed c))

/-- The partner map as a permutation of the devices (its own inverse). -/
def swap : Dev nD ≃ Dev nD := ⟨partner, partner, partner_partner, partner_partner⟩

/-! ## The four row blocks -/

theorem rowR_inb (j : Fin 4) : ∀ a, (![64 * j.val, 0] : Fin 2 → Nat) a + S64x256.size a ≤ S256x256.size a := by
  revert j; decide

/-- Rows `64 j` to `64 j + 63`, all 256 columns. -/
abbrev rowR (j : Fin 4) : Rect S256x256 := Rect.unit (s := S256x256) ![64 * j.val, 0] S64x256.size (rowR_inb j)

/-! ## The memrefs -/

abbrev xM : Memref sig .tc .vmem S256x256 .f32 := Memref.whole cc0_stg0_0
abbrev oM : Memref sig .tc .vmem S256x256 .bf16 := Memref.whole cc0_stg1_0
abbrev sM : Memref sig .tc .vmem S256x256 .bf16 := Memref.whole cc0_scratch0
abbrev rM : Memref sig .tc .vmem S256x256 .bf16 := Memref.whole cc0_scratch1

/-! ## What the body computes of a block -/

/-- A block of 64 rows rounded to bf16 (what goes into the send buffer). -/
def truncRows (v : Vec F S64x256 .f32) : FVec F S64x256 .bf16 :=
  shapeCast S64x256 (truncf .bf16 (shapeCast S64x256 v shapeCasts_S64x256_S64x256) bitsLt_bf16_f32) shapeCasts_S64x256_S64x256

/-- A block of the device's own half plus the received bf16 block widened, rounded to bf16 (what goes into the result). -/
def sumRows (a : Vec F S64x256 .f32) (b : Vec F S64x256 .bf16) : FVec F S64x256 .bf16 :=
  truncf .bf16 (addf (shapeCast S64x256 a shapeCasts_S64x256_S64x256) (extf .f32 b bitsLt_bf16_f32)) bitsLt_bf16_f32

theorem pay1_eq (v : Vec F S64x256 .f32) : k0_pay1 v = truncRows v := rfl
theorem pay2_eq (v : Vec F S64x256 .f32) : k0_pay2 v = truncRows v := rfl
theorem pay3_eq (v : Vec F S64x256 .f32) : k0_pay3 v = truncRows v := rfl
theorem pay4_eq (v : Vec F S64x256 .f32) : k0_pay4 v = truncRows v := rfl
theorem pay5_eq (a : Vec F S64x256 .f32) (b : Vec F S64x256 .bf16) : k0_pay5 a b = sumRows a b := rfl
theorem pay6_eq (a : Vec F S64x256 .f32) (b : Vec F S64x256 .bf16) : k0_pay6 a b = sumRows a b := rfl
theorem pay7_eq (a : Vec F S64x256 .f32) (b : Vec F S64x256 .bf16) : k0_pay7 a b = sumRows a b := rfl
theorem pay9_eq (a : Vec F S64x256 .f32) (b : Vec F S64x256 .bf16) : k0_pay9 (k0_pay8 a) b = sumRows a b := rfl

/-! ## Contents -/

/-- Row block `j` of a 256 x 256 f32 buffer's contents. -/
def xRows (x : (cc0_stg0_0 : Ref sig .tc).ty.Contents (Elt F)) (j : Fin 4) : Vec F S64x256 .f32 :=
  ((xM : Memref sig .tc .vmem S256x256 .f32).access (rowR j)).read (Elt F) x

/-- The bf16 block a device whose half is `x` sends as block `j`. -/
def sentV (x : (cc0_stg0_0 : Ref sig .tc).ty.Contents (Elt F)) (j : Fin 4) : Vec F S64x256 .bf16 :=
  truncRows (xRows x j)

/-- What the result buffer ends with on a device whose half is `xc` and whose partner's half is `xp`:
    row block `j` is block `j` of `xc` plus the block the partner sent, whatever the buffer held before. -/
def outAt (xc xp : (cc0_stg0_0 : Ref sig .tc).ty.Contents (Elt F)) : (cc0_stg1_0 : Ref sig .tc).ty.Contents (Elt F) :=
  View.canon [(⟨rowR 3, sumRows (xRows xc 3) (sentV xp 3)⟩ : View.Piece (Elt F) S256x256 .bf16),
    ⟨rowR 2, sumRows (xRows xc 2) (sentV xp 2)⟩, ⟨rowR 1, sumRows (xRows xc 1) (sentV xp 1)⟩, ⟨rowR 0, sumRows (xRows xc 0) (sentV xp 0)⟩]

variable (m : (ℓ : Loc nD τ sig) → Buf (Elt F) ℓ)

/-- Device `c`'s half as launched, read as the contents its staging buffer is filled with. -/
def xstg (c : Dev nD) : (cc0_stg0_0 : Ref sig .tc).ty.Contents (Elt F) :=
  (win0_0.blk (0 : Fin 1)).view.read (Elt F) (m ((c : Thread nD τ).loc main_arg0))

end Cert.KernelIdeal.Hand

end
-- ==== Proof.Sched.lean ====
import proofs.«900698_g7700000000000699_dist_ar_v7x_xyz2x2x2_x_m256_n256_bf16_1_alg».proof.Proof.Spec

/-!
# The protocol: cells, one round, what each landing hands over

Per device nine semaphores take part. The BARRIER semaphore gets one unit from the partner; with it the
partner hands over its whole receive buffer (as its four row blocks) and the fact that its four receive
cells are at their first round: what a device needs before it may copy into the partner. SEND cell `j`
gets the copy's credit once row block `j` of the send buffer has been read: the block comes back to its
owner. RECEIVE cell `j` gets the credit once row block `j` of the receive buffer is written: the owner
gets that block, holding the bf16 block the partner sent. Every cell has one round of one duty.

A device waits while it still owes something only once: on its barrier, owing the partner the four
receive credits. So barrier cells sit below receive cells, and everything else at the bottom.
-/

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

theorem sem_inb (j : Fin 4) : ∀ a, (![j.val] : Fin 1 → Nat) a + S1.size a ≤ S4.size a := by revert j; decide

/-- The runtime's barrier semaphore; send semaphore `j`; receive semaphore `j`. -/
abbrev barS : Sem sig := (SemArray.scalar (sig.barrier 0 rfl) : Sems sig S_).sem
abbrev sendA (j : Fin 4) : DmaSems sig S_ := (cc0_scratch2.slice (Rect.unit (s := S4) ![j.val] S1.size (sem_inb j))).squeeze S_ squeezes_S1_S_
abbrev recvA (j : Fin 4) : DmaSems sig S_ := (cc0_scratch3.slice (Rect.unit (s := S4) ![j.val] S1.size (sem_inb j))).squeeze S_ squeezes_S1_S_

abbrev barCell (c : Dev nD) : GSem nD τ sig := ((c : Thread nD τ), .reg barS)
abbrev sendCell (c : Dev nD) (j : Fin 4) : GSem nD τ sig := ((c : Thread nD τ), .dma (sendA j).sem)
abbrev recvCell (c : Dev nD) (j : Fin 4) : GSem nD τ sig := ((c : Thread nD τ), .dma (recvA j).sem)

/-- The nine by kind: 0 the barrier, 1 to 4 the send cells, 5 to 8 the receive cells. -/
abbrev sendK (j : Fin 4) : Fin 9 := ⟨j.val + 1, by omega⟩
abbrev recvK (j : Fin 4) : Fin 9 := ⟨j.val + 5, by omega⟩

def csem : Fin 9 → SemLoc sig := fun
  | 0 => .reg barS
  | 1 => .dma (sendA 0).sem | 2 => .dma (sendA 1).sem | 3 => .dma (sendA 2).sem | 4 => .dma (sendA 3).sem
  | 5 => .dma (recvA 0).sem | 6 => .dma (recvA 1).sem | 7 => .dma (recvA 2).sem | 8 => .dma (recvA 3).sem

abbrev kcell (ck : Dev nD × Fin 9) : GSem nD τ sig := ((ck.1 : Thread nD τ), csem ck.2)

theorem csem_bar : csem 0 = .reg barS := rfl
theorem csem_send (j : Fin 4) : csem (sendK j) = .dma (sendA j).sem := by revert j; decide
theorem csem_recv (j : Fin 4) : csem (recvK j) = .dma (recvA j).sem := by revert j; decide
theorem csem_injective : Function.Injective csem := by decide

/-- Which of the nine a semaphore is, if any. -/
def kindOf (s : SemLoc sig) : Option (Fin 9) := (List.finRange 9).find? fun k => csem k = s

theorem kindOf_csem : ∀ k : Fin 9, kindOf (csem k) = some k := by decide
theorem kindOf_bar : kindOf (.reg barS) = some 0 := kindOf_csem 0
theorem kindOf_send (j : Fin 4) : kindOf (.dma (sendA j).sem) = some (sendK j) := by rw [← csem_send]; exact kindOf_csem _
theorem kindOf_recv (j : Fin 4) : kindOf (.dma (recvA j).sem) = some (recvK j) := by rw [← csem_recv]; exact kindOf_csem _

theorem send_ne_bar (j : Fin 4) : (SemLoc.dma (sendA j).sem : SemLoc sig) ≠ .reg barS := fun h => by cases h
theorem recv_ne_bar (j : Fin 4) : (SemLoc.dma (recvA j).sem : SemLoc sig) ≠ .reg barS := fun h => by cases h
theorem send_ne_recv : ∀ j k : Fin 4, (SemLoc.dma (sendA j).sem : SemLoc sig) ≠ .dma (recvA k).sem := by decide
theorem recv_inj : ∀ j k : Fin 4, (SemLoc.dma (recvA j).sem : SemLoc sig) = .dma (recvA k).sem → j = k := by decide
theorem send_inj : ∀ j k : Fin 4, (SemLoc.dma (sendA j).sem : SemLoc sig) = .dma (sendA k).sem → j = k := by decide

/-- The credit of one copy of a row block (the same on every one of the eight copy cells). -/
abbrev N : ℕ := ((rM : Memref sig .tc .vmem S256x256 .bf16).access (rowR 0)).dmaCredit
theorem N_pos : 0 < N := View.dmaCredit_pos _ (by decide)
theorem credit_recv (j : Fin 4) : ((rM : Memref sig .tc .vmem S256x256 .bf16).access (rowR j)).dmaCredit = N := rfl
theorem credit_send (j : Fin 4) : ((sM : Memref sig .tc .vmem S256x256 .bf16).access (rowR j)).dmaCredit = N := rfl

/-! ## Holding a buffer by row blocks -/

/-- Row block `j` of the send buffer, of the receive buffer, on device `c`, holding `f` there. -/
def sPts (c : Dev nD) (j : Fin 4) (f : Buf (Elt F) (((sM : Memref sig .tc .vmem S256x256 .bf16).access (rowR j)).loc (c : Thread nD τ))) : sProp 𝕄 :=
  ((sM : Memref sig .tc .vmem S256x256 .bf16).access (rowR j)).loc (c : Thread nD τ) ↦[((sM : Memref sig .tc .vmem S256x256 .bf16).access (rowR j)).set]{fullShare} f
def rPts (c : Dev nD) (j : Fin 4) (f : Buf (Elt F) (((rM : Memref sig .tc .vmem S256x256 .bf16).access (rowR j)).loc (c : Thread nD τ))) : sProp 𝕄 :=
  ((rM : Memref sig .tc .vmem S256x256 .bf16).access (rowR j)).loc (c : Thread nD τ) ↦[((rM : Memref sig .tc .vmem S256x256 .bf16).access (rowR j)).set]{fullShare} f

/-! ## The payloads -/

/-- A send cell's landing gives row block `j` of the send buffer back, at whatever it holds. -/
def sendPay (c : Dev nD) (j : Fin 4) : sProp 𝕄 := iprop(∃ f, sPts c j f)
/-- A receive cell's landing gives row block `j` of the receive buffer, holding the block the partner sent. -/
def recvPay (c : Dev nD) (j : Fin 4) : sProp 𝕄 :=
  iprop(∃ f, ⌜((rM : Memref sig .tc .vmem S256x256 .bf16).access (rowR j)).read (Elt F) f = sentV (xstg m (partner c)) j⌝ ∗ rPts c j f)
/-- The barrier's unit, from the partner: the partner's receive buffer block by block, and that its four receive
    cells are at their first round. -/
def barPay (c : Dev nD) : sProp 𝕄 :=
  iprop(((∃ f, rPts (partner c) 0 f) ∗ (∃ f, rPts (partner c) 1 f) ∗ (∃ f, rPts (partner c) 2 f) ∗ (∃ f, rPts (partner c) 3 f))
    ∗ reached ER (recvCell (partner c) 0) 0 ∗ reached ER (recvCell (partner c) 1) 0 ∗ reached ER (recvCell (partner c) 2) 0 ∗ reached ER (recvCell (partner c) 3) 0)

/-- The payload by kind. -/
def pay (c : Dev nD) : Fin 9 → sProp 𝕄 := fun
  | 0 => barPay c
  | 1 => sendPay c 0 | 2 => sendPay c 1 | 3 => sendPay c 2 | 4 => sendPay c 3
  | 5 => recvPay m c 0 | 6 => recvPay m c 1 | 7 => recvPay m c 2 | 8 => recvPay m c 3

theorem pay_bar (c : Dev nD) : pay m c 0 = barPay (F := F) c := rfl
theorem pay_send (c : Dev nD) (j : Fin 4) : pay m c (sendK j) = sendPay (F := F) c j := by
  fin_cases j <;> rfl
theorem pay_recv (c : Dev nD) (j : Fin 4) : pay m c (recvK j) = recvPay m c j := by
  fin_cases j <;> rfl

/-! ## The schedule -/

/-- One round, round 0: each of a device's nine cells has one duty; the barrier's is one unit, a copy cell's the
    copy's credit. -/
def sched : Rounds.Schedule (GSem nD τ sig) Unit 𝕄 where
  duties g r := if r = 0 ∧ g.1.2 = .tc ∧ (kindOf g.2).isSome then Finset.univ else ∅
  unitless _ := False
  amount g _ _ := if g.2 = .reg barS then 1 else N
  payload g _ _ := match kindOf g.2 with
    | some k => pay m g.1.1 k
    | none => iprop(emp)
  amount_pos g _ _ _ := by
    by_cases h : g.2 = .reg barS
    · rw [if_pos h]; exact Nat.one_pos
    · rw [if_neg h]; exact N_pos

set_option synthInstance.maxHeartbeats 800000 in
instance sched_payload_storable (g : GSem nD τ sig) (r : ℕ) (d : Unit) :
    BI.Storable (upEmb : UEmb _ 𝕄) ((sched (F := F) m).payload g r d) := by
  show BI.Storable upEmb (match kindOf g.2 with | some k => pay m g.1.1 k | none => iprop(emp))
  unfold pay barPay sendPay recvPay sPts rPts
  (repeat' split) <;> infer_instance

/-! ## The schedule's tables, cell by cell -/

section Tables
variable (c : Dev nD) (j : Fin 4)

theorem duties_bar : (sched (F := F) m).duties (barCell c) 0 = Finset.univ := by
  dsimp only [sched]; exact if_pos ⟨rfl, rfl, by rw [kindOf_bar]; rfl⟩
theorem duties_send : (sched (F := F) m).duties (sendCell c j) 0 = Finset.univ := by
  dsimp only [sched]; exact if_pos ⟨rfl, rfl, by rw [kindOf_send]; rfl⟩
theorem duties_recv : (sched (F := F) m).duties (recvCell c j) 0 = Finset.univ := by
  dsimp only [sched]; exact if_pos ⟨rfl, rfl, by rw [kindOf_recv]; rfl⟩
theorem duties_k (k : Fin 9) : (sched (F := F) m).duties (kcell (c, k)) 0 = Finset.univ := by
  dsimp only [sched]; exact if_pos ⟨rfl, rfl, by rw [kindOf_csem]; rfl⟩
theorem duties_later (g : GSem nD τ sig) : ∀ r, 1 ≤ r → (sched (F := F) m).duties g r = ∅ :=
  fun r hr => by dsimp only [sched]; rw [if_neg fun h => by omega]

theorem mem_duties_bar : () ∈ (sched (F := F) m).duties (barCell c) 0 := by rw [duties_bar]; exact Finset.mem_univ _
theorem mem_duties_send : () ∈ (sched (F := F) m).duties (sendCell c j) 0 := by rw [duties_send]; exact Finset.mem_univ _
theorem mem_duties_recv : () ∈ (sched (F := F) m).duties (recvCell c j) 0 := by rw [duties_recv]; exact Finset.mem_univ _

theorem amount_bar (d : Unit) : (sched (F := F) m).amount (barCell c) 0 d = 1 := by dsimp only [sched]; exact if_pos rfl
theorem amount_send (d : Unit) : (sched (F := F) m).amount (sendCell c j) 0 d = N := by dsimp only [sched]; exact if_neg (send_ne_bar j)
theorem amount_recv (d : Unit) : (sched (F := F) m).amount (recvCell c j) 0 d = N := by dsimp only [sched]; exact if_neg (recv_ne_bar j)

theorem expect_bar : (sched (F := F) m).expect (barCell c) 0 = 1 := by
  unfold Schedule.expect Schedule.amountOf
  rw [duties_bar, Finset.univ_unique, Finset.sum_singleton, amount_bar]
theorem expect_send : (sched (F := F) m).expect (sendCell c j) 0 = N := by
  unfold Schedule.expect Schedule.amountOf
  rw [duties_send, Finset.univ_unique, Finset.sum_singleton, amount_send]
theorem expect_recv : (sched (F := F) m).expect (recvCell c j) 0 = N := by
  unfold Schedule.expect Schedule.amountOf
  rw [duties_recv, Finset.univ_unique, Finset.sum_singleton, amount_recv]

theorem payload_bar (d : Unit) : (sched (F := F) m).payload (barCell c) 0 d = barPay c := by
  dsimp only [sched]; rw [kindOf_bar]; exact pay_bar m c
theorem payload_send (d : Unit) : (sched (F := F) m).payload (sendCell c j) 0 d = sendPay c j := by
  dsimp only [sched]; rw [kindOf_send]; exact pay_send m c j
theorem payload_recv (d : Unit) : (sched (F := F) m).payload (recvCell c j) 0 d = recvPay m c j := by
  dsimp only [sched]; rw [kindOf_recv]; exact pay_recv m c j

/-- The rest of a cell's round when nothing of it has been taken: its one payload. -/
theorem rest_bar : bigSep ((sched (F := F) m).duties (barCell c) 0 \ ∅) (fun d => (sched (F := F) m).payload (barCell c) 0 d) = barPay c := by
  rw [Finset.sdiff_empty, duties_bar, Finset.univ_unique, bigSep_singleton, payload_bar]
theorem rest_send : bigSep ((sched (F := F) m).duties (sendCell c j) 0 \ ∅) (fun d => (sched (F := F) m).payload (sendCell c j) 0 d) = sendPay c j := by
  rw [Finset.sdiff_empty, duties_send, Finset.univ_unique, bigSep_singleton, payload_send]
theorem rest_recv : bigSep ((sched (F := F) m).duties (recvCell c j) 0 \ ∅) (fun d => (sched (F := F) m).payload (recvCell c j) 0 d) = recvPay m c j := by
  rw [Finset.sdiff_empty, duties_recv, Finset.univ_unique, bigSep_singleton, payload_recv]

end Tables

/-! ## What each device owes at launch; the levels -/

/-- Device `c` owes its partner the four receive credits (block 0's on the outside, paid first) and, outermost and
    paid first of all, the barrier's unit. -/
def OR3 (c : Dev nD) : CellTallies nD τ sig Unit := tallyAt (recvCell (partner c) 3) () N
def OR2 (c : Dev nD) : CellTallies nD τ sig Unit := OR3 c + tallyAt (recvCell (partner c) 2) () N
def OR1 (c : Dev nD) : CellTallies nD τ sig Unit := OR2 c + tallyAt (recvCell (partner c) 1) () N
def OR0 (c : Dev nD) : CellTallies nD τ sig Unit := OR1 c + tallyAt (recvCell (partner c) 0) () N
def O₀ (c : Dev nD) : CellTallies nD τ sig Unit := OR0 c + tallyAt (barCell (partner c)) () 1

def IsRecv (s : SemLoc sig) : Prop := ∃ j : Fin 4, s = .dma (recvA j).sem
instance : DecidablePred IsRecv := fun s => by unfold IsRecv; infer_instance

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv (c : Dev nD) (j : Fin 4) (u : Unit) : lv (recvCell c j) u = 2 := by
  dsimp only [lv]; rw [if_neg (recv_ne_bar j), if_pos ⟨j, rfl⟩]

theorem OR0_pos {c : Dev nD} {g : GSem nD τ sig} {u : Unit} (h : 0 < OR0 c g u) : ∃ j, g = recvCell (partner c) j := by
  unfold OR0 OR1 OR2 OR3 at h
  simp only [Pi.add_apply, Finsupp.add_apply, tallyAt_apply] at h
  by_contra hn
  rw [not_exists] at hn
  rw [if_neg (fun h' => hn 3 h'.1), if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    g = barCell (partner c) ∨ ∃ j, g = recvCell (partner c) j := by
  unfold O₀ at h
  rw [Pi.add_apply, Finsupp.add_apply, tallyAt_apply] at h
  by_cases hb : g = barCell (partner c)
  · exact .inl hb
  · rw [if_neg (fun h' => hb h'.1), Nat.add_zero] at h
    exact .inr (OR0_pos h)

omit [FloatOps F] in
/-- A wait on a semaphore that is neither the barrier nor a receive semaphore (the pipeline's staging waits) is allowed
    whatever of the launch debt is still owed. -/
theorem mayWait_stage (c : Dev nD) (q : DmaSem sig) (hq : ¬ IsRecv (.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | ⟨j, rfl⟩ <;> exact Finset.mem_singleton_self _)
      (fun p hp => by rw [Finset.mem_singleton.mp hp]; dsimp only [lv]; rw [if_neg (fun h => by cases h), if_neg hq])
      (fun g u hg => by
        rcases O₀_pos hg with rfl | ⟨j, rfl⟩
        · rw [lv_bar]; decide
        · rw [lv_recv]; decide)
  · rw [MayWait_zero]; iintro -; iempintro

omit [FloatOps F] in
/-- At its barrier wait a device owes the partner's four receive credits only: receive cells, above its barrier cell. -/
theorem mayWait_bar (c : Dev nD) :
    (levAts L lv : sProp 𝕄) ⊢ MayWait (c : Thread nD τ) (.reg barS) () (OR0 c) :=
  MayOwe.of_cut (L := L) (lev := lv) 1 (fun p hp => by rw [Finset.mem_singleton.mp hp, L_tc]; exact Finset.mem_singleton_self _)
    (fun g u hg => by obtain ⟨j, rfl⟩ := OR0_pos hg; exact Finset.mem_singleton_self _)
    (fun p hp => by rw [Finset.mem_singleton.mp hp]; exact le_of_eq (lv_bar c _))
    (fun g u hg => by obtain ⟨j, rfl⟩ := OR0_pos hg; rw [lv_recv]; decide)

end Cert.KernelIdeal.Hand

end
-- ==== Proof.Data.lean ====
import proofs.«900698_g7700000000000699_dist_ar_v7x_xyz2x2x2_x_m256_n256_bf16_1_alg».proof.Proof.Sched

/-!
# What a device holds before and after its one grid point

The cells' invariants and the facts that every cell is at its first round are persistent, so every device
may hold ALL of them (`records`); what is linear is a device's positions on its own nine cells and the
tokens of the nine duties IT pays: the partner's barrier unit, the partner's four receive credits, its own
four send credits. Before the point it also holds its credit on its barrier (one unit) and on its four
receive cells, the level facts, and its two scratch buffers whole at any contents; after it, the two
buffers whole again and its eight copy semaphores back at zero.
-/

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The scratch buffers whole -/

def sWhole (c : Dev nD) (f : Buf (Elt F) ((c : Thread nD τ).loc cc0_scratch0)) : sProp 𝕄 := ((c : Thread nD τ).loc cc0_scratch0) ↦{fullShare} f
def rWhole (c : Dev nD) (f : Buf (Elt F) ((c : Thread nD τ).loc cc0_scratch1)) : sProp 𝕄 := ((c : Thread nD τ).loc cc0_scratch1) ↦{fullShare} f

/-! ## Ghost state -/

/-- Every cell's invariant, at the names `K` the launch allocated them under, and that every cell is at its first round. -/
def records (K : Dev nD × Fin 9 → ℕ) : sProp 𝕄 :=
  iprop((bigSep Finset.univ fun ck : Dev nD × Fin 9 => cellInv ER (sched m) (K ck) (kcell ck))
    ∗ bigSep Finset.univ fun ck : Dev nD × Fin 9 => reached ER (kcell ck) 0)

instance records_persistent (K : Dev nD × Fin 9 → ℕ) : BI.Persistent (records m K) := by unfold records; infer_instance

theorem inv_of_all (K : Dev nD × Fin 9 → ℕ) (ck : Dev nD × Fin 9) :
    (bigSep Finset.univ fun ck : Dev nD × Fin 9 => (cellInv ER (sched m) (K ck) (kcell ck) : sProp 𝕄)) ⊢ cellInv ER (sched m) (K ck) (kcell ck) :=
  bigSep_elim (Finset.mem_univ ck)
omit [FloatOps F] in
theorem reached_of_all (ck : Dev nD × Fin 9) :
    (bigSep Finset.univ fun ck : Dev nD × Fin 9 => (reached ER (kcell ck) 0 : sProp 𝕄)) ⊢ reached ER (kcell ck) 0 :=
  bigSep_elim (Finset.mem_univ ck)

theorem inv_at (K : Dev nD × Fin 9 → ℕ) (ck : Dev nD × Fin 9) : records m K ⊢ cellInv ER (sched m) (K ck) (kcell ck) := by
  unfold records; iintro ⟨HI, -⟩; iapply (inv_of_all m K ck); iexact HI
theorem reached_at (K : Dev nD × Fin 9 → ℕ) (ck : Dev nD × Fin 9) : records m K ⊢ reached ER (kcell ck) 0 := by
  unfold records; iintro ⟨-, HR⟩; iapply (reached_of_all (F := F) ck); iexact HR

/-- The tokens of the duties device `c` pays. -/
def payToks (c : Dev nD) : sProp 𝕄 :=
  iprop(dutyTok ER (barCell (partner c)) 0 ()
    ∗ (bigSep Finset.univ fun j : Fin 4 => dutyTok ER (recvCell (partner c) j) 0 ())
    ∗ (bigSep Finset.univ fun j : Fin 4 => dutyTok ER (sendCell c j) 0 ()))

/-- Its positions: every one of its nine cells at round 0, nothing taken, nothing consumed. -/
def positions (c : Dev nD) : sProp 𝕄 := bigSep Finset.univ fun k : Fin 9 => atPos ER (kcell (c, k)) 0 ∅ 0

def ghost (K : Dev nD × Fin 9 → ℕ) (c : Dev nD) : sProp 𝕄 := iprop(records m K ∗ positions c ∗ payToks c)

/-- What device `c`'s body starts from: the ghost state at some names, its credit on its barrier and on its four receive
    cells, the level facts. -/
def start (c : Dev nD) : sProp 𝕄 :=
  iprop((∃ K, ghost m K c) ∗ cred (tallyAt (barCell c) () 1) ∗ (bigSep Finset.univ fun j : Fin 4 => cred (tallyAt (recvCell c j) () N)) ∗ levAts L lv)

def Φ₀ (c : Dev nD) : sProp 𝕄 := iprop(start m c ∗ (∃ f, sWhole c f) ∗ (∃ f, rWhole c f))
/-- After the point: both scratch buffers whole, the eight own copy semaphores at zero, closed (the barrier semaphore is
    the runtime's: nothing to hand back). -/
def Φ₁ (c : Dev nD) : sProp 𝕄 :=
  iprop((∃ f, sWhole (F := F) c f) ∗ (∃ f, rWhole c f)
    ∗ (bigSep Finset.univ fun j : Fin 4 => semVal (sendCell c j) 0) ∗ (bigSep Finset.univ fun j : Fin 4 => semVal (recvCell c j) 0))

/-- The kernel's own (scoped) semaphores as the launch indexes them: the four send, then the four receive. -/
abbrev osem : Fin 8 → SemLoc sig := fun k => csem ⟨k.val + 1, by omega⟩

/-- The kernel's result on device `c`. -/
def outOf (c : Dev nD) : (cc0_stg1_0 : Ref sig .tc).ty.Contents (Elt F) := outAt (xstg m c) (xstg m (partner c))

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outOf m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-! ## The body's pre and post, as the pipeline's body obligation states them -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outOf m c))

end Cert.KernelIdeal.Hand

end
-- ==== Proof.Steps.lean ====
import proofs.«900698_g7700000000000699_dist_ar_v7x_xyz2x2x2_x_m256_n256_bf16_1_alg».proof.Proof.Data

/-!
# The three things a device does with a row block, once for every block

For row block `j`: FILL AND SEND (read the block of the device's half, round it into the send buffer,
copy it into the partner's receive buffer); RECEIVE AND ADD (wait for the partner's copy of the block, add it
to the device's own block, store the sum into the result buffer); and SENT (wait until the sent block has
been read). Each is stated once, over a symbolic block index and the program that follows.
-/

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- the block a device sends and the block of its half are read through their definitions when two assertions are compared
set_option allowUnsafeReducibility true in
attribute [local reducible] xRows sentV

section Steps
variable (K : Dev nD × Fin 9 → ℕ) (c : Dev nD) (j : Fin 4)

set_option maxHeartbeats 1600000 in
/-- The copy of row block `j` of the send buffer, holding `w`, into row block `j` of the partner's receive buffer: the
    send cell's landing gives the source block back; the partner's receive cell's landing hands the partner its block
    holding `w`, which is what the schedule promises it when `w` is the block the device sends. -/
theorem wp_send_row (n : Dev nD) (hn : n = partner c)
    {hsc : ((rM : Memref sig (Dev.tc n : Thread nD τ).2.kind .vmem S256x256 .bf16).slice (rowR j) (fun _ => rfl)).view.ref.isScScratch = false}
    {hsrc : ((sM : Memref sig .tc .vmem S256x256 .bf16).slice (rowR j) (fun _ => rfl)).view.WordExact}
    {hdst : ((rM : Memref sig .tc .vmem S256x256 .bf16).slice (rowR j) (fun _ => rfl)).view.WordExact}
    {hsem : DmaTarget.Typed .vmem (.dma (recvA j).sem) (.remote (Dev.tc n : Thread nD τ) ((rM : Memref sig .tc .vmem S256x256 .bf16).slice (rowR j) (fun _ => rfl)) (.dma (sendA j).sem) hsc)}
    {α : Type} {Q : α → sProp 𝕄} {k : PUnit → Prog (TpuEff nD τ sig (Elt F) Λ₀ .tc) α}
    (f : Buf (Elt F) (((sM : Memref sig .tc .vmem S256x256 .bf16).access (rowR j)).loc (c : Thread nD τ)))
    (w : Vec F S64x256 .bf16) (hw : w = sentV (xstg m c) j)
    (fd : Buf (Elt F) (((rM : Memref sig .tc .vmem S256x256 .bf16).access (rowR j)).loc (partner c : Thread nD τ)))
    (O : CellTallies nD τ sig Unit) (W : Waits sig Unit) :
    iprop(cellInv ER (sched m) (K (c, sendK j)) (sendCell c j) ∗ cellInv ER (sched m) (K (partner c, recvK j)) (recvCell (partner c) j)
        ∗ sPts c j (((sM : Memref sig .tc .vmem S256x256 .bf16).access (rowR j)).write (Elt F) f w Finset.univ) ∗ rPts (partner c) j fd
        ∗ owes (c : Thread nD τ) (O + tallyAt (recvCell (partner c) j) () N) W
        ∗ dutyTok ER (sendCell c j) 0 () ∗ reached ER (sendCell c j) 0
        ∗ dutyTok ER (recvCell (partner c) j) 0 () ∗ reached ER (recvCell (partner c) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((sM : Memref sig .tc .vmem S256x256 .bf16).slice (rowR j) (fun _ => rfl))
                (.remote (Dev.tc n : Thread nD τ) ((rM : Memref sig .tc .vmem S256x256 .bf16).slice (rowR j) (fun _ => rfl)) (.dma (sendA j).sem) hsc)
                (.dma (recvA j).sem) hsrc hdst hsem) k) Q) := by
  subst hn
  unfold sPts rPts
  iintro H Hk
  iapply (Rounds.wp_send_pointsTo 𝒱₀ ER (sched m) (c : Thread nD τ) none (Γ := .empty) (defs := defs₀ (F := F)) (Es := Set.univ) (Q := Q) (k := k)
      (c' := (Dev.tc (partner c) : Thread nD τ))
      (src := (sM : Memref sig .tc .vmem S256x256 .bf16).slice (rowR j) (fun _ => rfl))
      (dst := (rM : Memref sig (Dev.tc (partner c) : Thread nD τ).2.kind .vmem S256x256 .bf16).slice (rowR j) (fun _ => rfl))
      (sS := .dma (sendA j).sem) (sem := .dma (recvA j).sem) (q := fullShare)
      (fs := ((sM : Memref sig .tc .vmem S256x256 .bf16).access (rowR j)).write (Elt F) f w Finset.univ)
      (hsc := hsc) (hsrc := hsrc) (hdst := hdst) (hsem := hsem)
      (κ₁ := K (c, sendK j)) (κ₂ := K (partner c, recvK j)) (r₁ := 0) (r₂ := 0) (d₁ := ()) (d₂ := ()) (fd := fd)
      (mem_duties_send m c j) (mem_duties_recv m (partner c) j)
      () () N rfl (amount_send m c j ()) (amount_recv m (partner c) j ()) O rfl (W := W)
      (by rw [payload_send]; unfold sendPay sPts; iintro H; iexists _; iexact H)
      (by
        rw [payload_recv]; unfold recvPay rPts; iintro H
        iexists (((rM : Memref sig .tc .vmem S256x256 .bf16).access (rowR j)).write (Elt F) fd
          (((sM : Memref sig .tc .vmem S256x256 .bf16).access (rowR j)).read (Elt F)
            (((sM : Memref sig .tc .vmem S256x256 .bf16).access (rowR j)).write (Elt F) f w Finset.univ)) Finset.univ)
        isplitr
        · ipureintro; rw [View.read_write_univ, View.read_write_univ, partner_partner]; exact hw
        · iexact H)) $$ H
  iexact Hk

set_option maxHeartbeats 1600000 in
/-- FILL AND SEND block `j`: read it from the device's half, round it into the send buffer (whatever the block held),
    copy it to the partner. The device's half is only read; the send buffer's block goes with the copy. -/
theorem wp_fill_send_row (n : Dev nD) (hn : n = partner c)
    {hl1 : (xM : Memref sig .tc .vmem S256x256 .f32).view.LoadsAt (rowR j).toLoadRect}
    {hl2 : (sM : Memref sig .tc .vmem S256x256 .bf16).view.LoadsAt (rowR j).toLoadRect}
    {hx : ((sM : Memref sig .tc .vmem S256x256 .bf16).access (rowR j)).Stores Finset.univ}
    {hm : (Finset.univ : Finset (rowR j).shape.Idx) = Finset.univ ∨ ∀ a, (rowR j).stride a = 1}
    {hsc : ((rM : Memref sig (Dev.tc n : Thread nD τ).2.kind .vmem S256x256 .bf16).slice (rowR j) (fun _ => rfl)).view.ref.isScScratch = false}
    {hsrc : ((sM : Memref sig .tc .vmem S256x256 .bf16).slice (rowR j) (fun _ => rfl)).view.WordExact}
    {hdst : ((rM : Memref sig .tc .vmem S256x256 .bf16).slice (rowR j) (fun _ => rfl)).view.WordExact}
    {hsem : DmaTarget.Typed .vmem (.dma (recvA j).sem) (.remote (Dev.tc n : Thread nD τ) ((rM : Memref sig .tc .vmem S256x256 .bf16).slice (rowR j) (fun _ => rfl)) (.dma (sendA j).sem) hsc)}
    {α : Type} {Q : α → sProp 𝕄} {k : PUnit → Prog (TpuEff nD τ sig (Elt F) Λ₀ .tc) α}
    (f : Buf (Elt F) (((sM : Memref sig .tc .vmem S256x256 .bf16).access (rowR j)).loc (c : Thread nD τ)))
    (fd : Buf (Elt F) (((rM : Memref sig .tc .vmem S256x256 .bf16).access (rowR j)).loc (partner c : Thread nD τ)))
    (O : CellTallies nD τ sig Unit) (W : Waits sig Unit) :
    iprop(cellInv ER (sched m) (K (c, sendK j)) (sendCell c j) ∗ cellInv ER (sched m) (K (partner c, recvK j)) (recvCell (partner c) j)
        ∗ (((c : Thread nD τ).loc cc0_stg0_0) ↦{fullShare} xstg m c)
        ∗ sPts c j f ∗ rPts (partner c) j fd
        ∗ owes (c : Thread nD τ) (O + tallyAt (recvCell (partner c) j) () N) W
        ∗ dutyTok ER (sendCell c j) 0 () ∗ reached ER (sendCell c j) 0
        ∗ dutyTok ER (recvCell (partner c) j) 0 () ∗ reached ER (recvCell (partner c) j) 0)
      ⊢ iprop((((((c : Thread nD τ).loc cc0_stg0_0) ↦{fullShare} xstg m c) ∗ cred (tallyAt (sendCell c j) () N) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.load (xM : Memref sig .tc .vmem S256x256 .f32) (rowR j).toLoadRect hl1) fun x =>
               .op (.load (sM : Memref sig .tc .vmem S256x256 .bf16) (rowR j).toLoadRect hl2) fun _ =>
               .op (.store (sM : Memref sig .tc .vmem S256x256 .bf16) (rowR j) (truncRows x) Finset.univ hx hm) fun _ =>
               .op (.enqueueDma ((sM : Memref sig .tc .vmem S256x256 .bf16).slice (rowR j) (fun _ => rfl))
                (.remote (Dev.tc n : Thread nD τ) ((rM : Memref sig .tc .vmem S256x256 .bf16).slice (rowR j) (fun _ => rfl)) (.dma (sendA j).sem) hsc)
                (.dma (recvA j).sem) hsrc hdst hsem) k) Q) := by
  iintro ⟨#HIs, #HIr, Hx, Hs, Hp, HO, HtS, #HrS, HtR, #HrR⟩ Hk
  iapply (wp_load_rect 𝒱₀ (c : Thread nD τ) none Set.univ (m := (xM : Memref sig .tc .vmem S256x256 .f32)) (r := rowR j) (Finset.subset_univ _)) $$ Hx; iintro Hx
  unfold sPts
  iapply (wp_load_rect 𝒱₀ (c : Thread nD τ) none Set.univ (m := (sM : Memref sig .tc .vmem S256x256 .bf16)) (r := rowR j) subset_rfl) $$ Hs; iintro Hs
  iapply (wp_store 𝒱₀ (c : Thread nD τ) none Set.univ (m := (sM : Memref sig .tc .vmem S256x256 .bf16)) (r := rowR j) (Mk := Finset.univ) (View.setOn_subset_set _ _)) $$ Hs; iintro Hs
  iapply (wp_send_row m K c j n hn f (truncRows (((xM : Memref sig .tc .vmem S256x256 .f32).access (rowR j)).read (Elt F) (xstg m c))) rfl fd O W)
    $$ [Hs Hp HO HtS HtR]
  · isplitr; · iexact HIs
    isplitr; · iexact HIr
    isplitl [Hs]; · unfold sPts; iexact Hs
    isplitl [Hp]; · iexact Hp
    isplitl [HO]; · iexact HO
    isplitl [HtS]; · iexact HtS
    isplitr; · iexact HrS
    isplitl [HtR]; · iexact HtR
    iexact HrR
  iintro ⟨Hc, HO⟩
  iapply Hk
  isplitl [Hx]; · iexact Hx
  isplitl [Hc]; · iexact Hc
  iexact HO

set_option maxHeartbeats 1600000 in
/-- RECEIVE AND ADD block `j`: wait for the partner's copy of it (owing nothing), which hands over the block of the
    receive buffer holding what the partner sent; add that to the device's own block and store the rounded sum as block
    `j` of the result buffer, over whatever it held. -/
theorem wp_recv_add_row
    {hs : ((sM : Memref sig .tc .vmem S256x256 .bf16).slice (rowR j) (fun _ => rfl)).view.WordExact}
    {hd : ((rM : Memref sig .tc .vmem S256x256 .bf16).slice (rowR j) (fun _ => rfl)).view.WordExact}
    {hl1 : (xM : Memref sig .tc .vmem S256x256 .f32).view.LoadsAt (rowR j).toLoadRect}
    {hl2 : (rM : Memref sig .tc .vmem S256x256 .bf16).view.LoadsAt (rowR j).toLoadRect}
    {hl3 : (oM : Memref sig .tc .vmem S256x256 .bf16).view.LoadsAt (rowR j).toLoadRect}
    {hx : ((oM : Memref sig .tc .vmem S256x256 .bf16).access (rowR j)).Stores Finset.univ}
    {hm : (Finset.univ : Finset (rowR j).shape.Idx) = Finset.univ ∨ ∀ a, (rowR j).stride a = 1}
    {α : Type} {Q : α → sProp 𝕄} {k : PUnit → Prog (TpuEff nD τ sig (Elt F) Λ₀ .tc) α}
    (g : Buf (Elt F) ((c : Thread nD τ).loc cc0_stg1_0)) (W : Waits sig Unit) :
    iprop(cellInv ER (sched m) (K (c, recvK j)) (recvCell c j) ∗ cred (tallyAt (recvCell c j) () N) ∗ owes (c : Thread nD τ) 0 W
        ∗ atPos ER (recvCell c j) 0 ∅ 0
        ∗ (((c : Thread nD τ).loc cc0_stg0_0) ↦{fullShare} xstg m c) ∗ (((c : Thread nD τ).loc cc0_stg1_0) ↦{fullShare} g))
      ⊢ iprop(((owes (c : Thread nD τ) 0 (insert (SemLoc.dma (recvA j).sem, ()) W) ∗ atPos ER (recvCell c j) (0 + 1) ∅ 0 ∗ (∃ f, rPts c j f)
              ∗ (((c : Thread nD τ).loc cc0_stg0_0) ↦{fullShare} xstg m c)
              ∗ (((c : Thread nD τ).loc cc0_stg1_0) ↦{fullShare}
                  (((oM : Memref sig .tc .vmem S256x256 .bf16).access (rowR j)).write (Elt F) g
                    (sumRows (xRows (xstg m c) j) (sentV (xstg m (partner c)) j)) Finset.univ)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvA j).sem ((sM : Memref sig .tc .vmem S256x256 .bf16).slice (rowR j) (fun _ => rfl))
                  ((rM : Memref sig .tc .vmem S256x256 .bf16).slice (rowR j) (fun _ => rfl)) hs hd) fun _ =>
               .op (.load (xM : Memref sig .tc .vmem S256x256 .f32) (rowR j).toLoadRect hl1) fun x =>
               .op (.load (rM : Memref sig .tc .vmem S256x256 .bf16) (rowR j).toLoadRect hl2) fun y =>
               .op (.load (oM : Memref sig .tc .vmem S256x256 .bf16) (rowR j).toLoadRect hl3) fun _ =>
               .op (.store (oM : Memref sig .tc .vmem S256x256 .bf16) (rowR j) (sumRows x y) Finset.univ hx hm) k) Q) := by
  iintro ⟨#HI, Hc, HO, Hat, Hx, Hout⟩ Hk
  iapply (Rounds.wp_wait_rest_token 𝒱₀ ER (sched m) (c : Thread nD τ) none (κ := K (c, recvK j))
      (wpE_waitDma2_eq 𝒱₀ (c : Thread nD τ) none Set.univ) (Set.mem_univ _) () (O := 0) (W := W) (R := 0) (m := 0) (T := ∅)
      (by rw [expect_recv]; exact Nat.zero_add _)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  unfold recvPay
  icases Hp with ⟨%f, %hf, Hr⟩
  iapply (wp_load_rect 𝒱₀ (c : Thread nD τ) none Set.univ (m := (xM : Memref sig .tc .vmem S256x256 .f32)) (r := rowR j) (Finset.subset_univ _)) $$ Hx; iintro Hx
  unfold rPts
  iapply (wp_load_rect 𝒱₀ (c : Thread nD τ) none Set.univ (m := (rM : Memref sig .tc .vmem S256x256 .bf16)) (r := rowR j) subset_rfl) $$ Hr; iintro Hr
  iapply (wp_load_rect 𝒱₀ (c : Thread nD τ) none Set.univ (m := (oM : Memref sig .tc .vmem S256x256 .bf16)) (r := rowR j) (Finset.subset_univ _)) $$ Hout; iintro Hout
  iapply (wp_store 𝒱₀ (c : Thread nD τ) none Set.univ (m := (oM : Memref sig .tc .vmem S256x256 .bf16)) (r := rowR j) (Mk := Finset.univ) (Finset.subset_univ _)) $$ Hout; iintro Hout
  rw [hf]
  iapply Hk
  isplitl [HO]; · iexact HO
  isplitl [Hat]; · iexact Hat
  isplitl [Hr]; · iexists f; iexact Hr
  isplitl [Hx]; · iexact Hx
  iexact Hout

set_option maxHeartbeats 1600000 in
/-- SENT block `j`: wait (owing nothing) until the copy has read it; the block of the send buffer comes back. -/
theorem wp_wait_send_row
    {hs : ((rM : Memref sig .tc .vmem S256x256 .bf16).slice (rowR j) (fun _ => rfl)).view.WordExact}
    {hd : ((sM : Memref sig .tc .vmem S256x256 .bf16).slice (rowR j) (fun _ => rfl)).view.WordExact}
    {α : Type} {Q : α → sProp 𝕄} {k : PUnit → Prog (TpuEff nD τ sig (Elt F) Λ₀ .tc) α} (W : Waits sig Unit) :
    iprop(cellInv ER (sched m) (K (c, sendK j)) (sendCell c j) ∗ cred (tallyAt (sendCell c j) () N) ∗ owes (c : Thread nD τ) 0 W
        ∗ atPos ER (sendCell c j) 0 ∅ 0)
      ⊢ iprop(((owes (c : Thread nD τ) 0 (insert (SemLoc.dma (sendA j).sem, ()) W) ∗ atPos ER (sendCell c j) (0 + 1) ∅ 0 ∗ (∃ f, sPts c j f))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendA j).sem ((rM : Memref sig .tc .vmem S256x256 .bf16).slice (rowR j) (fun _ => rfl))
                  ((sM : Memref sig .tc .vmem S256x256 .bf16).slice (rowR j) (fun _ => rfl)) hs hd) k) Q) := by
  iintro ⟨#HI, Hc, HO, Hat⟩ Hk
  iapply (Rounds.wp_wait_rest_token 𝒱₀ ER (sched m) (c : Thread nD τ) none (κ := K (c, sendK j))
      (wpE_waitDma2_eq 𝒱₀ (c : Thread nD τ) none Set.univ) (Set.mem_univ _) () (O := 0) (W := W) (R := 0) (m := 0) (T := ∅)
      (by rw [expect_send]; exact Nat.zero_add _)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  unfold sendPay
  iapply Hk
  isplitl [HO]; · iexact HO
  isplitl [Hat]; · iexact Hat
  iexact Hp

end Steps

end Cert.KernelIdeal.Hand

end
-- ==== Proof.Regions.lean ====
import proofs.«900698_g7700000000000699_dist_ar_v7x_xyz2x2x2_x_m256_n256_bf16_1_alg».proof.Proof.Data

/-!
# A 256 x 256 scratch buffer as its four blocks of 64 rows

The four row blocks are pairwise disjoint and together are the whole buffer; so holding the buffer whole at
contents `f` is holding each block at `f`, and holding the four blocks at four contents is holding the whole
buffer at the contents that agree with each on its block.
-/

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The set facts, once -/

/-- Two different row blocks share no element: their row ranges are apart. -/
theorem rows_disjoint (j k : Fin 4) (h : j ≠ k) : Disjoint (rowR j).set (rowR k).set := by
  have hj : j.val < 4 := j.isLt
  have hk : k.val < 4 := k.isLt
  have hne : j.val ≠ k.val := fun e => h (Fin.ext e)
  refine Rect.unit_disjoint (0 : Fin 2) ?_
  show 64 * j.val + 64 ≤ 64 * k.val ∨ 64 * k.val + 64 ≤ 64 * j.val
  omega

/-- The four row blocks together are the whole buffer: row r lies in block r / 64. -/
theorem rows_union :
    (rowR 0).set ∪ ((rowR 1).set ∪ ((rowR 2).set ∪ (rowR 3).set)) = (Finset.univ : Finset S256x256.Idx) := by
  ext y
  simp only [Finset.mem_union, Finset.mem_univ, iff_true]
  have h0 : (y 0).val < 256 := (y 0).isLt
  have h1 : (y 1).val < 256 := (y 1).isLt
  have mem : ∀ j : Fin 4, 64 * j.val ≤ (y 0).val → (y 0).val < 64 * j.val + 64 → y ∈ (rowR j).set := by
    intro j hlo hhi
    rw [Rect.mem_set_unit]
    refine Fin.forall_fin_two.mpr ⟨⟨?_, ?_⟩, ⟨?_, ?_⟩⟩
    · show 64 * j.val ≤ (y 0).val; exact hlo
    · show (y 0).val < 64 * j.val + 64; exact hhi
    · show 0 ≤ (y 1).val; omega
    · show (y 1).val < 0 + 256; omega
  by_cases a : (y 0).val < 64
  · exact .inl (mem 0 (by show 64 * 0 ≤ _; omega) (by show _ < 64 * 0 + 64; omega))
  by_cases b : (y 0).val < 128
  · exact .inr (.inl (mem 1 (by show 64 * 1 ≤ _; omega) (by show _ < 64 * 1 + 64; omega)))
  by_cases d : (y 0).val < 192
  · exact .inr (.inr (.inl (mem 2 (by show 64 * 2 ≤ _; omega) (by show _ < 64 * 2 + 64; omega))))
  · exact .inr (.inr (.inr (mem 3 (by show 64 * 3 ≤ _; omega) (by show _ < 64 * 3 + 64; omega))))

/-! ## Four disjoint parts of a buffer -/

section Four

variable {ℓ : Loc nD τ sig} {S0 S1 S2 S3 : Finset (Idx ℓ)} {q : PosShare TreeShare}

omit [FloatOps F] in
/-- A buffer held whole is held part by part, when four pairwise disjoint parts make it up. -/
theorem split4 (h01 : Disjoint S0 S1) (h02 : Disjoint S0 S2) (h03 : Disjoint S0 S3) (h12 : Disjoint S1 S2)
    (h13 : Disjoint S1 S3) (h23 : Disjoint S2 S3) (hu : S0 ∪ (S1 ∪ (S2 ∪ S3)) = Finset.univ) (f : Buf (Elt F) ℓ) :
    (ℓ ↦{q} f : sProp 𝕄) ⊣⊢ iprop((ℓ ↦[S0]{q} f) ∗ (ℓ ↦[S1]{q} f) ∗ (ℓ ↦[S2]{q} f) ∗ ℓ ↦[S3]{q} f) := by
  rw [← hu]
  refine (pointsTo_union (Finset.disjoint_union_right.mpr ⟨h01, Finset.disjoint_union_right.mpr ⟨h02, h03⟩⟩)).trans ?_
  refine sep_congr_right ((pointsTo_union (Finset.disjoint_union_right.mpr ⟨h12, h13⟩)).trans ?_)
  exact sep_congr_right (pointsTo_union h23)

omit [FloatOps F] in
/-- Four pairwise disjoint parts that make up a buffer, each held at its own contents, are the buffer held
    whole at the contents that agree with each on its part. -/
theorem join4 (h01 : Disjoint S0 S1) (h02 : Disjoint S0 S2) (h03 : Disjoint S0 S3) (h12 : Disjoint S1 S2)
    (h13 : Disjoint S1 S3) (h23 : Disjoint S2 S3) (hu : S0 ∪ (S1 ∪ (S2 ∪ S3)) = Finset.univ) (f0 f1 f2 f3 : Buf (Elt F) ℓ) :
    iprop((ℓ ↦[S0]{q} f0) ∗ (ℓ ↦[S1]{q} f1) ∗ (ℓ ↦[S2]{q} f2) ∗ ℓ ↦[S3]{q} f3) ⊢ (iprop(∃ f, ℓ ↦{q} f) : sProp 𝕄) := by
  refine (sep_mono_right (sep_mono_right (pointsTo_join h23))).trans ?_
  refine (sep_mono_right (pointsTo_join (Finset.disjoint_union_right.mpr ⟨h12, h13⟩))).trans ?_
  refine (pointsTo_join (Finset.disjoint_union_right.mpr ⟨h01, Finset.disjoint_union_right.mpr ⟨h02, h03⟩⟩)).trans ?_
  rw [hu]
  exact exists_intro _

end Four

omit [FloatOps F] in
/-- The send buffer whole is its four row blocks, at the same contents. -/
theorem sWhole_split (c : Dev nD) (f : Buf (Elt F) ((c : Thread nD τ).loc cc0_scratch0)) :
    sWhole (F := F) c f ⊣⊢ iprop(sPts c 0 f ∗ sPts c 1 f ∗ sPts c 2 f ∗ sPts c 3 f) := by
  unfold sWhole sPts
  have e : ∀ j : Fin 4, ((sM : Memref sig .tc .vmem S256x256 .bf16).access (rowR j)).set = (rowR j).set :=
    fun j => View.set_slice_whole cc0_scratch0 (rowR j)
  rw [e 0, e 1, e 2, e 3]
  exact split4 (ℓ := (c : Thread nD τ).loc cc0_scratch0) (rows_disjoint 0 1 (by decide)) (rows_disjoint 0 2 (by decide))
    (rows_disjoint 0 3 (by decide)) (rows_disjoint 1 2 (by decide)) (rows_disjoint 1 3 (by decide))
    (rows_disjoint 2 3 (by decide)) rows_union f

omit [FloatOps F] in
/-- The receive buffer whole is its four row blocks, at the same contents. -/
theorem rWhole_split (c : Dev nD) (f : Buf (Elt F) ((c : Thread nD τ).loc cc0_scratch1)) :
    rWhole (F := F) c f ⊣⊢ iprop(rPts c 0 f ∗ rPts c 1 f ∗ rPts c 2 f ∗ rPts c 3 f) := by
  unfold rWhole rPts
  have e : ∀ j : Fin 4, ((rM : Memref sig .tc .vmem S256x256 .bf16).access (rowR j)).set = (rowR j).set :=
    fun j => View.set_slice_whole cc0_scratch1 (rowR j)
  rw [e 0, e 1, e 2, e 3]
  exact split4 (ℓ := (c : Thread nD τ).loc cc0_scratch1) (rows_disjoint 0 1 (by decide)) (rows_disjoint 0 2 (by decide))
    (rows_disjoint 0 3 (by decide)) (rows_disjoint 1 2 (by decide)) (rows_disjoint 1 3 (by decide))
    (rows_disjoint 2 3 (by decide)) rows_union f

omit [FloatOps F] in
/-- Four row blocks of the send buffer, each at its own contents, are the buffer whole at some contents. -/
theorem sWhole_join (c : Dev nD) (f0 f1 f2 f3 : Buf (Elt F) ((c : Thread nD τ).loc cc0_scratch0)) :
    iprop(sPts (F := F) c 0 f0 ∗ sPts c 1 f1 ∗ sPts c 2 f2 ∗ sPts c 3 f3) ⊢ iprop(∃ f, sWhole c f) := by
  unfold sWhole sPts
  have e : ∀ j : Fin 4, ((sM : Memref sig .tc .vmem S256x256 .bf16).access (rowR j)).set = (rowR j).set :=
    fun j => View.set_slice_whole cc0_scratch0 (rowR j)
  rw [e 0, e 1, e 2, e 3]
  exact join4 (ℓ := (c : Thread nD τ).loc cc0_scratch0) (rows_disjoint 0 1 (by decide)) (rows_disjoint 0 2 (by decide))
    (rows_disjoint 0 3 (by decide)) (rows_disjoint 1 2 (by decide)) (rows_disjoint 1 3 (by decide))
    (rows_disjoint 2 3 (by decide)) rows_union f0 f1 f2 f3

omit [FloatOps F] in
/-- Four row blocks of the receive buffer, each at its own contents, are the buffer whole at some contents. -/
theorem rWhole_join (c : Dev nD) (f0 f1 f2 f3 : Buf (Elt F) ((c : Thread nD τ).loc cc0_scratch1)) :
    iprop(rPts (F := F) c 0 f0 ∗ rPts c 1 f1 ∗ rPts c 2 f2 ∗ rPts c 3 f3) ⊢ iprop(∃ f, rWhole c f) := by
  unfold rWhole rPts
  have e : ∀ j : Fin 4, ((rM : Memref sig .tc .vmem S256x256 .bf16).access (rowR j)).set = (rowR j).set :=
    fun j => View.set_slice_whole cc0_scratch1 (rowR j)
  rw [e 0, e 1, e 2, e 3]
  exact join4 (ℓ := (c : Thread nD τ).loc cc0_scratch1) (rows_disjoint 0 1 (by decide)) (rows_disjoint 0 2 (by decide))
    (rows_disjoint 0 3 (by decide)) (rows_disjoint 1 2 (by decide)) (rows_disjoint 1 3 (by decide))
    (rows_disjoint 2 3 (by decide)) rows_union f0 f1 f2 f3

end Cert.KernelIdeal.Hand

end
-- ==== Proof.OutBuf.lean ====
import proofs.«900698_g7700000000000699_dist_ar_v7x_xyz2x2x2_x_m256_n256_bf16_1_alg».proof.Proof.Regions

/-!
# The result buffer after its four stores

Four stores, one per row block, overwrite the whole 256 x 256 buffer: what it then holds does not depend on
what it held before, and is the canonical contents of the four pieces.
-/

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Writing row blocks 0, 1, 2, 3 in turn over any contents `g` leaves the canonical contents of the four pieces. -/
theorem out_written (g : (cc0_stg1_0 : Ref sig .tc).ty.Contents (Elt F)) (p0 p1 p2 p3 : S64x256.Idx → Elt F .bf16) :
    ((oM : Memref sig .tc .vmem S256x256 .bf16).access (rowR 3)).write (Elt F)
        (((oM : Memref sig .tc .vmem S256x256 .bf16).access (rowR 2)).write (Elt F)
          (((oM : Memref sig .tc .vmem S256x256 .bf16).access (rowR 1)).write (Elt F)
            (((oM : Memref sig .tc .vmem S256x256 .bf16).access (rowR 0)).write (Elt F) g p0 Finset.univ) p1 Finset.univ) p2 Finset.univ) p3 Finset.univ
      = View.canon [(⟨rowR 3, p3⟩ : View.Piece (Elt F) S256x256 .bf16), ⟨rowR 2, p2⟩, ⟨rowR 1, p1⟩, ⟨rowR 0, p0⟩] := by
  -- every index lies in one of the four row blocks (row r in block r / 64), so some piece covers it
  have hcov : ∀ y : S256x256.Idx,
      ∃ p ∈ [(⟨rowR 3, p3⟩ : View.Piece (Elt F) S256x256 .bf16), ⟨rowR 2, p2⟩, ⟨rowR 1, p1⟩, ⟨rowR 0, p0⟩], y ∈ p.1.set := by
    intro y
    have h0 : (y 0).val < 256 := (y 0).isLt
    have h1 : (y 1).val < 256 := (y 1).isLt
    have mem : ∀ j : Fin 4, 64 * j.val ≤ (y 0).val → (y 0).val < 64 * j.val + 64 → y ∈ (rowR j).set := by
      intro j hlo hhi
      rw [Rect.mem_set_unit]
      refine Fin.forall_fin_two.mpr ⟨⟨?_, ?_⟩, ⟨?_, ?_⟩⟩
      · show 64 * j.val ≤ (y 0).val; exact hlo
      · show (y 0).val < 64 * j.val + 64; exact hhi
      · show 0 ≤ (y 1).val; omega
      · show (y 1).val < 0 + 256; omega
    by_cases a : (y 0).val < 64
    · exact ⟨_, .tail _ (.tail _ (.tail _ (.head _))), mem 0 (by show 64 * 0 ≤ _; omega) (by show _ < 64 * 0 + 64; omega)⟩
    by_cases b : (y 0).val < 128
    · exact ⟨_, .tail _ (.tail _ (.head _)), mem 1 (by show 64 * 1 ≤ _; omega) (by show _ < 64 * 1 + 64; omega)⟩
    by_cases d : (y 0).val < 192
    · exact ⟨_, .tail _ (.head _), mem 2 (by show 64 * 2 ≤ _; omega) (by show _ < 64 * 2 + 64; omega)⟩
    · exact ⟨_, .head _, mem 3 (by show 64 * 3 ≤ _; omega) (by show _ < 64 * 3 + 64; omega)⟩
  -- the nest of four writes is the list of writes, last write first; read through the whole buffer it is the
  -- canonical contents of a covering list, whatever was there before
  exact View.read_writes_eq_canon (Val := Elt F) (View.whole cc0_stg1_0) g _ hcov

end Cert.KernelIdeal.Hand

end
-- ==== Proof.Body.lean ====
import proofs.«900698_g7700000000000699_dist_ar_v7x_xyz2x2x2_x_m256_n256_bf16_1_alg».proof.Proof.Steps
import proofs.«900698_g7700000000000699_dist_ar_v7x_xyz2x2x2_x_m256_n256_bf16_1_alg».proof.Proof.OutBuf

/-!
# One device's body

Signal the partner's barrier, handing over the receive buffer; wait for the partner's signal and take its
receive buffer; four times: round a row block of the device's half into the send buffer and copy it into the
same block of the partner's receive buffer; four times: wait for the partner's copy of a block, add it to
the device's own block and store the sum in the result buffer; four times: wait until a sent block has
been read. Then both scratch buffers are whole again and the eight copy semaphores are back at zero.
-/

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- the block a device sends and the block of its half are read through their definitions when two assertions are compared
set_option allowUnsafeReducibility true in
attribute [local reducible] xRows sentV

omit [FloatOps F] in
theorem sWhole_blocks (c : Dev nD) (f : Buf (Elt F) ((c : Thread nD τ).loc cc0_scratch0)) :
    sWhole (F := F) c f ⊢ iprop(sPts c 0 f ∗ sPts c 1 f ∗ sPts c 2 f ∗ sPts c 3 f) := (sWhole_split c f).1
omit [FloatOps F] in
theorem rWhole_blocks (c : Dev nD) (f : Buf (Elt F) ((c : Thread nD τ).loc cc0_scratch1)) :
    rWhole (F := F) c f ⊢ iprop(rPts c 0 f ∗ rPts c 1 f ∗ rPts c 2 f ∗ rPts c 3 f) := (rWhole_split c f).1

omit [FloatOps F] in
/-- A device's nine positions, cell by cell. -/
theorem positions_eq (c : Dev nD) :
    positions (F := F) c = iprop(atPos ER (barCell c) 0 ∅ 0
      ∗ atPos ER (sendCell c 0) 0 ∅ 0 ∗ atPos ER (sendCell c 1) 0 ∅ 0 ∗ atPos ER (sendCell c 2) 0 ∅ 0 ∗ atPos ER (sendCell c 3) 0 ∅ 0
      ∗ atPos ER (recvCell c 0) 0 ∅ 0 ∗ atPos ER (recvCell c 1) 0 ∅ 0 ∗ atPos ER (recvCell c 2) 0 ∅ 0 ∗ atPos ER (recvCell c 3) 0 ∅ 0) := by
  unfold positions; rw [bigSep_fin9]; rfl

/-- The semaphores a device has waited on so far: after its barrier; then after each receive wait; then after each send wait. -/
abbrev Wb (W : Waits sig Unit) : Waits sig Unit := insert (SemLoc.reg barS, ()) W
abbrev Wr0 (W : Waits sig Unit) : Waits sig Unit := insert (SemLoc.dma (recvA 0).sem, ()) (Wb W)
abbrev Wr1 (W : Waits sig Unit) : Waits sig Unit := insert (SemLoc.dma (recvA 1).sem, ()) (Wr0 W)
abbrev Wr2 (W : Waits sig Unit) : Waits sig Unit := insert (SemLoc.dma (recvA 2).sem, ()) (Wr1 W)
abbrev Wr3 (W : Waits sig Unit) : Waits sig Unit := insert (SemLoc.dma (recvA 3).sem, ()) (Wr2 W)
abbrev Ws0 (W : Waits sig Unit) : Waits sig Unit := insert (SemLoc.dma (sendA 0).sem, ()) (Wr3 W)
abbrev Ws1 (W : Waits sig Unit) : Waits sig Unit := insert (SemLoc.dma (sendA 1).sem, ()) (Ws0 W)
abbrev Ws2 (W : Waits sig Unit) : Waits sig Unit := insert (SemLoc.dma (sendA 2).sem, ()) (Ws1 W)
abbrev Ws3 (W : Waits sig Unit) : Waits sig Unit := insert (SemLoc.dma (sendA 3).sem, ()) (Ws2 W)

/-- The sum stored as row block `j` of the result on device `c`. -/
abbrev sumOf (c : Dev nD) (j : Fin 4) : Vec F S64x256 .bf16 := sumRows (xRows (xstg m c) j) (sentV (xstg m (partner c)) j)

/-- The result buffer after blocks 0 to `j` have been stored, over what it held (`g`). -/
abbrev out0 (c : Dev nD) (g : Buf (Elt F) ((c : Thread nD τ).loc cc0_stg1_0)) : Buf (Elt F) ((c : Thread nD τ).loc cc0_stg1_0) :=
  ((oM : Memref sig .tc .vmem S256x256 .bf16).access (rowR 0)).write (Elt F) g (sumOf m c 0) Finset.univ
abbrev out1 (c : Dev nD) (g : Buf (Elt F) ((c : Thread nD τ).loc cc0_stg1_0)) : Buf (Elt F) ((c : Thread nD τ).loc cc0_stg1_0) :=
  ((oM : Memref sig .tc .vmem S256x256 .bf16).access (rowR 1)).write (Elt F) (out0 m c g) (sumOf m c 1) Finset.univ
abbrev out2 (c : Dev nD) (g : Buf (Elt F) ((c : Thread nD τ).loc cc0_stg1_0)) : Buf (Elt F) ((c : Thread nD τ).loc cc0_stg1_0) :=
  ((oM : Memref sig .tc .vmem S256x256 .bf16).access (rowR 2)).write (Elt F) (out1 m c g) (sumOf m c 2) Finset.univ
abbrev out3 (c : Dev nD) (g : Buf (Elt F) ((c : Thread nD τ).loc cc0_stg1_0)) : Buf (Elt F) ((c : Thread nD τ).loc cc0_stg1_0) :=
  ((oM : Memref sig .tc .vmem S256x256 .bf16).access (rowR 3)).write (Elt F) (out2 m c g) (sumOf m c 3) Finset.univ

/-- Whatever the result buffer held, after the four stores it holds the device's half plus its partner's. -/
theorem out3_eq (c : Dev nD) (g : Buf (Elt F) ((c : Thread nD τ).loc cc0_stg1_0)) : out3 m c g = outOf m c :=
  out_written g (sumOf m c 0) (sumOf m c 1) (sumOf m c 2) (sumOf m c 3)

set_option maxHeartbeats 1600000 in
/-- The body, run from `bodyPre` to `bodyPost`. -/
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre Φ₀ start ghost payToks
  rw [positions_eq]
  simp only [bigSep_fin4]
  iintro ⟨⟨⟨⟨⟨%K, #Hrec, ⟨HaB, HaS0, HaS1, HaS2, HaS3, HaR0, HaR1, HaR2, HaR3⟩, HtB, ⟨HtR0, HtR1, HtR2, HtR3⟩, ⟨HtS0, HtS1, HtS2, HtS3⟩⟩,
      HcB, ⟨HcR0, HcR1, HcR2, HcR3⟩, #Hlev⟩, ⟨%fs, Hs⟩, ⟨%fr, Hr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c]
  -- both scratch buffers by row blocks
  ihave Hr4 := (rWhole_blocks c fr) $$ Hr
  icases Hr4 with ⟨Hr0, Hr1, Hr2, Hr3⟩
  ihave Hs4 := (sWhole_blocks c fs) $$ Hs
  icases Hs4 with ⟨Hs0, Hs1, Hs2, Hs3⟩
  -- the signal to the partner's barrier: the receive buffer block by block, and that the four receive cells are at round 0
  iapply (Rounds.wp_signal 𝒱₀ ER (sched m) (c : Thread nD τ) none (dst := (partner c : Thread nD τ)) (κ := K (partner c, 0))
      (d := ()) (mem_duties_bar m (partner c)) ((amount_bar m (partner c) ()).trans (by decide)) () (OR0 c) rfl)
    $$ [HO HtB Hr0 Hr1 Hr2 Hr3]
  · isplitr; · iapply (inv_at m K (partner c, 0)); iexact Hrec
    isplitl [HO]; · iexact HO
    isplitl [HtB]; · iexact HtB
    isplitl [Hr0 Hr1 Hr2 Hr3]
    · rw [payload_bar]; unfold barPay; rw [partner_partner]
      isplitl [Hr0 Hr1 Hr2 Hr3]
      · isplitl [Hr0]; · iexists fr; iexact Hr0
        isplitl [Hr1]; · iexists fr; iexact Hr1
        isplitl [Hr2]; · iexists fr; iexact Hr2
        iexists fr; iexact Hr3
      · isplitr; · iapply (reached_at m K (c, recvK 0)); iexact Hrec
        isplitr; · iapply (reached_at m K (c, recvK 1)); iexact Hrec
        isplitr; · iapply (reached_at m K (c, recvK 2)); iexact Hrec
        iapply (reached_at m K (c, recvK 3)); iexact Hrec
    · iapply (reached_at m K (partner c, 0)); iexact Hrec
  iintro HO
  -- the wait on its own barrier, owing the partner's four receive credits: the partner's receive buffer comes with it
  iapply (Rounds.wp_wait_rest_token 𝒱₀ ER (sched m) (c : Thread nD τ) none (κ := K (c, 0))
      (wpE_semWait_eq 𝒱₀ (c : Thread nD τ) none Set.univ) (Set.mem_univ _) () (O := OR0 c) (W := W) (R := 0) (m := 0) (T := ∅)
      (by rw [expect_bar]; decide)) $$ [HcB HO HaB]
  · isplitr; · iapply (inv_at m K (c, 0)); iexact Hrec
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPay
  icases Hp with ⟨⟨⟨%fp0, Hp0⟩, ⟨%fp1, Hp1⟩, ⟨%fp2, Hp2⟩, ⟨%fp3, Hp3⟩⟩, -⟩
  -- FILL AND SEND the four blocks, each paying one of the receive credits owed
  unfold OR0
  iapply (wp_fill_send_row m K c 0 _ (dev2_eq c) fs fp0 (OR1 c) (Wb W)) $$ [Hx Hs0 Hp0 HO HtS0 HtR0]
  · isplitr; · iapply (inv_at m K (c, sendK 0)); iexact Hrec
    isplitr; · iapply (inv_at m K (partner c, recvK 0)); iexact Hrec
    isplitl [Hx]; · iexact Hx
    isplitl [Hs0]; · iexact Hs0
    isplitl [Hp0]; · iexact Hp0
    isplitl [HO]; · iexact HO
    isplitl [HtS0]; · iexact HtS0
    isplitr; · iapply (reached_at m K (c, sendK 0)); iexact Hrec
    isplitl [HtR0]; · iexact HtR0
    iapply (reached_at m K (partner c, recvK 0)); iexact Hrec
  iintro ⟨Hx, HcS0, HO⟩
  unfold OR1
  iapply (wp_fill_send_row m K c 1 _ (dev3_eq c) fs fp1 (OR2 c) (Wb W)) $$ [Hx Hs1 Hp1 HO HtS1 HtR1]
  · isplitr; · iapply (inv_at m K (c, sendK 1)); iexact Hrec
    isplitr; · iapply (inv_at m K (partner c, recvK 1)); iexact Hrec
    isplitl [Hx]; · iexact Hx
    isplitl [Hs1]; · iexact Hs1
    isplitl [Hp1]; · iexact Hp1
    isplitl [HO]; · iexact HO
    isplitl [HtS1]; · iexact HtS1
    isplitr; · iapply (reached_at m K (c, sendK 1)); iexact Hrec
    isplitl [HtR1]; · iexact HtR1
    iapply (reached_at m K (partner c, recvK 1)); iexact Hrec
  iintro ⟨Hx, HcS1, HO⟩
  unfold OR2
  iapply (wp_fill_send_row m K c 2 _ (dev4_eq c) fs fp2 (OR3 c) (Wb W)) $$ [Hx Hs2 Hp2 HO HtS2 HtR2]
  · isplitr; · iapply (inv_at m K (c, sendK 2)); iexact Hrec
    isplitr; · iapply (inv_at m K (partner c, recvK 2)); iexact Hrec
    isplitl [Hx]; · iexact Hx
    isplitl [Hs2]; · iexact Hs2
    isplitl [Hp2]; · iexact Hp2
    isplitl [HO]; · iexact HO
    isplitl [HtS2]; · iexact HtS2
    isplitr; · iapply (reached_at m K (c, sendK 2)); iexact Hrec
    isplitl [HtR2]; · iexact HtR2
    iapply (reached_at m K (partner c, recvK 2)); iexact Hrec
  iintro ⟨Hx, HcS2, HO⟩
  rw [show OR3 c = 0 + tallyAt (recvCell (partner c) 3) () N from (zero_add _).symm]
  iapply (wp_fill_send_row m K c 3 _ (dev5_eq c) fs fp3 (0) (Wb W)) $$ [Hx Hs3 Hp3 HO HtS3 HtR3]
  · isplitr; · iapply (inv_at m K (c, sendK 3)); iexact Hrec
    isplitr; · iapply (inv_at m K (partner c, recvK 3)); iexact Hrec
    isplitl [Hx]; · iexact Hx
    isplitl [Hs3]; · iexact Hs3
    isplitl [Hp3]; · iexact Hp3
    isplitl [HO]; · iexact HO
    isplitl [HtS3]; · iexact HtS3
    isplitr; · iapply (reached_at m K (c, sendK 3)); iexact Hrec
    isplitl [HtR3]; · iexact HtR3
    iapply (reached_at m K (partner c, recvK 3)); iexact Hrec
  iintro ⟨Hx, HcS3, HO⟩
  -- RECEIVE AND ADD the four blocks
  iapply (wp_recv_add_row m K c 0 (g1) (Wb W)) $$ [HcR0 HO HaR0 Hx Hout]
  · isplitr; · iapply (inv_at m K (c, recvK 0)); iexact Hrec
    isplitl [HcR0]; · iexact HcR0
    isplitl [HO]; · iexact HO
    isplitl [HaR0]; · iexact HaR0
    isplitl [Hx]; · iexact Hx
    iexact Hout
  iintro ⟨HO, HaR0, ⟨%fr0, Hr0⟩, Hx, Hout⟩
  iapply (wp_recv_add_row m K c 1 (out0 m c g1) (Wr0 W)) $$ [HcR1 HO HaR1 Hx Hout]
  · isplitr; · iapply (inv_at m K (c, recvK 1)); iexact Hrec
    isplitl [HcR1]; · iexact HcR1
    isplitl [HO]; · iexact HO
    isplitl [HaR1]; · iexact HaR1
    isplitl [Hx]; · iexact Hx
    iexact Hout
  iintro ⟨HO, HaR1, ⟨%fr1, Hr1⟩, Hx, Hout⟩
  iapply (wp_recv_add_row m K c 2 (out1 m c g1) (Wr1 W)) $$ [HcR2 HO HaR2 Hx Hout]
  · isplitr; · iapply (inv_at m K (c, recvK 2)); iexact Hrec
    isplitl [HcR2]; · iexact HcR2
    isplitl [HO]; · iexact HO
    isplitl [HaR2]; · iexact HaR2
    isplitl [Hx]; · iexact Hx
    iexact Hout
  iintro ⟨HO, HaR2, ⟨%fr2, Hr2⟩, Hx, Hout⟩
  iapply (wp_recv_add_row m K c 3 (out2 m c g1) (Wr2 W)) $$ [HcR3 HO HaR3 Hx Hout]
  · isplitr; · iapply (inv_at m K (c, recvK 3)); iexact Hrec
    isplitl [HcR3]; · iexact HcR3
    isplitl [HO]; · iexact HO
    isplitl [HaR3]; · iexact HaR3
    isplitl [Hx]; · iexact Hx
    iexact Hout
  iintro ⟨HO, HaR3, ⟨%fr3, Hr3⟩, Hx, Hout⟩
  -- SENT: the four blocks of the send buffer come back
  iapply (wp_wait_send_row m K c 0 (Wr3 W)) $$ [HcS0 HO HaS0]
  · isplitr; · iapply (inv_at m K (c, sendK 0)); iexact Hrec
    isplitl [HcS0]; · iexact HcS0
    isplitl [HO]; · iexact HO
    iexact HaS0
  iintro ⟨HO, HaS0, ⟨%fs0, Hs0⟩⟩
  iapply (wp_wait_send_row m K c 1 (Ws0 W)) $$ [HcS1 HO HaS1]
  · isplitr; · iapply (inv_at m K (c, sendK 1)); iexact Hrec
    isplitl [HcS1]; · iexact HcS1
    isplitl [HO]; · iexact HO
    iexact HaS1
  iintro ⟨HO, HaS1, ⟨%fs1, Hs1⟩⟩
  iapply (wp_wait_send_row m K c 2 (Ws1 W)) $$ [HcS2 HO HaS2]
  · isplitr; · iapply (inv_at m K (c, sendK 2)); iexact Hrec
    isplitl [HcS2]; · iexact HcS2
    isplitl [HO]; · iexact HO
    iexact HaS2
  iintro ⟨HO, HaS2, ⟨%fs2, Hs2⟩⟩
  iapply (wp_wait_send_row m K c 3 (Ws2 W)) $$ [HcS3 HO HaS3]
  · isplitr; · iapply (inv_at m K (c, sendK 3)); iexact Hrec
    isplitl [HcS3]; · iexact HcS3
    isplitl [HO]; · iexact HO
    iexact HaS3
  iintro ⟨HO, HaS3, ⟨%fs3, Hs3⟩⟩
  -- the eight own cells close: their counters at zero are the core's again
  imod (Rounds.cell_close ER (sched m) (Set.mem_univ (K (c, sendK 0))) (fun h => h) (R := 0 + 1) (duties_later m (sendCell c 0))) $$ [HaS0] with HzS0
  · isplitr; · iapply (inv_at m K (c, sendK 0)); iexact Hrec
    iexact HaS0
  imod (Rounds.cell_close ER (sched m) (Set.mem_univ (K (c, sendK 1))) (fun h => h) (R := 0 + 1) (duties_later m (sendCell c 1))) $$ [HaS1] with HzS1
  · isplitr; · iapply (inv_at m K (c, sendK 1)); iexact Hrec
    iexact HaS1
  imod (Rounds.cell_close ER (sched m) (Set.mem_univ (K (c, sendK 2))) (fun h => h) (R := 0 + 1) (duties_later m (sendCell c 2))) $$ [HaS2] with HzS2
  · isplitr; · iapply (inv_at m K (c, sendK 2)); iexact Hrec
    iexact HaS2
  imod (Rounds.cell_close ER (sched m) (Set.mem_univ (K (c, sendK 3))) (fun h => h) (R := 0 + 1) (duties_later m (sendCell c 3))) $$ [HaS3] with HzS3
  · isplitr; · iapply (inv_at m K (c, sendK 3)); iexact Hrec
    iexact HaS3
  imod (Rounds.cell_close ER (sched m) (Set.mem_univ (K (c, recvK 0))) (fun h => h) (R := 0 + 1) (duties_later m (recvCell c 0))) $$ [HaR0] with HzR0
  · isplitr; · iapply (inv_at m K (c, recvK 0)); iexact Hrec
    iexact HaR0
  imod (Rounds.cell_close ER (sched m) (Set.mem_univ (K (c, recvK 1))) (fun h => h) (R := 0 + 1) (duties_later m (recvCell c 1))) $$ [HaR1] with HzR1
  · isplitr; · iapply (inv_at m K (c, recvK 1)); iexact Hrec
    iexact HaR1
  imod (Rounds.cell_close ER (sched m) (Set.mem_univ (K (c, recvK 2))) (fun h => h) (R := 0 + 1) (duties_later m (recvCell c 2))) $$ [HaR2] with HzR2
  · isplitr; · iapply (inv_at m K (c, recvK 2)); iexact Hrec
    iexact HaR2
  imod (Rounds.cell_close ER (sched m) (Set.mem_univ (K (c, recvK 3))) (fun h => h) (R := 0 + 1) (duties_later m (recvCell c 3))) $$ [HaR3] with HzR3
  · isplitr; · iapply (inv_at m K (c, recvK 3)); iexact Hrec
    iexact HaR3
  -- both scratch buffers whole again
  ihave Hs := (sWhole_join c fs0 fs1 fs2 fs3) $$ [Hs0 Hs1 Hs2 Hs3]
  · isplitl [Hs0]; · iexact Hs0
    isplitl [Hs1]; · iexact Hs1
    isplitl [Hs2]; · iexact Hs2
    iexact Hs3
  ihave Hr := (rWhole_join c fr0 fr1 fr2 fr3) $$ [Hr0 Hr1 Hr2 Hr3]
  · isplitl [Hr0]; · iexact Hr0
    isplitl [Hr1]; · iexact Hr1
    isplitl [Hr2]; · iexact Hr2
    iexact Hr3
  rw [wp_ret]; imodintro
  iapply Hk
  unfold bodyPost Φ₁ Dat.owesAt Pipeline.owesWithin
  rw [show (dats m 0 c).owed t₀.succ = 0 from rfl]
  simp only [bigSep_fin4]
  isplitl [Hs Hr HzS0 HzS1 HzS2 HzS3 HzR0 HzR1 HzR2 HzR3]
  · isplitl [Hs]; · iexact Hs
    isplitl [Hr]; · iexact Hr
    isplitl [HzS0 HzS1 HzS2 HzS3]
    · isplitl [HzS0]; · iexact HzS0
      isplitl [HzS1]; · iexact HzS1
      isplitl [HzS2]; · iexact HzS2
      iexact HzS3
    · isplitl [HzR0]; · iexact HzR0
      isplitl [HzR1]; · iexact HzR1
      isplitl [HzR2]; · iexact HzR2
      iexact HzR3
  isplitl [HO]
  · iexists (Ws3 W)
    isplitr; · ipureintro; exact fun _ _ => Or.inl trivial
    iexact HO
  isplitl [Hx]
  · iexists _; isplitr; · (ipureintro; rfl)
    iexact Hx
  iexists (out3 m c g1); isplitr; · (ipureintro; exact out3_eq m c g1)
  iexact Hout

set_option maxRecDepth 8000 in
/-- The pipeline's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) (fun _ => bodyPost m c)
  iintro H
  iapply (sound_body m c fun _ => bodyPost m c)
  isplitl [H]; · iexact H
  iintro H; iexact H

end Cert.KernelIdeal.Hand

end
-- ==== Proof.Launch.lean ====
import proofs.«900698_g7700000000000699_dist_ar_v7x_xyz2x2x2_x_m256_n256_bf16_1_alg».proof.Proof.Data

/-!
# The launch: from every device's body to the run of the whole mesh
-/

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-!
The launch element is a pair: the pipeline's staging cells, and the 72 protocol cells (nine a device) with one
token per cell. Funding it gives every device the round state, position, reached mark and token of its own
nine cells. The global step closes each cell's invariant over its counter at zero, gathers all 72 invariants
and reached marks (persistent: every device gets all of them), and deals the tokens to the devices that PAY
them: barrier and receive tokens cross to the partner, send tokens stay. The launch credit of a device is one
unit on its barrier and one copy's credit on each receive cell, all from its partner.
-/

/-! ## The layout facts the launch takes -/

theorem ownSemFacts : Pipeline.OwnSemFacts cfg0.spec osem := by decide

theorem share_eq (c : Dev nD) (w : Fin cfg0.W) : (dats m 0 c).share w = fullShare := by unfold Dat.share; split <;> rfl

/-! ## The launch element -/

theorem kcell_injective : Function.Injective (kcell : Dev nD × Fin 9 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- The 72 protocol cells. -/
def allCells : Finset (GSem nD τ sig) := Finset.univ.map ⟨kcell, kcell_injective⟩

/-- One token per cell: its one duty of round 0. -/
abbrev tokOf (ck : Dev nD × Fin 9) : GSem nD τ sig × ℕ × Unit := (kcell ck, 0, ())
theorem tokOf_injective : Function.Injective (tokOf : Dev nD × Fin 9 → GSem nD τ sig × ℕ × Unit) :=
  fun a b h => kcell_injective (congrArg Prod.fst h)
def allToks : Finset (GSem nD τ sig × ℕ × Unit) := Finset.univ.map ⟨tokOf, tokOf_injective⟩

def u₀ : UU :=
  (initOf (Pipeline.cells cfgs cellOf_inj) (Pipeline.launchToks cfgs cellOf_inj), initOf allCells allToks)

/-- The duty tokens of device `c`'s own nine cells, as minted. -/
def toks (c : Dev nD) : sProp 𝕄 := bigSep Finset.univ fun k : Fin 9 => dutyTok ER (kcell (c, k)) 0 ()

/-- What the launch element deals device `c`: round state, position, reached mark and token of each of its cells. -/
def G (c : Dev nD) : sProp 𝕄 :=
  iprop((bigSep Finset.univ fun k : Fin 9 => roundState ER (sched m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero, cell by cell -/

omit [FloatOps F] in
/-- The send and receive semaphores are the kernel's own eight; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
        ∗ semVal (kcell (c, 5)) 0 ∗ semVal (kcell (c, 6)) 0 ∗ semVal (kcell (c, 7)) 0 ∗ semVal (kcell (c, 8)) 0) := by
  rw [Pipeline.ownSems0_eq_of_list c osem [0, 1, 2, 3, 4, 5, 6, 7] (by decide) (by decide)]; rfl
omit [FloatOps F] in
/-- the barrier semaphore the core's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨H, HB⟩
  isplitl [HB]; · iexact HB
  iexact H

/-- Each of a device's nine cells closed under its invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 9 => iprop(∃ κ : ℕ, cellInv ER (sched m) κ (kcell (c, k))))
          ∗ (bigSep Finset.univ fun k : Fin 9 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (sched m) (kcell (c, k)) 0)
      ⊢ (|={Set.univ}=> bigSep Finset.univ fun k : Fin 9 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The global step: gather what is persistent, deal the tokens to the devices that pay them -/

theorem ghost_intro (K : Dev nD × Fin 9 → ℕ) (c : Dev nD) : iprop(records m K ∗ positions c ∗ payToks c) ⊢ G' m c := by
  unfold G' ghost
  iintro H
  iexists K
  iexact H

omit [FloatOps F] in
/-- A device's nine tokens by kind: its barrier's, its four send cells', its four receive cells'. -/
theorem toks_kinds (c : Dev nD) :
    (toks c : sProp 𝕄) ⊢ iprop(dutyTok ER (barCell c) 0 () ∗ (bigSep Finset.univ fun j : Fin 4 => dutyTok ER (sendCell c j) 0 ())
      ∗ (bigSep Finset.univ fun j : Fin 4 => dutyTok ER (recvCell c j) 0 ())) := by
  unfold toks
  rw [bigSep_fin9, bigSep_fin4, bigSep_fin4]
  iintro ⟨H0, H1, H2, H3, H4, H5, H6, H7, H8⟩
  isplitl [H0]; · iexact H0
  isplitl [H1 H2 H3 H4]
  · isplitl [H1]; · iexact H1
    isplitl [H2]; · iexact H2
    isplitl [H3]; · iexact H3
    iexact H4
  · isplitl [H5]; · iexact H5
    isplitl [H6]; · iexact H6
    isplitl [H7]; · iexact H7
    iexact H8

omit [FloatOps F] in
/-- The tokens dealt across the swap: a barrier's token and the four receive tokens go to the partner (who pays those
    duties), the four send tokens stay. -/
theorem kinds_around :
    (bigSep Finset.univ fun c : Dev nD => iprop(dutyTok ER (barCell c) 0 () ∗ (bigSep Finset.univ fun j : Fin 4 => dutyTok ER (sendCell c j) 0 ())
      ∗ (bigSep Finset.univ fun j : Fin 4 => dutyTok ER (recvCell c j) 0 ())) : sProp 𝕄) ⊢ bigSep Finset.univ fun c : Dev nD => payToks c := by
  unfold payToks
  rw [bigSep_sep', bigSep_sep', bigSep_sep', bigSep_sep',
    bigSep_univ_equiv swap (fun c : Dev nD => (dutyTok ER (barCell c) 0 () : sProp 𝕄)),
    bigSep_univ_equiv swap (fun c : Dev nD => (bigSep Finset.univ fun j : Fin 4 => dutyTok ER (recvCell c j) 0 () : sProp 𝕄))]
  iintro ⟨H1, H2, H3⟩
  isplitl [H1]; · iexact H1
  isplitl [H3]; · iexact H3
  iexact H2

omit [FloatOps F] in
theorem toks_around : (bigSep Finset.univ fun c : Dev nD => (toks c : sProp 𝕄)) ⊢ bigSep Finset.univ fun c : Dev nD => payToks c :=
  (bigSep_mono fun c _ => toks_kinds (F := F) c).trans (kinds_around (F := F))

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 9 => iprop(∃ κ : ℕ, cellInv ER (sched m) κ (kcell (c, k))))
          ∗ (bigSep Finset.univ fun k : Fin 9 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What the others owe device `c` at launch, all of it from its partner: one unit on its barrier, one copy's credit on
    each receive cell. -/
theorem creds (c : Dev nD) :
    (Pipeline.launchCred O₀ c : sProp 𝕄)
      ⊢ iprop(cred (tallyAt (barCell c) () 1) ∗ bigSep Finset.univ fun j : Fin 4 => cred (tallyAt (recvCell c j) () N)) := by
  have hr (j : Fin 4) : (Pipeline.launchCred (fun d : Dev nD => (tallyAt (recvCell (partner d) j) () N : CellTallies nD τ sig Unit)) c : sProp 𝕄)
      ⊢ cred (tallyAt (recvCell c j) () N) :=
    Pipeline.launchCred_tallyAt (.dma (recvA j).sem) partner partner partner_partner partner_partner () N c
  have hb : (Pipeline.launchCred (fun d : Dev nD => (tallyAt (barCell (partner d)) () 1 : CellTallies nD τ sig Unit)) c : sProp 𝕄)
      ⊢ cred (tallyAt (barCell c) () 1) :=
    Pipeline.launchCred_tallyAt (.reg barS) partner partner partner_partner partner_partner () 1 c
  rw [show (O₀ : Dev nD → CellTallies nD τ sig Unit) = fun d => OR0 d + tallyAt (barCell (partner d)) () 1 from rfl, Pipeline.launchCred_add,
    show (OR0 : Dev nD → CellTallies nD τ sig Unit) = fun d => OR1 d + tallyAt (recvCell (partner d) 0) () N from rfl, Pipeline.launchCred_add,
    show (OR1 : Dev nD → CellTallies nD τ sig Unit) = fun d => OR2 d + tallyAt (recvCell (partner d) 1) () N from rfl, Pipeline.launchCred_add,
    show (OR2 : Dev nD → CellTallies nD τ sig Unit) = fun d => OR3 d + tallyAt (recvCell (partner d) 2) () N from rfl, Pipeline.launchCred_add,
    show (OR3 : Dev nD → CellTallies nD τ sig Unit) = fun d => tallyAt (recvCell (partner d) 3) () N from rfl, bigSep_fin4]
  iintro ⟨⟨⟨⟨H3, H2⟩, H1⟩, H0⟩, HB⟩
  isplitl [HB]; · iapply hb; iexact HB
  isplitl [H0]; · iapply (hr 0); iexact H0
  isplitl [H1]; · iapply (hr 1); iexact H1
  isplitl [H2]; · iapply (hr 2); iexact H2
  iapply (hr 3); iexact H3

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- Entering the region: the two scratch buffers whole, at whatever they hold. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ sWhole rWhole
  iintro ⟨Hs, -, Hs0, Hs1⟩
  isplitl [Hs]; · iexact Hs
  isplitl [Hs0]; · iexact Hs0
  iexact Hs1

/-- Leaving it: the same two whole again, and the eight own semaphores back at zero. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ sWhole rWhole
  rw [bigSep_fin4, bigSep_fin4]
  iintro ⟨Hs0, Hs1, ⟨S0, S1, S2, S3⟩, ⟨R0, R1, R2, R3⟩⟩
  isplitr; · iempintro
  isplitr [Hs0 Hs1]
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  isplitl [Hs0]; · iexact Hs0
  iexact Hs1

/-- The pipeline's own waits are on the two staging semaphores: at the bottom level, below everything owed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From each device's body: every weakly fair execution of the eight devices terminates, and every final state has
    each windowed array at what the pipeline's write-backs leave. -/
theorem run_main (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays -/

/-- The argument array is an input window's: never written. -/
theorem finalA_in (c : Dev nD) : finalA m c (0 : Fin 2) = m ((c : Thread nD τ).loc main_arg0) :=
  (dats (F := F) m 0 c).arrAt_in (0 : Fin 2) rfl _

omit [FloatOps F] in
/-- The result window's one block is the whole array: reading it reads the array. -/
theorem read_blk_out (X : (main_v1 : Ref sig .tc).ty.Contents (Elt F)) : ((cfg0.win (1 : Fin 2)).blk t₀).view.read (Elt F) X = X :=
  Memref.read_access_unit_zero (Elt F) main_v1 (off := fun a => (cfg0.win (1 : Fin 2)).index t₀ a * (cfg0.win (1 : Fin 2)).size a)
    (funext fun a => Nat.zero_mul _) (fun a => Pipeline.Clip.inb ((cfg0.win (1 : Fin 2)).hclip (cfg0.grid.coords t₀) a)) X

/-- The result array is written back once, whole, at the one point: it ends at what the body left in its staging
    buffer. -/
theorem finalA_out (c : Dev nD) : finalA m c (1 : Fin 2) = outOf m c := by
  have h := (dats (F := F) m 0 c).arrAt_succ (1 : Fin 2) t₀
  rw [flush0_1, if_pos rfl] at h
  show (dats m 0 c).arrAt (1 : Fin 2) (t₀.val + 1) = _
  rw [h]
  exact (read_blk_out _).symm.trans (View.read_write_univ _ _)

/-- From any memory with zero counters, given each device's body: every weakly fair execution of the eight devices
    terminates, and every final state has each device's result array at its half plus its partner's (`outOf`) and its
    argument array unchanged. -/
theorem run_vals (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩ (fun r => ∀ c : Dev nD,
      r.2.mem ((c.tc : Thread nD τ).loc main_v1) = outOf m c
      ∧ r.2.mem ((c.tc : Thread nD τ).loc main_arg0) = m ((c.tc : Thread nD τ).loc main_arg0)) :=
  (θ_run defs _ _).mono (fun _ h c => ⟨(h c (1 : Fin 2)).trans (finalA_out m c), (h c (0 : Fin 2)).trans (finalA_in m c)⟩) (run_main m hbody ρ)

/-- info: 'Cert.KernelIdeal.Hand.run_vals' depends on axioms: [propext, Classical.choice, Quot.sound] -/
#guard_msgs in #print axioms run_vals

end Cert.KernelIdeal.Hand

end
-- ==== Proof.Bits.Spec.lean ====
import proofs.«900698_g7700000000000699_dist_ar_v7x_xyz2x2x2_x_m256_n256_bf16_1_alg».proof.Proof.Gen.Kernel.Skeleton
import proofs.«900698_g7700000000000699_dist_ar_v7x_xyz2x2x2_x_m256_n256_bf16_1_alg».proof.Proof.Gen.Kernel.Launch
import proofs.«900698_g7700000000000699_dist_ar_v7x_xyz2x2x2_x_m256_n256_bf16_1_alg».proof.Proof.Gen.Kernel.Points
import proofs.«900698_g7700000000000699_dist_ar_v7x_xyz2x2x2_x_m256_n256_bf16_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic

/-!
# The exchange with the partner device: names and contents

Eight devices on a 2 x 2 x 2 mesh. Device `c` holds one half (256 rows) of a 512 x 256 array and its
PARTNER is the device with the other half: the one whose first mesh coordinate is flipped, `c + 4 (mod 8)`.
Each device rounds its half to bf16 into a send buffer, four blocks of 64 rows at a time, copies each block
into the partner's receive buffer, and adds what it receives, block by block, to its own half.

This module fixes the vocabulary every other module speaks: the partner map and the five printed device
chains (all five are the partner), the four row blocks as rectangles of the 256 x 256 buffers, the two
functions of a block the body computes (round to bf16; add and round), the block a device sends, and the
contents `outAt` its result buffer ends with, as a function of its own half and the partner's.
-/

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The partner -/

/-- The device holding the other half: the first mesh coordinate flipped. -/
def partner (c : Dev nD) : Dev nD := ⟨(c.val + 4) % 8, Nat.mod_lt _ (by decide)⟩

theorem partner_partner (c : Dev nD) : partner (partner c) = c := by revert c; decide
theorem partner_ne (c : Dev nD) : partner c ≠ c := by revert c; decide

theorem partner_closed : ∀ c : Dev nD, (2 * ((c.val / 2) % 2) + (c.val % 2) + 4) - 4 * (c.val / 4) = (partner c).val := by decide

/-- Each printed device chain (the barrier signal's and the four copies') names the partner. -/
theorem dev1_eq (c : Dev nD) : (⟨k0_dev1 c, k0_dev1_lt c⟩ : Dev nD) = partner c := Fin.ext ((k0_dev1_eq c).trans (partner_closed c))
theorem dev2_eq (c : Dev nD) : (⟨k0_dev2 c, k0_dev2_lt c⟩ : Dev nD) = partner c := Fin.ext ((k0_dev2_eq c).trans (partner_closed c))
theorem dev3_eq (c : Dev nD) : (⟨k0_dev3 c, k0_dev3_lt c⟩ : Dev nD) = partner c := Fin.ext ((k0_dev3_eq c).trans (partner_closed c))
theorem dev4_eq (c : Dev nD) : (⟨k0_dev4 c, k0_dev4_lt c⟩ : Dev nD) = partner c := Fin.ext ((k0_dev4_eq c).trans (partner_closed c))
theorem dev5_eq (c : Dev nD) : (⟨k0_dev5 c, k0_dev5_lt c⟩ : Dev nD) = partner c := Fin.ext ((k0_dev5_eq c).trans (partner_closed c))

/-- The partner map as a permutation of the devices (its own inverse). -/
def swap : Dev nD ≃ Dev nD := ⟨partner, partner, partner_partner, partner_partner⟩

/-! ## The four row blocks -/

theorem rowR_inb (j : Fin 4) : ∀ a, (![64 * j.val, 0] : Fin 2 → Nat) a + S64x256.size a ≤ S256x256.size a := by
  revert j; decide

/-- Rows `64 j` to `64 j + 63`, all 256 columns. -/
abbrev rowR (j : Fin 4) : Rect S256x256 := Rect.unit (s := S256x256) ![64 * j.val, 0] S64x256.size (rowR_inb j)

/-! ## The memrefs -/

abbrev xM : Memref sig .tc .vmem S256x256 .f32 := Memref.whole cc0_stg0_0
abbrev oM : Memref sig .tc .vmem S256x256 .bf16 := Memref.whole cc0_stg1_0
abbrev sM : Memref sig .tc .vmem S256x256 .bf16 := Memref.whole cc0_scratch0
abbrev rM : Memref sig .tc .vmem S256x256 .bf16 := Memref.whole cc0_scratch1

/-! ## What the body computes of a block -/

/-- A block of 64 rows rounded to bf16 (what goes into the send buffer). -/
def truncRows (v : Vec F S64x256 .f32) : FVec F S64x256 .bf16 :=
  shapeCast S64x256 (truncf .bf16 (shapeCast S64x256 v shapeCasts_S64x256_S64x256) bitsLt_bf16_f32) shapeCasts_S64x256_S64x256

/-- A block of the device's own half plus the received bf16 block widened, rounded to bf16 (what goes into the result). -/
def sumRows (a : Vec F S64x256 .f32) (b : Vec F S64x256 .bf16) : FVec F S64x256 .bf16 :=
  truncf .bf16 (addf (shapeCast S64x256 a shapeCasts_S64x256_S64x256) (extf .f32 b bitsLt_bf16_f32)) bitsLt_bf16_f32

theorem pay1_eq (v : Vec F S64x256 .f32) : k0_pay1 v = truncRows v := rfl
theorem pay2_eq (v : Vec F S64x256 .f32) : k0_pay2 v = truncRows v := rfl
theorem pay3_eq (v : Vec F S64x256 .f32) : k0_pay3 v = truncRows v := rfl
theorem pay4_eq (v : Vec F S64x256 .f32) : k0_pay4 v = truncRows v := rfl
theorem pay5_eq (a : Vec F S64x256 .f32) (b : Vec F S64x256 .bf16) : k0_pay5 a b = sumRows a b := rfl
theorem pay6_eq (a : Vec F S64x256 .f32) (b : Vec F S64x256 .bf16) : k0_pay6 a b = sumRows a b := rfl
theorem pay7_eq (a : Vec F S64x256 .f32) (b : Vec F S64x256 .bf16) : k0_pay7 a b = sumRows a b := rfl
theorem pay9_eq (a : Vec F S64x256 .f32) (b : Vec F S64x256 .bf16) : k0_pay9 (k0_pay8 a) b = sumRows a b := rfl

/-! ## Contents -/

/-- Row block `j` of a 256 x 256 f32 buffer's contents. -/
def xRows (x : (cc0_stg0_0 : Ref sig .tc).ty.Contents (Elt F)) (j : Fin 4) : Vec F S64x256 .f32 :=
  ((xM : Memref sig .tc .vmem S256x256 .f32).access (rowR j)).read (Elt F) x

/-- The bf16 block a device whose half is `x` sends as block `j`. -/
def sentV (x : (cc0_stg0_0 : Ref sig .tc).ty.Contents (Elt F)) (j : Fin 4) : Vec F S64x256 .bf16 :=
  truncRows (xRows x j)

/-- What the result buffer ends with on a device whose half is `xc` and whose partner's half is `xp`:
    row block `j` is block `j` of `xc` plus the block the partner sent, whatever the buffer held before. -/
def outAt (xc xp : (cc0_stg0_0 : Ref sig .tc).ty.Contents (Elt F)) : (cc0_stg1_0 : Ref sig .tc).ty.Contents (Elt F) :=
  View.canon [(⟨rowR 3, sumRows (xRows xc 3) (sentV xp 3)⟩ : View.Piece (Elt F) S256x256 .bf16),
    ⟨rowR 2, sumRows (xRows xc 2) (sentV xp 2)⟩, ⟨rowR 1, sumRows (xRows xc 1) (sentV xp 1)⟩, ⟨rowR 0, sumRows (xRows xc 0) (sentV xp 0)⟩]

variable (m : (ℓ : Loc nD τ sig) → Buf (Elt F) ℓ)

/-- Device `c`'s half as launched, read as the contents its staging buffer is filled with. -/
def xstg (c : Dev nD) : (cc0_stg0_0 : Ref sig .tc).ty.Contents (Elt F) :=
  (win0_0.blk (0 : Fin 1)).view.read (Elt F) (m ((c : Thread nD τ).loc main_arg0))

end Cert.Kernel.Hand

end
-- ==== Proof.Bits.Sched.lean ====
import proofs.«900698_g7700000000000699_dist_ar_v7x_xyz2x2x2_x_m256_n256_bf16_1_alg».proof.Proof.Bits.Spec

/-!
# The protocol: cells, one round, what each landing hands over

Per device nine semaphores take part. The BARRIER semaphore gets one unit from the partner; with it the
partner hands over its whole receive buffer (as its four row blocks) and the fact that its four receive
cells are at their first round: what a device needs before it may copy into the partner. SEND cell `j`
gets the copy's credit once row block `j` of the send buffer has been read: the block comes back to its
owner. RECEIVE cell `j` gets the credit once row block `j` of the receive buffer is written: the owner
gets that block, holding the bf16 block the partner sent. Every cell has one round of one duty.

A device waits while it still owes something only once: on its barrier, owing the partner the four
receive credits. So barrier cells sit below receive cells, and everything else at the bottom.
-/

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

theorem sem_inb (j : Fin 4) : ∀ a, (![j.val] : Fin 1 → Nat) a + S1.size a ≤ S4.size a := by revert j; decide

/-- The runtime's barrier semaphore; send semaphore `j`; receive semaphore `j`. -/
abbrev barS : Sem sig := (SemArray.scalar (sig.barrier 0 rfl) : Sems sig S_).sem
abbrev sendA (j : Fin 4) : DmaSems sig S_ := (cc0_scratch2.slice (Rect.unit (s := S4) ![j.val] S1.size (sem_inb j))).squeeze S_ squeezes_S1_S_
abbrev recvA (j : Fin 4) : DmaSems sig S_ := (cc0_scratch3.slice (Rect.unit (s := S4) ![j.val] S1.size (sem_inb j))).squeeze S_ squeezes_S1_S_

abbrev barCell (c : Dev nD) : GSem nD τ sig := ((c : Thread nD τ), .reg barS)
abbrev sendCell (c : Dev nD) (j : Fin 4) : GSem nD τ sig := ((c : Thread nD τ), .dma (sendA j).sem)
abbrev recvCell (c : Dev nD) (j : Fin 4) : GSem nD τ sig := ((c : Thread nD τ), .dma (recvA j).sem)

/-- The nine by kind: 0 the barrier, 1 to 4 the send cells, 5 to 8 the receive cells. -/
abbrev sendK (j : Fin 4) : Fin 9 := ⟨j.val + 1, by omega⟩
abbrev recvK (j : Fin 4) : Fin 9 := ⟨j.val + 5, by omega⟩

def csem : Fin 9 → SemLoc sig := fun
  | 0 => .reg barS
  | 1 => .dma (sendA 0).sem | 2 => .dma (sendA 1).sem | 3 => .dma (sendA 2).sem | 4 => .dma (sendA 3).sem
  | 5 => .dma (recvA 0).sem | 6 => .dma (recvA 1).sem | 7 => .dma (recvA 2).sem | 8 => .dma (recvA 3).sem

abbrev kcell (ck : Dev nD × Fin 9) : GSem nD τ sig := ((ck.1 : Thread nD τ), csem ck.2)

theorem csem_bar : csem 0 = .reg barS := rfl
theorem csem_send (j : Fin 4) : csem (sendK j) = .dma (sendA j).sem := by revert j; decide
theorem csem_recv (j : Fin 4) : csem (recvK j) = .dma (recvA j).sem := by revert j; decide
theorem csem_injective : Function.Injective csem := by decide

/-- Which of the nine a semaphore is, if any. -/
def kindOf (s : SemLoc sig) : Option (Fin 9) := (List.finRange 9).find? fun k => csem k = s

theorem kindOf_csem : ∀ k : Fin 9, kindOf (csem k) = some k := by decide
theorem kindOf_bar : kindOf (.reg barS) = some 0 := kindOf_csem 0
theorem kindOf_send (j : Fin 4) : kindOf (.dma (sendA j).sem) = some (sendK j) := by rw [← csem_send]; exact kindOf_csem _
theorem kindOf_recv (j : Fin 4) : kindOf (.dma (recvA j).sem) = some (recvK j) := by rw [← csem_recv]; exact kindOf_csem _

theorem send_ne_bar (j : Fin 4) : (SemLoc.dma (sendA j).sem : SemLoc sig) ≠ .reg barS := fun h => by cases h
theorem recv_ne_bar (j : Fin 4) : (SemLoc.dma (recvA j).sem : SemLoc sig) ≠ .reg barS := fun h => by cases h
theorem send_ne_recv : ∀ j k : Fin 4, (SemLoc.dma (sendA j).sem : SemLoc sig) ≠ .dma (recvA k).sem := by decide
theorem recv_inj : ∀ j k : Fin 4, (SemLoc.dma (recvA j).sem : SemLoc sig) = .dma (recvA k).sem → j = k := by decide
theorem send_inj : ∀ j k : Fin 4, (SemLoc.dma (sendA j).sem : SemLoc sig) = .dma (sendA k).sem → j = k := by decide

/-- The credit of one copy of a row block (the same on every one of the eight copy cells). -/
abbrev N : ℕ := ((rM : Memref sig .tc .vmem S256x256 .bf16).access (rowR 0)).dmaCredit
theorem N_pos : 0 < N := View.dmaCredit_pos _ (by decide)
theorem credit_recv (j : Fin 4) : ((rM : Memref sig .tc .vmem S256x256 .bf16).access (rowR j)).dmaCredit = N := rfl
theorem credit_send (j : Fin 4) : ((sM : Memref sig .tc .vmem S256x256 .bf16).access (rowR j)).dmaCredit = N := rfl

/-! ## Holding a buffer by row blocks -/

/-- Row block `j` of the send buffer, of the receive buffer, on device `c`, holding `f` there. -/
def sPts (c : Dev nD) (j : Fin 4) (f : Buf (Elt F) (((sM : Memref sig .tc .vmem S256x256 .bf16).access (rowR j)).loc (c : Thread nD τ))) : sProp 𝕄 :=
  ((sM : Memref sig .tc .vmem S256x256 .bf16).access (rowR j)).loc (c : Thread nD τ) ↦[((sM : Memref sig .tc .vmem S256x256 .bf16).access (rowR j)).set]{fullShare} f
def rPts (c : Dev nD) (j : Fin 4) (f : Buf (Elt F) (((rM : Memref sig .tc .vmem S256x256 .bf16).access (rowR j)).loc (c : Thread nD τ))) : sProp 𝕄 :=
  ((rM : Memref sig .tc .vmem S256x256 .bf16).access (rowR j)).loc (c : Thread nD τ) ↦[((rM : Memref sig .tc .vmem S256x256 .bf16).access (rowR j)).set]{fullShare} f

/-! ## The payloads -/

/-- A send cell's landing gives row block `j` of the send buffer back, at whatever it holds. -/
def sendPay (c : Dev nD) (j : Fin 4) : sProp 𝕄 := iprop(∃ f, sPts c j f)
/-- A receive cell's landing gives row block `j` of the receive buffer, holding the block the partner sent. -/
def recvPay (c : Dev nD) (j : Fin 4) : sProp 𝕄 :=
  iprop(∃ f, ⌜((rM : Memref sig .tc .vmem S256x256 .bf16).access (rowR j)).read (Elt F) f = sentV (xstg m (partner c)) j⌝ ∗ rPts c j f)
/-- The barrier's unit, from the partner: the partner's receive buffer block by block, and that its four receive
    cells are at their first round. -/
def barPay (c : Dev nD) : sProp 𝕄 :=
  iprop(((∃ f, rPts (partner c) 0 f) ∗ (∃ f, rPts (partner c) 1 f) ∗ (∃ f, rPts (partner c) 2 f) ∗ (∃ f, rPts (partner c) 3 f))
    ∗ reached ER (recvCell (partner c) 0) 0 ∗ reached ER (recvCell (partner c) 1) 0 ∗ reached ER (recvCell (partner c) 2) 0 ∗ reached ER (recvCell (partner c) 3) 0)

/-- The payload by kind. -/
def pay (c : Dev nD) : Fin 9 → sProp 𝕄 := fun
  | 0 => barPay c
  | 1 => sendPay c 0 | 2 => sendPay c 1 | 3 => sendPay c 2 | 4 => sendPay c 3
  | 5 => recvPay m c 0 | 6 => recvPay m c 1 | 7 => recvPay m c 2 | 8 => recvPay m c 3

theorem pay_bar (c : Dev nD) : pay m c 0 = barPay (F := F) c := rfl
theorem pay_send (c : Dev nD) (j : Fin 4) : pay m c (sendK j) = sendPay (F := F) c j := by
  fin_cases j <;> rfl
theorem pay_recv (c : Dev nD) (j : Fin 4) : pay m c (recvK j) = recvPay m c j := by
  fin_cases j <;> rfl

/-! ## The schedule -/

/-- One round, round 0: each of a device's nine cells has one duty; the barrier's is one unit, a copy cell's the
    copy's credit. -/
def sched : Rounds.Schedule (GSem nD τ sig) Unit 𝕄 where
  duties g r := if r = 0 ∧ g.1.2 = .tc ∧ (kindOf g.2).isSome then Finset.univ else ∅
  unitless _ := False
  amount g _ _ := if g.2 = .reg barS then 1 else N
  payload g _ _ := match kindOf g.2 with
    | some k => pay m g.1.1 k
    | none => iprop(emp)
  amount_pos g _ _ _ := by
    by_cases h : g.2 = .reg barS
    · rw [if_pos h]; exact Nat.one_pos
    · rw [if_neg h]; exact N_pos

set_option synthInstance.maxHeartbeats 800000 in
instance sched_payload_storable (g : GSem nD τ sig) (r : ℕ) (d : Unit) :
    BI.Storable (upEmb : UEmb _ 𝕄) ((sched (F := F) m).payload g r d) := by
  show BI.Storable upEmb (match kindOf g.2 with | some k => pay m g.1.1 k | none => iprop(emp))
  unfold pay barPay sendPay recvPay sPts rPts
  (repeat' split) <;> infer_instance

/-! ## The schedule's tables, cell by cell -/

section Tables
variable (c : Dev nD) (j : Fin 4)

theorem duties_bar : (sched (F := F) m).duties (barCell c) 0 = Finset.univ := by
  dsimp only [sched]; exact if_pos ⟨rfl, rfl, by rw [kindOf_bar]; rfl⟩
theorem duties_send : (sched (F := F) m).duties (sendCell c j) 0 = Finset.univ := by
  dsimp only [sched]; exact if_pos ⟨rfl, rfl, by rw [kindOf_send]; rfl⟩
theorem duties_recv : (sched (F := F) m).duties (recvCell c j) 0 = Finset.univ := by
  dsimp only [sched]; exact if_pos ⟨rfl, rfl, by rw [kindOf_recv]; rfl⟩
theorem duties_k (k : Fin 9) : (sched (F := F) m).duties (kcell (c, k)) 0 = Finset.univ := by
  dsimp only [sched]; exact if_pos ⟨rfl, rfl, by rw [kindOf_csem]; rfl⟩
theorem duties_later (g : GSem nD τ sig) : ∀ r, 1 ≤ r → (sched (F := F) m).duties g r = ∅ :=
  fun r hr => by dsimp only [sched]; rw [if_neg fun h => by omega]

theorem mem_duties_bar : () ∈ (sched (F := F) m).duties (barCell c) 0 := by rw [duties_bar]; exact Finset.mem_univ _
theorem mem_duties_send : () ∈ (sched (F := F) m).duties (sendCell c j) 0 := by rw [duties_send]; exact Finset.mem_univ _
theorem mem_duties_recv : () ∈ (sched (F := F) m).duties (recvCell c j) 0 := by rw [duties_recv]; exact Finset.mem_univ _

theorem amount_bar (d : Unit) : (sched (F := F) m).amount (barCell c) 0 d = 1 := by dsimp only [sched]; exact if_pos rfl
theorem amount_send (d : Unit) : (sched (F := F) m).amount (sendCell c j) 0 d = N := by dsimp only [sched]; exact if_neg (send_ne_bar j)
theorem amount_recv (d : Unit) : (sched (F := F) m).amount (recvCell c j) 0 d = N := by dsimp only [sched]; exact if_neg (recv_ne_bar j)

theorem expect_bar : (sched (F := F) m).expect (barCell c) 0 = 1 := by
  unfold Schedule.expect Schedule.amountOf
  rw [duties_bar, Finset.univ_unique, Finset.sum_singleton, amount_bar]
theorem expect_send : (sched (F := F) m).expect (sendCell c j) 0 = N := by
  unfold Schedule.expect Schedule.amountOf
  rw [duties_send, Finset.univ_unique, Finset.sum_singleton, amount_send]
theorem expect_recv : (sched (F := F) m).expect (recvCell c j) 0 = N := by
  unfold Schedule.expect Schedule.amountOf
  rw [duties_recv, Finset.univ_unique, Finset.sum_singleton, amount_recv]

theorem payload_bar (d : Unit) : (sched (F := F) m).payload (barCell c) 0 d = barPay c := by
  dsimp only [sched]; rw [kindOf_bar]; exact pay_bar m c
theorem payload_send (d : Unit) : (sched (F := F) m).payload (sendCell c j) 0 d = sendPay c j := by
  dsimp only [sched]; rw [kindOf_send]; exact pay_send m c j
theorem payload_recv (d : Unit) : (sched (F := F) m).payload (recvCell c j) 0 d = recvPay m c j := by
  dsimp only [sched]; rw [kindOf_recv]; exact pay_recv m c j

/-- The rest of a cell's round when nothing of it has been taken: its one payload. -/
theorem rest_bar : bigSep ((sched (F := F) m).duties (barCell c) 0 \ ∅) (fun d => (sched (F := F) m).payload (barCell c) 0 d) = barPay c := by
  rw [Finset.sdiff_empty, duties_bar, Finset.univ_unique, bigSep_singleton, payload_bar]
theorem rest_send : bigSep ((sched (F := F) m).duties (sendCell c j) 0 \ ∅) (fun d => (sched (F := F) m).payload (sendCell c j) 0 d) = sendPay c j := by
  rw [Finset.sdiff_empty, duties_send, Finset.univ_unique, bigSep_singleton, payload_send]
theorem rest_recv : bigSep ((sched (F := F) m).duties (recvCell c j) 0 \ ∅) (fun d => (sched (F := F) m).payload (recvCell c j) 0 d) = recvPay m c j := by
  rw [Finset.sdiff_empty, duties_recv, Finset.univ_unique, bigSep_singleton, payload_recv]

end Tables

/-! ## What each device owes at launch; the levels -/

/-- Device `c` owes its partner the four receive credits (block 0's on the outside, paid first) and, outermost and
    paid first of all, the barrier's unit. -/
def OR3 (c : Dev nD) : CellTallies nD τ sig Unit := tallyAt (recvCell (partner c) 3) () N
def OR2 (c : Dev nD) : CellTallies nD τ sig Unit := OR3 c + tallyAt (recvCell (partner c) 2) () N
def OR1 (c : Dev nD) : CellTallies nD τ sig Unit := OR2 c + tallyAt (recvCell (partner c) 1) () N
def OR0 (c : Dev nD) : CellTallies nD τ sig Unit := OR1 c + tallyAt (recvCell (partner c) 0) () N
def O₀ (c : Dev nD) : CellTallies nD τ sig Unit := OR0 c + tallyAt (barCell (partner c)) () 1

def IsRecv (s : SemLoc sig) : Prop := ∃ j : Fin 4, s = .dma (recvA j).sem
instance : DecidablePred IsRecv := fun s => by unfold IsRecv; infer_instance

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv (c : Dev nD) (j : Fin 4) (u : Unit) : lv (recvCell c j) u = 2 := by
  dsimp only [lv]; rw [if_neg (recv_ne_bar j), if_pos ⟨j, rfl⟩]

theorem OR0_pos {c : Dev nD} {g : GSem nD τ sig} {u : Unit} (h : 0 < OR0 c g u) : ∃ j, g = recvCell (partner c) j := by
  unfold OR0 OR1 OR2 OR3 at h
  simp only [Pi.add_apply, Finsupp.add_apply, tallyAt_apply] at h
  by_contra hn
  rw [not_exists] at hn
  rw [if_neg (fun h' => hn 3 h'.1), if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    g = barCell (partner c) ∨ ∃ j, g = recvCell (partner c) j := by
  unfold O₀ at h
  rw [Pi.add_apply, Finsupp.add_apply, tallyAt_apply] at h
  by_cases hb : g = barCell (partner c)
  · exact .inl hb
  · rw [if_neg (fun h' => hb h'.1), Nat.add_zero] at h
    exact .inr (OR0_pos h)

omit [FloatOps F] in
/-- A wait on a semaphore that is neither the barrier nor a receive semaphore (the pipeline's staging waits) is allowed
    whatever of the launch debt is still owed. -/
theorem mayWait_stage (c : Dev nD) (q : DmaSem sig) (hq : ¬ IsRecv (.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | ⟨j, rfl⟩ <;> exact Finset.mem_singleton_self _)
      (fun p hp => by rw [Finset.mem_singleton.mp hp]; dsimp only [lv]; rw [if_neg (fun h => by cases h), if_neg hq])
      (fun g u hg => by
        rcases O₀_pos hg with rfl | ⟨j, rfl⟩
        · rw [lv_bar]; decide
        · rw [lv_recv]; decide)
  · rw [MayWait_zero]; iintro -; iempintro

omit [FloatOps F] in
/-- At its barrier wait a device owes the partner's four receive credits only: receive cells, above its barrier cell. -/
theorem mayWait_bar (c : Dev nD) :
    (levAts L lv : sProp 𝕄) ⊢ MayWait (c : Thread nD τ) (.reg barS) () (OR0 c) :=
  MayOwe.of_cut (L := L) (lev := lv) 1 (fun p hp => by rw [Finset.mem_singleton.mp hp, L_tc]; exact Finset.mem_singleton_self _)
    (fun g u hg => by obtain ⟨j, rfl⟩ := OR0_pos hg; exact Finset.mem_singleton_self _)
    (fun p hp => by rw [Finset.mem_singleton.mp hp]; exact le_of_eq (lv_bar c _))
    (fun g u hg => by obtain ⟨j, rfl⟩ := OR0_pos hg; rw [lv_recv]; decide)

end Cert.Kernel.Hand

end
-- ==== Proof.Bits.Data.lean ====
import proofs.«900698_g7700000000000699_dist_ar_v7x_xyz2x2x2_x_m256_n256_bf16_1_alg».proof.Proof.Bits.Sched

/-!
# What a device holds before and after its one grid point

The cells' invariants and the facts that every cell is at its first round are persistent, so every device
may hold ALL of them (`records`); what is linear is a device's positions on its own nine cells and the
tokens of the nine duties IT pays: the partner's barrier unit, the partner's four receive credits, its own
four send credits. Before the point it also holds its credit on its barrier (one unit) and on its four
receive cells, the level facts, and its two scratch buffers whole at any contents; after it, the two
buffers whole again and its eight copy semaphores back at zero.
-/

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The scratch buffers whole -/

def sWhole (c : Dev nD) (f : Buf (Elt F) ((c : Thread nD τ).loc cc0_scratch0)) : sProp 𝕄 := ((c : Thread nD τ).loc cc0_scratch0) ↦{fullShare} f
def rWhole (c : Dev nD) (f : Buf (Elt F) ((c : Thread nD τ).loc cc0_scratch1)) : sProp 𝕄 := ((c : Thread nD τ).loc cc0_scratch1) ↦{fullShare} f

/-! ## Ghost state -/

/-- Every cell's invariant, at the names `K` the launch allocated them under, and that every cell is at its first round. -/
def records (K : Dev nD × Fin 9 → ℕ) : sProp 𝕄 :=
  iprop((bigSep Finset.univ fun ck : Dev nD × Fin 9 => cellInv ER (sched m) (K ck) (kcell ck))
    ∗ bigSep Finset.univ fun ck : Dev nD × Fin 9 => reached ER (kcell ck) 0)

instance records_persistent (K : Dev nD × Fin 9 → ℕ) : BI.Persistent (records m K) := by unfold records; infer_instance

theorem inv_of_all (K : Dev nD × Fin 9 → ℕ) (ck : Dev nD × Fin 9) :
    (bigSep Finset.univ fun ck : Dev nD × Fin 9 => (cellInv ER (sched m) (K ck) (kcell ck) : sProp 𝕄)) ⊢ cellInv ER (sched m) (K ck) (kcell ck) :=
  bigSep_elim (Finset.mem_univ ck)
omit [FloatOps F] in
theorem reached_of_all (ck : Dev nD × Fin 9) :
    (bigSep Finset.univ fun ck : Dev nD × Fin 9 => (reached ER (kcell ck) 0 : sProp 𝕄)) ⊢ reached ER (kcell ck) 0 :=
  bigSep_elim (Finset.mem_univ ck)

theorem inv_at (K : Dev nD × Fin 9 → ℕ) (ck : Dev nD × Fin 9) : records m K ⊢ cellInv ER (sched m) (K ck) (kcell ck) := by
  unfold records; iintro ⟨HI, -⟩; iapply (inv_of_all m K ck); iexact HI
theorem reached_at (K : Dev nD × Fin 9 → ℕ) (ck : Dev nD × Fin 9) : records m K ⊢ reached ER (kcell ck) 0 := by
  unfold records; iintro ⟨-, HR⟩; iapply (reached_of_all (F := F) ck); iexact HR

/-- The tokens of the duties device `c` pays. -/
def payToks (c : Dev nD) : sProp 𝕄 :=
  iprop(dutyTok ER (barCell (partner c)) 0 ()
    ∗ (bigSep Finset.univ fun j : Fin 4 => dutyTok ER (recvCell (partner c) j) 0 ())
    ∗ (bigSep Finset.univ fun j : Fin 4 => dutyTok ER (sendCell c j) 0 ()))

/-- Its positions: every one of its nine cells at round 0, nothing taken, nothing consumed. -/
def positions (c : Dev nD) : sProp 𝕄 := bigSep Finset.univ fun k : Fin 9 => atPos ER (kcell (c, k)) 0 ∅ 0

def ghost (K : Dev nD × Fin 9 → ℕ) (c : Dev nD) : sProp 𝕄 := iprop(records m K ∗ positions c ∗ payToks c)

/-- What device `c`'s body starts from: the ghost state at some names, its credit on its barrier and on its four receive
    cells, the level facts. -/
def start (c : Dev nD) : sProp 𝕄 :=
  iprop((∃ K, ghost m K c) ∗ cred (tallyAt (barCell c) () 1) ∗ (bigSep Finset.univ fun j : Fin 4 => cred (tallyAt (recvCell c j) () N)) ∗ levAts L lv)

def Φ₀ (c : Dev nD) : sProp 𝕄 := iprop(start m c ∗ (∃ f, sWhole c f) ∗ (∃ f, rWhole c f))
/-- After the point: both scratch buffers whole, the eight own copy semaphores at zero, closed (the barrier semaphore is
    the runtime's: nothing to hand back). -/
def Φ₁ (c : Dev nD) : sProp 𝕄 :=
  iprop((∃ f, sWhole (F := F) c f) ∗ (∃ f, rWhole c f)
    ∗ (bigSep Finset.univ fun j : Fin 4 => semVal (sendCell c j) 0) ∗ (bigSep Finset.univ fun j : Fin 4 => semVal (recvCell c j) 0))

/-- The kernel's own (scoped) semaphores as the launch indexes them: the four send, then the four receive. -/
abbrev osem : Fin 8 → SemLoc sig := fun k => csem ⟨k.val + 1, by omega⟩

/-- The kernel's result on device `c`. -/
def outOf (c : Dev nD) : (cc0_stg1_0 : Ref sig .tc).ty.Contents (Elt F) := outAt (xstg m c) (xstg m (partner c))

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outOf m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-! ## The body's pre and post, as the pipeline's body obligation states them -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (xstg m c) ∗ stg c cc0_stg1_0 (outOf m c))

end Cert.Kernel.Hand

end
-- ==== Proof.Bits.Steps.lean ====
import proofs.«900698_g7700000000000699_dist_ar_v7x_xyz2x2x2_x_m256_n256_bf16_1_alg».proof.Proof.Bits.Data

/-!
# The three things a device does with a row block, once for every block

For row block `j`: FILL AND SEND (read the block of the device's half, round it into the send buffer,
copy it into the partner's receive buffer); RECEIVE AND ADD (wait for the partner's copy of the block, add it
to the device's own block, store the sum into the result buffer); and SENT (wait until the sent block has
been read). Each is stated once, over a symbolic block index and the program that follows.
-/

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- the block a device sends and the block of its half are read through their definitions when two assertions are compared
set_option allowUnsafeReducibility true in
attribute [local reducible] xRows sentV

section Steps
variable (K : Dev nD × Fin 9 → ℕ) (c : Dev nD) (j : Fin 4)

set_option maxHeartbeats 1600000 in
/-- The copy of row block `j` of the send buffer, holding `w`, into row block `j` of the partner's receive buffer: the
    send cell's landing gives the source block back; the partner's receive cell's landing hands the partner its block
    holding `w`, which is what the schedule promises it when `w` is the block the device sends. -/
theorem wp_send_row (n : Dev nD) (hn : n = partner c)
    {hsc : ((rM : Memref sig (Dev.tc n : Thread nD τ).2.kind .vmem S256x256 .bf16).slice (rowR j) (fun _ => rfl)).view.ref.isScScratch = false}
    {hsrc : ((sM : Memref sig .tc .vmem S256x256 .bf16).slice (rowR j) (fun _ => rfl)).view.WordExact}
    {hdst : ((rM : Memref sig .tc .vmem S256x256 .bf16).slice (rowR j) (fun _ => rfl)).view.WordExact}
    {hsem : DmaTarget.Typed .vmem (.dma (recvA j).sem) (.remote (Dev.tc n : Thread nD τ) ((rM : Memref sig .tc .vmem S256x256 .bf16).slice (rowR j) (fun _ => rfl)) (.dma (sendA j).sem) hsc)}
    {α : Type} {Q : α → sProp 𝕄} {k : PUnit → Prog (TpuEff nD τ sig (Elt F) Λ₀ .tc) α}
    (f : Buf (Elt F) (((sM : Memref sig .tc .vmem S256x256 .bf16).access (rowR j)).loc (c : Thread nD τ)))
    (w : Vec F S64x256 .bf16) (hw : w = sentV (xstg m c) j)
    (fd : Buf (Elt F) (((rM : Memref sig .tc .vmem S256x256 .bf16).access (rowR j)).loc (partner c : Thread nD τ)))
    (O : CellTallies nD τ sig Unit) (W : Waits sig Unit) :
    iprop(cellInv ER (sched m) (K (c, sendK j)) (sendCell c j) ∗ cellInv ER (sched m) (K (partner c, recvK j)) (recvCell (partner c) j)
        ∗ sPts c j (((sM : Memref sig .tc .vmem S256x256 .bf16).access (rowR j)).write (Elt F) f w Finset.univ) ∗ rPts (partner c) j fd
        ∗ owes (c : Thread nD τ) (O + tallyAt (recvCell (partner c) j) () N) W
        ∗ dutyTok ER (sendCell c j) 0 () ∗ reached ER (sendCell c j) 0
        ∗ dutyTok ER (recvCell (partner c) j) 0 () ∗ reached ER (recvCell (partner c) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((sM : Memref sig .tc .vmem S256x256 .bf16).slice (rowR j) (fun _ => rfl))
                (.remote (Dev.tc n : Thread nD τ) ((rM : Memref sig .tc .vmem S256x256 .bf16).slice (rowR j) (fun _ => rfl)) (.dma (sendA j).sem) hsc)
                (.dma (recvA j).sem) hsrc hdst hsem) k) Q) := by
  subst hn
  unfold sPts rPts
  iintro H Hk
  iapply (Rounds.wp_send_pointsTo 𝒱₀ ER (sched m) (c : Thread nD τ) none (Γ := .empty) (defs := defs₀ (F := F)) (Es := Set.univ) (Q := Q) (k := k)
      (c' := (Dev.tc (partner c) : Thread nD τ))
      (src := (sM : Memref sig .tc .vmem S256x256 .bf16).slice (rowR j) (fun _ => rfl))
      (dst := (rM : Memref sig (Dev.tc (partner c) : Thread nD τ).2.kind .vmem S256x256 .bf16).slice (rowR j) (fun _ => rfl))
      (sS := .dma (sendA j).sem) (sem := .dma (recvA j).sem) (q := fullShare)
      (fs := ((sM : Memref sig .tc .vmem S256x256 .bf16).access (rowR j)).write (Elt F) f w Finset.univ)
      (hsc := hsc) (hsrc := hsrc) (hdst := hdst) (hsem := hsem)
      (κ₁ := K (c, sendK j)) (κ₂ := K (partner c, recvK j)) (r₁ := 0) (r₂ := 0) (d₁ := ()) (d₂ := ()) (fd := fd)
      (mem_duties_send m c j) (mem_duties_recv m (partner c) j)
      () () N rfl (amount_send m c j ()) (amount_recv m (partner c) j ()) O rfl (W := W)
      (by rw [payload_send]; unfold sendPay sPts; iintro H; iexists _; iexact H)
      (by
        rw [payload_recv]; unfold recvPay rPts; iintro H
        iexists (((rM : Memref sig .tc .vmem S256x256 .bf16).access (rowR j)).write (Elt F) fd
          (((sM : Memref sig .tc .vmem S256x256 .bf16).access (rowR j)).read (Elt F)
            (((sM : Memref sig .tc .vmem S256x256 .bf16).access (rowR j)).write (Elt F) f w Finset.univ)) Finset.univ)
        isplitr
        · ipureintro; rw [View.read_write_univ, View.read_write_univ, partner_partner]; exact hw
        · iexact H)) $$ H
  iexact Hk

set_option maxHeartbeats 1600000 in
/-- FILL AND SEND block `j`: read it from the device's half, round it into the send buffer (whatever the block held),
    copy it to the partner. The device's half is only read; the send buffer's block goes with the copy. -/
theorem wp_fill_send_row (n : Dev nD) (hn : n = partner c)
    {hl1 : (xM : Memref sig .tc .vmem S256x256 .f32).view.LoadsAt (rowR j).toLoadRect}
    {hl2 : (sM : Memref sig .tc .vmem S256x256 .bf16).view.LoadsAt (rowR j).toLoadRect}
    {hx : ((sM : Memref sig .tc .vmem S256x256 .bf16).access (rowR j)).Stores Finset.univ}
    {hm : (Finset.univ : Finset (rowR j).shape.Idx) = Finset.univ ∨ ∀ a, (rowR j).stride a = 1}
    {hsc : ((rM : Memref sig (Dev.tc n : Thread nD τ).2.kind .vmem S256x256 .bf16).slice (rowR j) (fun _ => rfl)).view.ref.isScScratch = false}
    {hsrc : ((sM : Memref sig .tc .vmem S256x256 .bf16).slice (rowR j) (fun _ => rfl)).view.WordExact}
    {hdst : ((rM : Memref sig .tc .vmem S256x256 .bf16).slice (rowR j) (fun _ => rfl)).view.WordExact}
    {hsem : DmaTarget.Typed .vmem (.dma (recvA j).sem) (.remote (Dev.tc n : Thread nD τ) ((rM : Memref sig .tc .vmem S256x256 .bf16).slice (rowR j) (fun _ => rfl)) (.dma (sendA j).sem) hsc)}
    {α : Type} {Q : α → sProp 𝕄} {k : PUnit → Prog (TpuEff nD τ sig (Elt F) Λ₀ .tc) α}
    (f : Buf (Elt F) (((sM : Memref sig .tc .vmem S256x256 .bf16).access (rowR j)).loc (c : Thread nD τ)))
    (fd : Buf (Elt F) (((rM : Memref sig .tc .vmem S256x256 .bf16).access (rowR j)).loc (partner c : Thread nD τ)))
    (O : CellTallies nD τ sig Unit) (W : Waits sig Unit) :
    iprop(cellInv ER (sched m) (K (c, sendK j)) (sendCell c j) ∗ cellInv ER (sched m) (K (partner c, recvK j)) (recvCell (partner c) j)
        ∗ (((c : Thread nD τ).loc cc0_stg0_0) ↦{fullShare} xstg m c)
        ∗ sPts c j f ∗ rPts (partner c) j fd
        ∗ owes (c : Thread nD τ) (O + tallyAt (recvCell (partner c) j) () N) W
        ∗ dutyTok ER (sendCell c j) 0 () ∗ reached ER (sendCell c j) 0
        ∗ dutyTok ER (recvCell (partner c) j) 0 () ∗ reached ER (recvCell (partner c) j) 0)
      ⊢ iprop((((((c : Thread nD τ).loc cc0_stg0_0) ↦{fullShare} xstg m c) ∗ cred (tallyAt (sendCell c j) () N) ∗ owes (c : Thread nD τ) O W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.load (xM : Memref sig .tc .vmem S256x256 .f32) (rowR j).toLoadRect hl1) fun x =>
               .op (.load (sM : Memref sig .tc .vmem S256x256 .bf16) (rowR j).toLoadRect hl2) fun _ =>
               .op (.store (sM : Memref sig .tc .vmem S256x256 .bf16) (rowR j) (truncRows x) Finset.univ hx hm) fun _ =>
               .op (.enqueueDma ((sM : Memref sig .tc .vmem S256x256 .bf16).slice (rowR j) (fun _ => rfl))
                (.remote (Dev.tc n : Thread nD τ) ((rM : Memref sig .tc .vmem S256x256 .bf16).slice (rowR j) (fun _ => rfl)) (.dma (sendA j).sem) hsc)
                (.dma (recvA j).sem) hsrc hdst hsem) k) Q) := by
  iintro ⟨#HIs, #HIr, Hx, Hs, Hp, HO, HtS, #HrS, HtR, #HrR⟩ Hk
  iapply (wp_load_rect 𝒱₀ (c : Thread nD τ) none Set.univ (m := (xM : Memref sig .tc .vmem S256x256 .f32)) (r := rowR j) (Finset.subset_univ _)) $$ Hx; iintro Hx
  unfold sPts
  iapply (wp_load_rect 𝒱₀ (c : Thread nD τ) none Set.univ (m := (sM : Memref sig .tc .vmem S256x256 .bf16)) (r := rowR j) subset_rfl) $$ Hs; iintro Hs
  iapply (wp_store 𝒱₀ (c : Thread nD τ) none Set.univ (m := (sM : Memref sig .tc .vmem S256x256 .bf16)) (r := rowR j) (Mk := Finset.univ) (View.setOn_subset_set _ _)) $$ Hs; iintro Hs
  iapply (wp_send_row m K c j n hn f (truncRows (((xM : Memref sig .tc .vmem S256x256 .f32).access (rowR j)).read (Elt F) (xstg m c))) rfl fd O W)
    $$ [Hs Hp HO HtS HtR]
  · isplitr; · iexact HIs
    isplitr; · iexact HIr
    isplitl [Hs]; · unfold sPts; iexact Hs
    isplitl [Hp]; · iexact Hp
    isplitl [HO]; · iexact HO
    isplitl [HtS]; · iexact HtS
    isplitr; · iexact HrS
    isplitl [HtR]; · iexact HtR
    iexact HrR
  iintro ⟨Hc, HO⟩
  iapply Hk
  isplitl [Hx]; · iexact Hx
  isplitl [Hc]; · iexact Hc
  iexact HO

set_option maxHeartbeats 1600000 in
/-- RECEIVE AND ADD block `j`: wait for the partner's copy of it (owing nothing), which hands over the block of the
    receive buffer holding what the partner sent; add that to the device's own block and store the rounded sum as block
    `j` of the result buffer, over whatever it held. -/
theorem wp_recv_add_row
    {hs : ((sM : Memref sig .tc .vmem S256x256 .bf16).slice (rowR j) (fun _ => rfl)).view.WordExact}
    {hd : ((rM : Memref sig .tc .vmem S256x256 .bf16).slice (rowR j) (fun _ => rfl)).view.WordExact}
    {hl1 : (xM : Memref sig .tc .vmem S256x256 .f32).view.LoadsAt (rowR j).toLoadRect}
    {hl2 : (rM : Memref sig .tc .vmem S256x256 .bf16).view.LoadsAt (rowR j).toLoadRect}
    {hl3 : (oM : Memref sig .tc .vmem S256x256 .bf16).view.LoadsAt (rowR j).toLoadRect}
    {hx : ((oM : Memref sig .tc .vmem S256x256 .bf16).access (rowR j)).Stores Finset.univ}
    {hm : (Finset.univ : Finset (rowR j).shape.Idx) = Finset.univ ∨ ∀ a, (rowR j).stride a = 1}
    {α : Type} {Q : α → sProp 𝕄} {k : PUnit → Prog (TpuEff nD τ sig (Elt F) Λ₀ .tc) α}
    (g : Buf (Elt F) ((c : Thread nD τ).loc cc0_stg1_0)) (W : Waits sig Unit) :
    iprop(cellInv ER (sched m) (K (c, recvK j)) (recvCell c j) ∗ cred (tallyAt (recvCell c j) () N) ∗ owes (c : Thread nD τ) 0 W
        ∗ atPos ER (recvCell c j) 0 ∅ 0
        ∗ (((c : Thread nD τ).loc cc0_stg0_0) ↦{fullShare} xstg m c) ∗ (((c : Thread nD τ).loc cc0_stg1_0) ↦{fullShare} g))
      ⊢ iprop(((owes (c : Thread nD τ) 0 (insert (SemLoc.dma (recvA j).sem, ()) W) ∗ atPos ER (recvCell c j) (0 + 1) ∅ 0 ∗ (∃ f, rPts c j f)
              ∗ (((c : Thread nD τ).loc cc0_stg0_0) ↦{fullShare} xstg m c)
              ∗ (((c : Thread nD τ).loc cc0_stg1_0) ↦{fullShare}
                  (((oM : Memref sig .tc .vmem S256x256 .bf16).access (rowR j)).write (Elt F) g
                    (sumRows (xRows (xstg m c) j) (sentV (xstg m (partner c)) j)) Finset.univ)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvA j).sem ((sM : Memref sig .tc .vmem S256x256 .bf16).slice (rowR j) (fun _ => rfl))
                  ((rM : Memref sig .tc .vmem S256x256 .bf16).slice (rowR j) (fun _ => rfl)) hs hd) fun _ =>
               .op (.load (xM : Memref sig .tc .vmem S256x256 .f32) (rowR j).toLoadRect hl1) fun x =>
               .op (.load (rM : Memref sig .tc .vmem S256x256 .bf16) (rowR j).toLoadRect hl2) fun y =>
               .op (.load (oM : Memref sig .tc .vmem S256x256 .bf16) (rowR j).toLoadRect hl3) fun _ =>
               .op (.store (oM : Memref sig .tc .vmem S256x256 .bf16) (rowR j) (sumRows x y) Finset.univ hx hm) k) Q) := by
  iintro ⟨#HI, Hc, HO, Hat, Hx, Hout⟩ Hk
  iapply (Rounds.wp_wait_rest_token 𝒱₀ ER (sched m) (c : Thread nD τ) none (κ := K (c, recvK j))
      (wpE_waitDma2_eq 𝒱₀ (c : Thread nD τ) none Set.univ) (Set.mem_univ _) () (O := 0) (W := W) (R := 0) (m := 0) (T := ∅)
      (by rw [expect_recv]; exact Nat.zero_add _)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  unfold recvPay
  icases Hp with ⟨%f, %hf, Hr⟩
  iapply (wp_load_rect 𝒱₀ (c : Thread nD τ) none Set.univ (m := (xM : Memref sig .tc .vmem S256x256 .f32)) (r := rowR j) (Finset.subset_univ _)) $$ Hx; iintro Hx
  unfold rPts
  iapply (wp_load_rect 𝒱₀ (c : Thread nD τ) none Set.univ (m := (rM : Memref sig .tc .vmem S256x256 .bf16)) (r := rowR j) subset_rfl) $$ Hr; iintro Hr
  iapply (wp_load_rect 𝒱₀ (c : Thread nD τ) none Set.univ (m := (oM : Memref sig .tc .vmem S256x256 .bf16)) (r := rowR j) (Finset.subset_univ _)) $$ Hout; iintro Hout
  iapply (wp_store 𝒱₀ (c : Thread nD τ) none Set.univ (m := (oM : Memref sig .tc .vmem S256x256 .bf16)) (r := rowR j) (Mk := Finset.univ) (Finset.subset_univ _)) $$ Hout; iintro Hout
  rw [hf]
  iapply Hk
  isplitl [HO]; · iexact HO
  isplitl [Hat]; · iexact Hat
  isplitl [Hr]; · iexists f; iexact Hr
  isplitl [Hx]; · iexact Hx
  iexact Hout

set_option maxHeartbeats 1600000 in
/-- SENT block `j`: wait (owing nothing) until the copy has read it; the block of the send buffer comes back. -/
theorem wp_wait_send_row
    {hs : ((rM : Memref sig .tc .vmem S256x256 .bf16).slice (rowR j) (fun _ => rfl)).view.WordExact}
    {hd : ((sM : Memref sig .tc .vmem S256x256 .bf16).slice (rowR j) (fun _ => rfl)).view.WordExact}
    {α : Type} {Q : α → sProp 𝕄} {k : PUnit → Prog (TpuEff nD τ sig (Elt F) Λ₀ .tc) α} (W : Waits sig Unit) :
    iprop(cellInv ER (sched m) (K (c, sendK j)) (sendCell c j) ∗ cred (tallyAt (sendCell c j) () N) ∗ owes (c : Thread nD τ) 0 W
        ∗ atPos ER (sendCell c j) 0 ∅ 0)
      ⊢ iprop(((owes (c : Thread nD τ) 0 (insert (SemLoc.dma (sendA j).sem, ()) W) ∗ atPos ER (sendCell c j) (0 + 1) ∅ 0 ∗ (∃ f, sPts c j f))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendA j).sem ((rM : Memref sig .tc .vmem S256x256 .bf16).slice (rowR j) (fun _ => rfl))
                  ((sM : Memref sig .tc .vmem S256x256 .bf16).slice (rowR j) (fun _ => rfl)) hs hd) k) Q) := by
  iintro ⟨#HI, Hc, HO, Hat⟩ Hk
  iapply (Rounds.wp_wait_rest_token 𝒱₀ ER (sched m) (c : Thread nD τ) none (κ := K (c, sendK j))
      (wpE_waitDma2_eq 𝒱₀ (c : Thread nD τ) none Set.univ) (Set.mem_univ _) () (O := 0) (W := W) (R := 0) (m := 0) (T := ∅)
      (by rw [expect_send]; exact Nat.zero_add _)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  unfold sendPay
  iapply Hk
  isplitl [HO]; · iexact HO
  isplitl [Hat]; · iexact Hat
  iexact Hp

end Steps

end Cert.Kernel.Hand

end
-- ==== Proof.Bits.Regions.lean ====
import proofs.«900698_g7700000000000699_dist_ar_v7x_xyz2x2x2_x_m256_n256_bf16_1_alg».proof.Proof.Bits.Data

/-!
# A 256 x 256 scratch buffer as its four blocks of 64 rows

The four row blocks are pairwise disjoint and together are the whole buffer; so holding the buffer whole at
contents `f` is holding each block at `f`, and holding the four blocks at four contents is holding the whole
buffer at the contents that agree with each on its block.
-/

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The set facts, once -/

/-- Two different row blocks share no element: their row ranges are apart. -/
theorem rows_disjoint (j k : Fin 4) (h : j ≠ k) : Disjoint (rowR j).set (rowR k).set := by
  have hj : j.val < 4 := j.isLt
  have hk : k.val < 4 := k.isLt
  have hne : j.val ≠ k.val := fun e => h (Fin.ext e)
  refine Rect.unit_disjoint (0 : Fin 2) ?_
  show 64 * j.val + 64 ≤ 64 * k.val ∨ 64 * k.val + 64 ≤ 64 * j.val
  omega

/-- The four row blocks together are the whole buffer: row r lies in block r / 64. -/
theorem rows_union :
    (rowR 0).set ∪ ((rowR 1).set ∪ ((rowR 2).set ∪ (rowR 3).set)) = (Finset.univ : Finset S256x256.Idx) := by
  ext y
  simp only [Finset.mem_union, Finset.mem_univ, iff_true]
  have h0 : (y 0).val < 256 := (y 0).isLt
  have h1 : (y 1).val < 256 := (y 1).isLt
  have mem : ∀ j : Fin 4, 64 * j.val ≤ (y 0).val → (y 0).val < 64 * j.val + 64 → y ∈ (rowR j).set := by
    intro j hlo hhi
    rw [Rect.mem_set_unit]
    refine Fin.forall_fin_two.mpr ⟨⟨?_, ?_⟩, ⟨?_, ?_⟩⟩
    · show 64 * j.val ≤ (y 0).val; exact hlo
    · show (y 0).val < 64 * j.val + 64; exact hhi
    · show 0 ≤ (y 1).val; omega
    · show (y 1).val < 0 + 256; omega
  by_cases a : (y 0).val < 64
  · exact .inl (mem 0 (by show 64 * 0 ≤ _; omega) (by show _ < 64 * 0 + 64; omega))
  by_cases b : (y 0).val < 128
  · exact .inr (.inl (mem 1 (by show 64 * 1 ≤ _; omega) (by show _ < 64 * 1 + 64; omega)))
  by_cases d : (y 0).val < 192
  · exact .inr (.inr (.inl (mem 2 (by show 64 * 2 ≤ _; omega) (by show _ < 64 * 2 + 64; omega))))
  · exact .inr (.inr (.inr (mem 3 (by show 64 * 3 ≤ _; omega) (by show _ < 64 * 3 + 64; omega))))

/-! ## Four disjoint parts of a buffer -/

section Four

variable {ℓ : Loc nD τ sig} {S0 S1 S2 S3 : Finset (Idx ℓ)} {q : PosShare TreeShare}

omit [FloatOps F] in
/-- A buffer held whole is held part by part, when four pairwise disjoint parts make it up. -/
theorem split4 (h01 : Disjoint S0 S1) (h02 : Disjoint S0 S2) (h03 : Disjoint S0 S3) (h12 : Disjoint S1 S2)
    (h13 : Disjoint S1 S3) (h23 : Disjoint S2 S3) (hu : S0 ∪ (S1 ∪ (S2 ∪ S3)) = Finset.univ) (f : Buf (Elt F) ℓ) :
    (ℓ ↦{q} f : sProp 𝕄) ⊣⊢ iprop((ℓ ↦[S0]{q} f) ∗ (ℓ ↦[S1]{q} f) ∗ (ℓ ↦[S2]{q} f) ∗ ℓ ↦[S3]{q} f) := by
  rw [← hu]
  refine (pointsTo_union (Finset.disjoint_union_right.mpr ⟨h01, Finset.disjoint_union_right.mpr ⟨h02, h03⟩⟩)).trans ?_
  refine sep_congr_right ((pointsTo_union (Finset.disjoint_union_right.mpr ⟨h12, h13⟩)).trans ?_)
  exact sep_congr_right (pointsTo_union h23)

omit [FloatOps F] in
/-- Four pairwise disjoint parts that make up a buffer, each held at its own contents, are the buffer held
    whole at the contents that agree with each on its part. -/
theorem join4 (h01 : Disjoint S0 S1) (h02 : Disjoint S0 S2) (h03 : Disjoint S0 S3) (h12 : Disjoint S1 S2)
    (h13 : Disjoint S1 S3) (h23 : Disjoint S2 S3) (hu : S0 ∪ (S1 ∪ (S2 ∪ S3)) = Finset.univ) (f0 f1 f2 f3 : Buf (Elt F) ℓ) :
    iprop((ℓ ↦[S0]{q} f0) ∗ (ℓ ↦[S1]{q} f1) ∗ (ℓ ↦[S2]{q} f2) ∗ ℓ ↦[S3]{q} f3) ⊢ (iprop(∃ f, ℓ ↦{q} f) : sProp 𝕄) := by
  refine (sep_mono_right (sep_mono_right (pointsTo_join h23))).trans ?_
  refine (sep_mono_right (pointsTo_join (Finset.disjoint_union_right.mpr ⟨h12, h13⟩))).trans ?_
  refine (pointsTo_join (Finset.disjoint_union_right.mpr ⟨h01, Finset.disjoint_union_right.mpr ⟨h02, h03⟩⟩)).trans ?_
  rw [hu]
  exact exists_intro _

end Four

omit [FloatOps F] in
/-- The send buffer whole is its four row blocks, at the same contents. -/
theorem sWhole_split (c : Dev nD) (f : Buf (Elt F) ((c : Thread nD τ).loc cc0_scratch0)) :
    sWhole (F := F) c f ⊣⊢ iprop(sPts c 0 f ∗ sPts c 1 f ∗ sPts c 2 f ∗ sPts c 3 f) := by
  unfold sWhole sPts
  have e : ∀ j : Fin 4, ((sM : Memref sig .tc .vmem S256x256 .bf16).access (rowR j)).set = (rowR j).set :=
    fun j => View.set_slice_whole cc0_scratch0 (rowR j)
  rw [e 0, e 1, e 2, e 3]
  exact split4 (ℓ := (c : Thread nD τ).loc cc0_scratch0) (rows_disjoint 0 1 (by decide)) (rows_disjoint 0 2 (by decide))
    (rows_disjoint 0 3 (by decide)) (rows_disjoint 1 2 (by decide)) (rows_disjoint 1 3 (by decide))
    (rows_disjoint 2 3 (by decide)) rows_union f

omit [FloatOps F] in
/-- The receive buffer whole is its four row blocks, at the same contents. -/
theorem rWhole_split (c : Dev nD) (f : Buf (Elt F) ((c : Thread nD τ).loc cc0_scratch1)) :
    rWhole (F := F) c f ⊣⊢ iprop(rPts c 0 f ∗ rPts c 1 f ∗ rPts c 2 f ∗ rPts c 3 f) := by
  unfold rWhole rPts
  have e : ∀ j : Fin 4, ((rM : Memref sig .tc .vmem S256x256 .bf16).access (rowR j)).set = (rowR j).set :=
    fun j => View.set_slice_whole cc0_scratch1 (rowR j)
  rw [e 0, e 1, e 2, e 3]
  exact split4 (ℓ := (c : Thread nD τ).loc cc0_scratch1) (rows_disjoint 0 1 (by decide)) (rows_disjoint 0 2 (by decide))
    (rows_disjoint 0 3 (by decide)) (rows_disjoint 1 2 (by decide)) (rows_disjoint 1 3 (by decide))
    (rows_disjoint 2 3 (by decide)) rows_union f

omit [FloatOps F] in
/-- Four row blocks of the send buffer, each at its own contents, are the buffer whole at some contents. -/
theorem sWhole_join (c : Dev nD) (f0 f1 f2 f3 : Buf (Elt F) ((c : Thread nD τ).loc cc0_scratch0)) :
    iprop(sPts (F := F) c 0 f0 ∗ sPts c 1 f1 ∗ sPts c 2 f2 ∗ sPts c 3 f3) ⊢ iprop(∃ f, sWhole c f) := by
  unfold sWhole sPts
  have e : ∀ j : Fin 4, ((sM : Memref sig .tc .vmem S256x256 .bf16).access (rowR j)).set = (rowR j).set :=
    fun j => View.set_slice_whole cc0_scratch0 (rowR j)
  rw [e 0, e 1, e 2, e 3]
  exact join4 (ℓ := (c : Thread nD τ).loc cc0_scratch0) (rows_disjoint 0 1 (by decide)) (rows_disjoint 0 2 (by decide))
    (rows_disjoint 0 3 (by decide)) (rows_disjoint 1 2 (by decide)) (rows_disjoint 1 3 (by decide))
    (rows_disjoint 2 3 (by decide)) rows_union f0 f1 f2 f3

omit [FloatOps F] in
/-- Four row blocks of the receive buffer, each at its own contents, are the buffer whole at some contents. -/
theorem rWhole_join (c : Dev nD) (f0 f1 f2 f3 : Buf (Elt F) ((c : Thread nD τ).loc cc0_scratch1)) :
    iprop(rPts (F := F) c 0 f0 ∗ rPts c 1 f1 ∗ rPts c 2 f2 ∗ rPts c 3 f3) ⊢ iprop(∃ f, rWhole c f) := by
  unfold rWhole rPts
  have e : ∀ j : Fin 4, ((rM : Memref sig .tc .vmem S256x256 .bf16).access (rowR j)).set = (rowR j).set :=
    fun j => View.set_slice_whole cc0_scratch1 (rowR j)
  rw [e 0, e 1, e 2, e 3]
  exact join4 (ℓ := (c : Thread nD τ).loc cc0_scratch1) (rows_disjoint 0 1 (by decide)) (rows_disjoint 0 2 (by decide))
    (rows_disjoint 0 3 (by decide)) (rows_disjoint 1 2 (by decide)) (rows_disjoint 1 3 (by decide))
    (rows_disjoint 2 3 (by decide)) rows_union f0 f1 f2 f3

end Cert.Kernel.Hand

end
-- ==== Proof.Bits.OutBuf.lean ====
import proofs.«900698_g7700000000000699_dist_ar_v7x_xyz2x2x2_x_m256_n256_bf16_1_alg».proof.Proof.Bits.Regions

/-!
# The result buffer after its four stores

Four stores, one per row block, overwrite the whole 256 x 256 buffer: what it then holds does not depend on
what it held before, and is the canonical contents of the four pieces.
-/

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Writing row blocks 0, 1, 2, 3 in turn over any contents `g` leaves the canonical contents of the four pieces. -/
theorem out_written (g : (cc0_stg1_0 : Ref sig .tc).ty.Contents (Elt F)) (p0 p1 p2 p3 : S64x256.Idx → Elt F .bf16) :
    ((oM : Memref sig .tc .vmem S256x256 .bf16).access (rowR 3)).write (Elt F)
        (((oM : Memref sig .tc .vmem S256x256 .bf16).access (rowR 2)).write (Elt F)
          (((oM : Memref sig .tc .vmem S256x256 .bf16).access (rowR 1)).write (Elt F)
            (((oM : Memref sig .tc .vmem S256x256 .bf16).access (rowR 0)).write (Elt F) g p0 Finset.univ) p1 Finset.univ) p2 Finset.univ) p3 Finset.univ
      = View.canon [(⟨rowR 3, p3⟩ : View.Piece (Elt F) S256x256 .bf16), ⟨rowR 2, p2⟩, ⟨rowR 1, p1⟩, ⟨rowR 0, p0⟩] := by
  -- every index lies in one of the four row blocks (row r in block r / 64), so some piece covers it
  have hcov : ∀ y : S256x256.Idx,
      ∃ p ∈ [(⟨rowR 3, p3⟩ : View.Piece (Elt F) S256x256 .bf16), ⟨rowR 2, p2⟩, ⟨rowR 1, p1⟩, ⟨rowR 0, p0⟩], y ∈ p.1.set := by
    intro y
    have h0 : (y 0).val < 256 := (y 0).isLt
    have h1 : (y 1).val < 256 := (y 1).isLt
    have mem : ∀ j : Fin 4, 64 * j.val ≤ (y 0).val → (y 0).val < 64 * j.val + 64 → y ∈ (rowR j).set := by
      intro j hlo hhi
      rw [Rect.mem_set_unit]
      refine Fin.forall_fin_two.mpr ⟨⟨?_, ?_⟩, ⟨?_, ?_⟩⟩
      · show 64 * j.val ≤ (y 0).val; exact hlo
      · show (y 0).val < 64 * j.val + 64; exact hhi
      · show 0 ≤ (y 1).val; omega
      · show (y 1).val < 0 + 256; omega
    by_cases a : (y 0).val < 64
    · exact ⟨_, .tail _ (.tail _ (.tail _ (.head _))), mem 0 (by show 64 * 0 ≤ _; omega) (by show _ < 64 * 0 + 64; omega)⟩
    by_cases b : (y 0).val < 128
    · exact ⟨_, .tail _ (.tail _ (.head _)), mem 1 (by show 64 * 1 ≤ _; omega) (by show _ < 64 * 1 + 64; omega)⟩
    by_cases d : (y 0).val < 192
    · exact ⟨_, .tail _ (.head _), mem 2 (by show 64 * 2 ≤ _; omega) (by show _ < 64 * 2 + 64; omega)⟩
    · exact ⟨_, .head _, mem 3 (by show 64 * 3 ≤ _; omega) (by show _ < 64 * 3 + 64; omega)⟩
  -- the nest of four writes is the list of writes, last write first; read through the whole buffer it is the
  -- canonical contents of a covering list, whatever was there before
  exact View.read_writes_eq_canon (Val := Elt F) (View.whole cc0_stg1_0) g _ hcov

end Cert.Kernel.Hand

end
-- ==== Proof.Bits.Body.lean ====
import proofs.«900698_g7700000000000699_dist_ar_v7x_xyz2x2x2_x_m256_n256_bf16_1_alg».proof.Proof.Bits.Steps
import proofs.«900698_g7700000000000699_dist_ar_v7x_xyz2x2x2_x_m256_n256_bf16_1_alg».proof.Proof.Bits.OutBuf

/-!
# One device's body

Signal the partner's barrier, handing over the receive buffer; wait for the partner's signal and take its
receive buffer; four times: round a row block of the device's half into the send buffer and copy it into the
same block of the partner's receive buffer; four times: wait for the partner's copy of a block, add it to
the device's own block and store the sum in the result buffer; four times: wait until a sent block has
been read. Then both scratch buffers are whole again and the eight copy semaphores are back at zero.
-/

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

-- the block a device sends and the block of its half are read through their definitions when two assertions are compared
set_option allowUnsafeReducibility true in
attribute [local reducible] xRows sentV

omit [FloatOps F] in
theorem sWhole_blocks (c : Dev nD) (f : Buf (Elt F) ((c : Thread nD τ).loc cc0_scratch0)) :
    sWhole (F := F) c f ⊢ iprop(sPts c 0 f ∗ sPts c 1 f ∗ sPts c 2 f ∗ sPts c 3 f) := (sWhole_split c f).1
omit [FloatOps F] in
theorem rWhole_blocks (c : Dev nD) (f : Buf (Elt F) ((c : Thread nD τ).loc cc0_scratch1)) :
    rWhole (F := F) c f ⊢ iprop(rPts c 0 f ∗ rPts c 1 f ∗ rPts c 2 f ∗ rPts c 3 f) := (rWhole_split c f).1

omit [FloatOps F] in
/-- A device's nine positions, cell by cell. -/
theorem positions_eq (c : Dev nD) :
    positions (F := F) c = iprop(atPos ER (barCell c) 0 ∅ 0
      ∗ atPos ER (sendCell c 0) 0 ∅ 0 ∗ atPos ER (sendCell c 1) 0 ∅ 0 ∗ atPos ER (sendCell c 2) 0 ∅ 0 ∗ atPos ER (sendCell c 3) 0 ∅ 0
      ∗ atPos ER (recvCell c 0) 0 ∅ 0 ∗ atPos ER (recvCell c 1) 0 ∅ 0 ∗ atPos ER (recvCell c 2) 0 ∅ 0 ∗ atPos ER (recvCell c 3) 0 ∅ 0) := by
  unfold positions; rw [bigSep_fin9]; rfl

/-- The semaphores a device has waited on so far: after its barrier; then after each receive wait; then after each send wait. -/
abbrev Wb (W : Waits sig Unit) : Waits sig Unit := insert (SemLoc.reg barS, ()) W
abbrev Wr0 (W : Waits sig Unit) : Waits sig Unit := insert (SemLoc.dma (recvA 0).sem, ()) (Wb W)
abbrev Wr1 (W : Waits sig Unit) : Waits sig Unit := insert (SemLoc.dma (recvA 1).sem, ()) (Wr0 W)
abbrev Wr2 (W : Waits sig Unit) : Waits sig Unit := insert (SemLoc.dma (recvA 2).sem, ()) (Wr1 W)
abbrev Wr3 (W : Waits sig Unit) : Waits sig Unit := insert (SemLoc.dma (recvA 3).sem, ()) (Wr2 W)
abbrev Ws0 (W : Waits sig Unit) : Waits sig Unit := insert (SemLoc.dma (sendA 0).sem, ()) (Wr3 W)
abbrev Ws1 (W : Waits sig Unit) : Waits sig Unit := insert (SemLoc.dma (sendA 1).sem, ()) (Ws0 W)
abbrev Ws2 (W : Waits sig Unit) : Waits sig Unit := insert (SemLoc.dma (sendA 2).sem, ()) (Ws1 W)
abbrev Ws3 (W : Waits sig Unit) : Waits sig Unit := insert (SemLoc.dma (sendA 3).sem, ()) (Ws2 W)

/-- The sum stored as row block `j` of the result on device `c`. -/
abbrev sumOf (c : Dev nD) (j : Fin 4) : Vec F S64x256 .bf16 := sumRows (xRows (xstg m c) j) (sentV (xstg m (partner c)) j)

/-- The result buffer after blocks 0 to `j` have been stored, over what it held (`g`). -/
abbrev out0 (c : Dev nD) (g : Buf (Elt F) ((c : Thread nD τ).loc cc0_stg1_0)) : Buf (Elt F) ((c : Thread nD τ).loc cc0_stg1_0) :=
  ((oM : Memref sig .tc .vmem S256x256 .bf16).access (rowR 0)).write (Elt F) g (sumOf m c 0) Finset.univ
abbrev out1 (c : Dev nD) (g : Buf (Elt F) ((c : Thread nD τ).loc cc0_stg1_0)) : Buf (Elt F) ((c : Thread nD τ).loc cc0_stg1_0) :=
  ((oM : Memref sig .tc .vmem S256x256 .bf16).access (rowR 1)).write (Elt F) (out0 m c g) (sumOf m c 1) Finset.univ
abbrev out2 (c : Dev nD) (g : Buf (Elt F) ((c : Thread nD τ).loc cc0_stg1_0)) : Buf (Elt F) ((c : Thread nD τ).loc cc0_stg1_0) :=
  ((oM : Memref sig .tc .vmem S256x256 .bf16).access (rowR 2)).write (Elt F) (out1 m c g) (sumOf m c 2) Finset.univ
abbrev out3 (c : Dev nD) (g : Buf (Elt F) ((c : Thread nD τ).loc cc0_stg1_0)) : Buf (Elt F) ((c : Thread nD τ).loc cc0_stg1_0) :=
  ((oM : Memref sig .tc .vmem S256x256 .bf16).access (rowR 3)).write (Elt F) (out2 m c g) (sumOf m c 3) Finset.univ

/-- Whatever the result buffer held, after the four stores it holds the device's half plus its partner's. -/
theorem out3_eq (c : Dev nD) (g : Buf (Elt F) ((c : Thread nD τ).loc cc0_stg1_0)) : out3 m c g = outOf m c :=
  out_written g (sumOf m c 0) (sumOf m c 1) (sumOf m c 2) (sumOf m c 3)

set_option maxHeartbeats 1600000 in
/-- The body, run from `bodyPre` to `bodyPost`. -/
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre Φ₀ start ghost payToks
  rw [positions_eq]
  simp only [bigSep_fin4]
  iintro ⟨⟨⟨⟨⟨%K, #Hrec, ⟨HaB, HaS0, HaS1, HaS2, HaS3, HaR0, HaR1, HaR2, HaR3⟩, HtB, ⟨HtR0, HtR1, HtR2, HtR3⟩, ⟨HtS0, HtS1, HtS2, HtS3⟩⟩,
      HcB, ⟨HcR0, HcR1, HcR2, HcR3⟩, #Hlev⟩, ⟨%fs, Hs⟩, ⟨%fr, Hr⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [dev1_eq c]
  -- both scratch buffers by row blocks
  ihave Hr4 := (rWhole_blocks c fr) $$ Hr
  icases Hr4 with ⟨Hr0, Hr1, Hr2, Hr3⟩
  ihave Hs4 := (sWhole_blocks c fs) $$ Hs
  icases Hs4 with ⟨Hs0, Hs1, Hs2, Hs3⟩
  -- the signal to the partner's barrier: the receive buffer block by block, and that the four receive cells are at round 0
  iapply (Rounds.wp_signal 𝒱₀ ER (sched m) (c : Thread nD τ) none (dst := (partner c : Thread nD τ)) (κ := K (partner c, 0))
      (d := ()) (mem_duties_bar m (partner c)) ((amount_bar m (partner c) ()).trans (by decide)) () (OR0 c) rfl)
    $$ [HO HtB Hr0 Hr1 Hr2 Hr3]
  · isplitr; · iapply (inv_at m K (partner c, 0)); iexact Hrec
    isplitl [HO]; · iexact HO
    isplitl [HtB]; · iexact HtB
    isplitl [Hr0 Hr1 Hr2 Hr3]
    · rw [payload_bar]; unfold barPay; rw [partner_partner]
      isplitl [Hr0 Hr1 Hr2 Hr3]
      · isplitl [Hr0]; · iexists fr; iexact Hr0
        isplitl [Hr1]; · iexists fr; iexact Hr1
        isplitl [Hr2]; · iexists fr; iexact Hr2
        iexists fr; iexact Hr3
      · isplitr; · iapply (reached_at m K (c, recvK 0)); iexact Hrec
        isplitr; · iapply (reached_at m K (c, recvK 1)); iexact Hrec
        isplitr; · iapply (reached_at m K (c, recvK 2)); iexact Hrec
        iapply (reached_at m K (c, recvK 3)); iexact Hrec
    · iapply (reached_at m K (partner c, 0)); iexact Hrec
  iintro HO
  -- the wait on its own barrier, owing the partner's four receive credits: the partner's receive buffer comes with it
  iapply (Rounds.wp_wait_rest_token 𝒱₀ ER (sched m) (c : Thread nD τ) none (κ := K (c, 0))
      (wpE_semWait_eq 𝒱₀ (c : Thread nD τ) none Set.univ) (Set.mem_univ _) () (O := OR0 c) (W := W) (R := 0) (m := 0) (T := ∅)
      (by rw [expect_bar]; decide)) $$ [HcB HO HaB]
  · isplitr; · iapply (inv_at m K (c, 0)); iexact Hrec
    isplitl [HcB]; · iexact HcB
    isplitl [HO]; · iexact HO
    isplitr; · iapply (mayWait_bar c); iexact Hlev
    iexact HaB
  iintro ⟨HO, HaB, -, Hpay⟩
  ihave Hp := (Entails.of_eq (rest_bar m c)) $$ Hpay
  unfold barPay
  icases Hp with ⟨⟨⟨%fp0, Hp0⟩, ⟨%fp1, Hp1⟩, ⟨%fp2, Hp2⟩, ⟨%fp3, Hp3⟩⟩, -⟩
  -- FILL AND SEND the four blocks, each paying one of the receive credits owed
  unfold OR0
  iapply (wp_fill_send_row m K c 0 _ (dev2_eq c) fs fp0 (OR1 c) (Wb W)) $$ [Hx Hs0 Hp0 HO HtS0 HtR0]
  · isplitr; · iapply (inv_at m K (c, sendK 0)); iexact Hrec
    isplitr; · iapply (inv_at m K (partner c, recvK 0)); iexact Hrec
    isplitl [Hx]; · iexact Hx
    isplitl [Hs0]; · iexact Hs0
    isplitl [Hp0]; · iexact Hp0
    isplitl [HO]; · iexact HO
    isplitl [HtS0]; · iexact HtS0
    isplitr; · iapply (reached_at m K (c, sendK 0)); iexact Hrec
    isplitl [HtR0]; · iexact HtR0
    iapply (reached_at m K (partner c, recvK 0)); iexact Hrec
  iintro ⟨Hx, HcS0, HO⟩
  unfold OR1
  iapply (wp_fill_send_row m K c 1 _ (dev3_eq c) fs fp1 (OR2 c) (Wb W)) $$ [Hx Hs1 Hp1 HO HtS1 HtR1]
  · isplitr; · iapply (inv_at m K (c, sendK 1)); iexact Hrec
    isplitr; · iapply (inv_at m K (partner c, recvK 1)); iexact Hrec
    isplitl [Hx]; · iexact Hx
    isplitl [Hs1]; · iexact Hs1
    isplitl [Hp1]; · iexact Hp1
    isplitl [HO]; · iexact HO
    isplitl [HtS1]; · iexact HtS1
    isplitr; · iapply (reached_at m K (c, sendK 1)); iexact Hrec
    isplitl [HtR1]; · iexact HtR1
    iapply (reached_at m K (partner c, recvK 1)); iexact Hrec
  iintro ⟨Hx, HcS1, HO⟩
  unfold OR2
  iapply (wp_fill_send_row m K c 2 _ (dev4_eq c) fs fp2 (OR3 c) (Wb W)) $$ [Hx Hs2 Hp2 HO HtS2 HtR2]
  · isplitr; · iapply (inv_at m K (c, sendK 2)); iexact Hrec
    isplitr; · iapply (inv_at m K (partner c, recvK 2)); iexact Hrec
    isplitl [Hx]; · iexact Hx
    isplitl [Hs2]; · iexact Hs2
    isplitl [Hp2]; · iexact Hp2
    isplitl [HO]; · iexact HO
    isplitl [HtS2]; · iexact HtS2
    isplitr; · iapply (reached_at m K (c, sendK 2)); iexact Hrec
    isplitl [HtR2]; · iexact HtR2
    iapply (reached_at m K (partner c, recvK 2)); iexact Hrec
  iintro ⟨Hx, HcS2, HO⟩
  rw [show OR3 c = 0 + tallyAt (recvCell (partner c) 3) () N from (zero_add _).symm]
  iapply (wp_fill_send_row m K c 3 _ (dev5_eq c) fs fp3 (0) (Wb W)) $$ [Hx Hs3 Hp3 HO HtS3 HtR3]
  · isplitr; · iapply (inv_at m K (c, sendK 3)); iexact Hrec
    isplitr; · iapply (inv_at m K (partner c, recvK 3)); iexact Hrec
    isplitl [Hx]; · iexact Hx
    isplitl [Hs3]; · iexact Hs3
    isplitl [Hp3]; · iexact Hp3
    isplitl [HO]; · iexact HO
    isplitl [HtS3]; · iexact HtS3
    isplitr; · iapply (reached_at m K (c, sendK 3)); iexact Hrec
    isplitl [HtR3]; · iexact HtR3
    iapply (reached_at m K (partner c, recvK 3)); iexact Hrec
  iintro ⟨Hx, HcS3, HO⟩
  -- RECEIVE AND ADD the four blocks
  iapply (wp_recv_add_row m K c 0 (g1) (Wb W)) $$ [HcR0 HO HaR0 Hx Hout]
  · isplitr; · iapply (inv_at m K (c, recvK 0)); iexact Hrec
    isplitl [HcR0]; · iexact HcR0
    isplitl [HO]; · iexact HO
    isplitl [HaR0]; · iexact HaR0
    isplitl [Hx]; · iexact Hx
    iexact Hout
  iintro ⟨HO, HaR0, ⟨%fr0, Hr0⟩, Hx, Hout⟩
  iapply (wp_recv_add_row m K c 1 (out0 m c g1) (Wr0 W)) $$ [HcR1 HO HaR1 Hx Hout]
  · isplitr; · iapply (inv_at m K (c, recvK 1)); iexact Hrec
    isplitl [HcR1]; · iexact HcR1
    isplitl [HO]; · iexact HO
    isplitl [HaR1]; · iexact HaR1
    isplitl [Hx]; · iexact Hx
    iexact Hout
  iintro ⟨HO, HaR1, ⟨%fr1, Hr1⟩, Hx, Hout⟩
  iapply (wp_recv_add_row m K c 2 (out1 m c g1) (Wr1 W)) $$ [HcR2 HO HaR2 Hx Hout]
  · isplitr; · iapply (inv_at m K (c, recvK 2)); iexact Hrec
    isplitl [HcR2]; · iexact HcR2
    isplitl [HO]; · iexact HO
    isplitl [HaR2]; · iexact HaR2
    isplitl [Hx]; · iexact Hx
    iexact Hout
  iintro ⟨HO, HaR2, ⟨%fr2, Hr2⟩, Hx, Hout⟩
  iapply (wp_recv_add_row m K c 3 (out2 m c g1) (Wr2 W)) $$ [HcR3 HO HaR3 Hx Hout]
  · isplitr; · iapply (inv_at m K (c, recvK 3)); iexact Hrec
    isplitl [HcR3]; · iexact HcR3
    isplitl [HO]; · iexact HO
    isplitl [HaR3]; · iexact HaR3
    isplitl [Hx]; · iexact Hx
    iexact Hout
  iintro ⟨HO, HaR3, ⟨%fr3, Hr3⟩, Hx, Hout⟩
  -- SENT: the four blocks of the send buffer come back
  iapply (wp_wait_send_row m K c 0 (Wr3 W)) $$ [HcS0 HO HaS0]
  · isplitr; · iapply (inv_at m K (c, sendK 0)); iexact Hrec
    isplitl [HcS0]; · iexact HcS0
    isplitl [HO]; · iexact HO
    iexact HaS0
  iintro ⟨HO, HaS0, ⟨%fs0, Hs0⟩⟩
  iapply (wp_wait_send_row m K c 1 (Ws0 W)) $$ [HcS1 HO HaS1]
  · isplitr; · iapply (inv_at m K (c, sendK 1)); iexact Hrec
    isplitl [HcS1]; · iexact HcS1
    isplitl [HO]; · iexact HO
    iexact HaS1
  iintro ⟨HO, HaS1, ⟨%fs1, Hs1⟩⟩
  iapply (wp_wait_send_row m K c 2 (Ws1 W)) $$ [HcS2 HO HaS2]
  · isplitr; · iapply (inv_at m K (c, sendK 2)); iexact Hrec
    isplitl [HcS2]; · iexact HcS2
    isplitl [HO]; · iexact HO
    iexact HaS2
  iintro ⟨HO, HaS2, ⟨%fs2, Hs2⟩⟩
  iapply (wp_wait_send_row m K c 3 (Ws2 W)) $$ [HcS3 HO HaS3]
  · isplitr; · iapply (inv_at m K (c, sendK 3)); iexact Hrec
    isplitl [HcS3]; · iexact HcS3
    isplitl [HO]; · iexact HO
    iexact HaS3
  iintro ⟨HO, HaS3, ⟨%fs3, Hs3⟩⟩
  -- the eight own cells close: their counters at zero are the core's again
  imod (Rounds.cell_close ER (sched m) (Set.mem_univ (K (c, sendK 0))) (fun h => h) (R := 0 + 1) (duties_later m (sendCell c 0))) $$ [HaS0] with HzS0
  · isplitr; · iapply (inv_at m K (c, sendK 0)); iexact Hrec
    iexact HaS0
  imod (Rounds.cell_close ER (sched m) (Set.mem_univ (K (c, sendK 1))) (fun h => h) (R := 0 + 1) (duties_later m (sendCell c 1))) $$ [HaS1] with HzS1
  · isplitr; · iapply (inv_at m K (c, sendK 1)); iexact Hrec
    iexact HaS1
  imod (Rounds.cell_close ER (sched m) (Set.mem_univ (K (c, sendK 2))) (fun h => h) (R := 0 + 1) (duties_later m (sendCell c 2))) $$ [HaS2] with HzS2
  · isplitr; · iapply (inv_at m K (c, sendK 2)); iexact Hrec
    iexact HaS2
  imod (Rounds.cell_close ER (sched m) (Set.mem_univ (K (c, sendK 3))) (fun h => h) (R := 0 + 1) (duties_later m (sendCell c 3))) $$ [HaS3] with HzS3
  · isplitr; · iapply (inv_at m K (c, sendK 3)); iexact Hrec
    iexact HaS3
  imod (Rounds.cell_close ER (sched m) (Set.mem_univ (K (c, recvK 0))) (fun h => h) (R := 0 + 1) (duties_later m (recvCell c 0))) $$ [HaR0] with HzR0
  · isplitr; · iapply (inv_at m K (c, recvK 0)); iexact Hrec
    iexact HaR0
  imod (Rounds.cell_close ER (sched m) (Set.mem_univ (K (c, recvK 1))) (fun h => h) (R := 0 + 1) (duties_later m (recvCell c 1))) $$ [HaR1] with HzR1
  · isplitr; · iapply (inv_at m K (c, recvK 1)); iexact Hrec
    iexact HaR1
  imod (Rounds.cell_close ER (sched m) (Set.mem_univ (K (c, recvK 2))) (fun h => h) (R := 0 + 1) (duties_later m (recvCell c 2))) $$ [HaR2] with HzR2
  · isplitr; · iapply (inv_at m K (c, recvK 2)); iexact Hrec
    iexact HaR2
  imod (Rounds.cell_close ER (sched m) (Set.mem_univ (K (c, recvK 3))) (fun h => h) (R := 0 + 1) (duties_later m (recvCell c 3))) $$ [HaR3] with HzR3
  · isplitr; · iapply (inv_at m K (c, recvK 3)); iexact Hrec
    iexact HaR3
  -- both scratch buffers whole again
  ihave Hs := (sWhole_join c fs0 fs1 fs2 fs3) $$ [Hs0 Hs1 Hs2 Hs3]
  · isplitl [Hs0]; · iexact Hs0
    isplitl [Hs1]; · iexact Hs1
    isplitl [Hs2]; · iexact Hs2
    iexact Hs3
  ihave Hr := (rWhole_join c fr0 fr1 fr2 fr3) $$ [Hr0 Hr1 Hr2 Hr3]
  · isplitl [Hr0]; · iexact Hr0
    isplitl [Hr1]; · iexact Hr1
    isplitl [Hr2]; · iexact Hr2
    iexact Hr3
  rw [wp_ret]; imodintro
  iapply Hk
  unfold bodyPost Φ₁ Dat.owesAt Pipeline.owesWithin
  rw [show (dats m 0 c).owed t₀.succ = 0 from rfl]
  simp only [bigSep_fin4]
  isplitl [Hs Hr HzS0 HzS1 HzS2 HzS3 HzR0 HzR1 HzR2 HzR3]
  · isplitl [Hs]; · iexact Hs
    isplitl [Hr]; · iexact Hr
    isplitl [HzS0 HzS1 HzS2 HzS3]
    · isplitl [HzS0]; · iexact HzS0
      isplitl [HzS1]; · iexact HzS1
      isplitl [HzS2]; · iexact HzS2
      iexact HzS3
    · isplitl [HzR0]; · iexact HzR0
      isplitl [HzR1]; · iexact HzR1
      isplitl [HzR2]; · iexact HzR2
      iexact HzR3
  isplitl [HO]
  · iexists (Ws3 W)
    isplitr; · ipureintro; exact fun _ _ => Or.inl trivial
    iexact HO
  isplitl [Hx]
  · iexists _; isplitr; · (ipureintro; rfl)
    iexact Hx
  iexists (out3 m c g1); isplitr; · (ipureintro; exact out3_eq m c g1)
  iexact Hout

set_option maxRecDepth 8000 in
/-- The pipeline's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) (fun _ => bodyPost m c)
  iintro H
  iapply (sound_body m c fun _ => bodyPost m c)
  isplitl [H]; · iexact H
  iintro H; iexact H

end Cert.Kernel.Hand

end
-- ==== Proof.Bits.Launch.lean ====
import proofs.«900698_g7700000000000699_dist_ar_v7x_xyz2x2x2_x_m256_n256_bf16_1_alg».proof.Proof.Bits.Data

/-!
# The launch: from every device's body to the run of the whole mesh
-/

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-!
The launch element is a pair: the pipeline's staging cells, and the 72 protocol cells (nine a device) with one
token per cell. Funding it gives every device the round state, position, reached mark and token of its own
nine cells. The global step closes each cell's invariant over its counter at zero, gathers all 72 invariants
and reached marks (persistent: every device gets all of them), and deals the tokens to the devices that PAY
them: barrier and receive tokens cross to the partner, send tokens stay. The launch credit of a device is one
unit on its barrier and one copy's credit on each receive cell, all from its partner.
-/

/-! ## The layout facts the launch takes -/

theorem ownSemFacts : Pipeline.OwnSemFacts cfg0.spec osem := by decide

theorem share_eq (c : Dev nD) (w : Fin cfg0.W) : (dats m 0 c).share w = fullShare := by unfold Dat.share; split <;> rfl

/-! ## The launch element -/

theorem kcell_injective : Function.Injective (kcell : Dev nD × Fin 9 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

/-- The 72 protocol cells. -/
def allCells : Finset (GSem nD τ sig) := Finset.univ.map ⟨kcell, kcell_injective⟩

/-- One token per cell: its one duty of round 0. -/
abbrev tokOf (ck : Dev nD × Fin 9) : GSem nD τ sig × ℕ × Unit := (kcell ck, 0, ())
theorem tokOf_injective : Function.Injective (tokOf : Dev nD × Fin 9 → GSem nD τ sig × ℕ × Unit) :=
  fun a b h => kcell_injective (congrArg Prod.fst h)
def allToks : Finset (GSem nD τ sig × ℕ × Unit) := Finset.univ.map ⟨tokOf, tokOf_injective⟩

def u₀ : UU :=
  (initOf (Pipeline.cells cfgs cellOf_inj) (Pipeline.launchToks cfgs cellOf_inj), initOf allCells allToks)

/-- The duty tokens of device `c`'s own nine cells, as minted. -/
def toks (c : Dev nD) : sProp 𝕄 := bigSep Finset.univ fun k : Fin 9 => dutyTok ER (kcell (c, k)) 0 ()

/-- What the launch element deals device `c`: round state, position, reached mark and token of each of its cells. -/
def G (c : Dev nD) : sProp 𝕄 :=
  iprop((bigSep Finset.univ fun k : Fin 9 => roundState ER (sched m) (kcell (c, k)) 0)
    ∗ (bigSep Finset.univ fun k : Fin 9 => iprop(atPos ER (kcell (c, k)) 0 ∅ 0 ∗ reached ER (kcell (c, k)) 0)) ∗ toks c)

/-- What the global step makes of it. -/
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 9 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero, cell by cell -/

omit [FloatOps F] in
/-- The send and receive semaphores are the kernel's own eight; -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0
        ∗ semVal (kcell (c, 5)) 0 ∗ semVal (kcell (c, 6)) 0 ∗ semVal (kcell (c, 7)) 0 ∗ semVal (kcell (c, 8)) 0) := by
  rw [Pipeline.ownSems0_eq_of_list c osem [0, 1, 2, 3, 4, 5, 6, 7] (by decide) (by decide)]; rfl
omit [FloatOps F] in
/-- the barrier semaphore the core's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, bigSep_fin9]
  iintro ⟨H, HB⟩
  isplitl [HB]; · iexact HB
  iexact H

/-- Each of a device's nine cells closed under its invariant, at some name. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 9 => iprop(∃ κ : ℕ, cellInv ER (sched m) κ (kcell (c, k))))
          ∗ (bigSep Finset.univ fun k : Fin 9 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (sched m) (kcell (c, k)) 0)
      ⊢ (|={Set.univ}=> bigSep Finset.univ fun k : Fin 9 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The global step: gather what is persistent, deal the tokens to the devices that pay them -/

theorem ghost_intro (K : Dev nD × Fin 9 → ℕ) (c : Dev nD) : iprop(records m K ∗ positions c ∗ payToks c) ⊢ G' m c := by
  unfold G' ghost
  iintro H
  iexists K
  iexact H

omit [FloatOps F] in
/-- A device's nine tokens by kind: its barrier's, its four send cells', its four receive cells'. -/
theorem toks_kinds (c : Dev nD) :
    (toks c : sProp 𝕄) ⊢ iprop(dutyTok ER (barCell c) 0 () ∗ (bigSep Finset.univ fun j : Fin 4 => dutyTok ER (sendCell c j) 0 ())
      ∗ (bigSep Finset.univ fun j : Fin 4 => dutyTok ER (recvCell c j) 0 ())) := by
  unfold toks
  rw [bigSep_fin9, bigSep_fin4, bigSep_fin4]
  iintro ⟨H0, H1, H2, H3, H4, H5, H6, H7, H8⟩
  isplitl [H0]; · iexact H0
  isplitl [H1 H2 H3 H4]
  · isplitl [H1]; · iexact H1
    isplitl [H2]; · iexact H2
    isplitl [H3]; · iexact H3
    iexact H4
  · isplitl [H5]; · iexact H5
    isplitl [H6]; · iexact H6
    isplitl [H7]; · iexact H7
    iexact H8

omit [FloatOps F] in
/-- The tokens dealt across the swap: a barrier's token and the four receive tokens go to the partner (who pays those
    duties), the four send tokens stay. -/
theorem kinds_around :
    (bigSep Finset.univ fun c : Dev nD => iprop(dutyTok ER (barCell c) 0 () ∗ (bigSep Finset.univ fun j : Fin 4 => dutyTok ER (sendCell c j) 0 ())
      ∗ (bigSep Finset.univ fun j : Fin 4 => dutyTok ER (recvCell c j) 0 ())) : sProp 𝕄) ⊢ bigSep Finset.univ fun c : Dev nD => payToks c := by
  unfold payToks
  rw [bigSep_sep', bigSep_sep', bigSep_sep', bigSep_sep',
    bigSep_univ_equiv swap (fun c : Dev nD => (dutyTok ER (barCell c) 0 () : sProp 𝕄)),
    bigSep_univ_equiv swap (fun c : Dev nD => (bigSep Finset.univ fun j : Fin 4 => dutyTok ER (recvCell c j) 0 () : sProp 𝕄))]
  iintro ⟨H1, H2, H3⟩
  isplitl [H1]; · iexact H1
  isplitl [H3]; · iexact H3
  iexact H2

omit [FloatOps F] in
theorem toks_around : (bigSep Finset.univ fun c : Dev nD => (toks c : sProp 𝕄)) ⊢ bigSep Finset.univ fun c : Dev nD => payToks c :=
  (bigSep_mono fun c _ => toks_kinds (F := F) c).trans (kinds_around (F := F))

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 9 => iprop(∃ κ : ℕ, cellInv ER (sched m) κ (kcell (c, k))))
          ∗ (bigSep Finset.univ fun k : Fin 9 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 9 => iprop(∃ κ : ℕ, cellInv ER (sched m) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
/-- What the others owe device `c` at launch, all of it from its partner: one unit on its barrier, one copy's credit on
    each receive cell. -/
theorem creds (c : Dev nD) :
    (Pipeline.launchCred O₀ c : sProp 𝕄)
      ⊢ iprop(cred (tallyAt (barCell c) () 1) ∗ bigSep Finset.univ fun j : Fin 4 => cred (tallyAt (recvCell c j) () N)) := by
  have hr (j : Fin 4) : (Pipeline.launchCred (fun d : Dev nD => (tallyAt (recvCell (partner d) j) () N : CellTallies nD τ sig Unit)) c : sProp 𝕄)
      ⊢ cred (tallyAt (recvCell c j) () N) :=
    Pipeline.launchCred_tallyAt (.dma (recvA j).sem) partner partner partner_partner partner_partner () N c
  have hb : (Pipeline.launchCred (fun d : Dev nD => (tallyAt (barCell (partner d)) () 1 : CellTallies nD τ sig Unit)) c : sProp 𝕄)
      ⊢ cred (tallyAt (barCell c) () 1) :=
    Pipeline.launchCred_tallyAt (.reg barS) partner partner partner_partner partner_partner () 1 c
  rw [show (O₀ : Dev nD → CellTallies nD τ sig Unit) = fun d => OR0 d + tallyAt (barCell (partner d)) () 1 from rfl, Pipeline.launchCred_add,
    show (OR0 : Dev nD → CellTallies nD τ sig Unit) = fun d => OR1 d + tallyAt (recvCell (partner d) 0) () N from rfl, Pipeline.launchCred_add,
    show (OR1 : Dev nD → CellTallies nD τ sig Unit) = fun d => OR2 d + tallyAt (recvCell (partner d) 1) () N from rfl, Pipeline.launchCred_add,
    show (OR2 : Dev nD → CellTallies nD τ sig Unit) = fun d => OR3 d + tallyAt (recvCell (partner d) 2) () N from rfl, Pipeline.launchCred_add,
    show (OR3 : Dev nD → CellTallies nD τ sig Unit) = fun d => tallyAt (recvCell (partner d) 3) () N from rfl, bigSep_fin4]
  iintro ⟨⟨⟨⟨H3, H2⟩, H1⟩, H0⟩, HB⟩
  isplitl [HB]; · iapply hb; iexact HB
  isplitl [H0]; · iapply (hr 0); iexact H0
  isplitl [H1]; · iapply (hr 1); iexact H1
  isplitl [H2]; · iapply (hr 2); iexact H2
  iapply (hr 3); iexact H3

/-! ## The theorem's side conditions -/

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- Entering the region: the two scratch buffers whole, at whatever they hold. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ sWhole rWhole
  iintro ⟨Hs, -, Hs0, Hs1⟩
  isplitl [Hs]; · iexact Hs
  isplitl [Hs0]; · iexact Hs0
  iexact Hs1

/-- Leaving it: the same two whole again, and the eight own semaphores back at zero. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ sWhole rWhole
  rw [bigSep_fin4, bigSep_fin4]
  iintro ⟨Hs0, Hs1, ⟨S0, S1, S2, S3⟩, ⟨R0, R1, R2, R3⟩⟩
  isplitr; · iempintro
  isplitr [Hs0 Hs1]
  · isplitl [S0]; · iexact S0
    isplitl [S1]; · iexact S1
    isplitl [S2]; · iexact S2
    isplitl [S3]; · iexact S3
    isplitl [R0]; · iexact R0
    isplitl [R1]; · iexact R1
    isplitl [R2]; · iexact R2
    iexact R3
  isplitl [Hs0]; · iexact Hs0
  iexact Hs1

/-- The pipeline's own waits are on the two staging semaphores: at the bottom level, below everything owed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From each device's body: every weakly fair execution of the eight devices terminates, and every final state has
    each windowed array at what the pipeline's write-backs leave. -/
theorem run_main (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays -/

/-- The argument array is an input window's: never written. -/
theorem finalA_in (c : Dev nD) : finalA m c (0 : Fin 2) = m ((c : Thread nD τ).loc main_arg0) :=
  (dats (F := F) m 0 c).arrAt_in (0 : Fin 2) rfl _

omit [FloatOps F] in
/-- The result window's one block is the whole array: reading it reads the array. -/
theorem read_blk_out (X : (main_v1 : Ref sig .tc).ty.Contents (Elt F)) : ((cfg0.win (1 : Fin 2)).blk t₀).view.read (Elt F) X = X :=
  Memref.read_access_unit_zero (Elt F) main_v1 (off := fun a => (cfg0.win (1 : Fin 2)).index t₀ a * (cfg0.win (1 : Fin 2)).size a)
    (funext fun a => Nat.zero_mul _) (fun a => Pipeline.Clip.inb ((cfg0.win (1 : Fin 2)).hclip (cfg0.grid.coords t₀) a)) X

/-- The result array is written back once, whole, at the one point: it ends at what the body left in its staging
    buffer. -/
theorem finalA_out (c : Dev nD) : finalA m c (1 : Fin 2) = outOf m c := by
  have h := (dats (F := F) m 0 c).arrAt_succ (1 : Fin 2) t₀
  rw [flush0_1, if_pos rfl] at h
  show (dats m 0 c).arrAt (1 : Fin 2) (t₀.val + 1) = _
  rw [h]
  exact (read_blk_out _).symm.trans (View.read_write_univ _ _)

/-- From any memory with zero counters, given each device's body: every weakly fair execution of the eight devices
    terminates, and every final state has each device's result array at its half plus its partner's (`outOf`) and its
    argument array unchanged. -/
theorem run_vals (hbody : ∀ c : Dev nD, BodyObligation (dats (F := F) m 0 c) (defs₀ (F := F)) 𝒱₀ () Set.univ) (ρ : Dev nD → PrngReg) :
    θ_run defs (onTc (τ := τ) (main (F := F))) ⟨m, fun _ => 0, ρ⟩ (fun r => ∀ c : Dev nD,
      r.2.mem ((c.tc : Thread nD τ).loc main_v1) = outOf m c
      ∧ r.2.mem ((c.tc : Thread nD τ).loc main_arg0) = m ((c.tc : Thread nD τ).loc main_arg0)) :=
  (θ_run defs _ _).mono (fun _ h c => ⟨(h c (1 : Fin 2)).trans (finalA_out m c), (h c (0 : Fin 2)).trans (finalA_in m c)⟩) (run_main m hbody ρ)

/-- info: 'Cert.Kernel.Hand.run_vals' depends on axioms: [propext, Classical.choice, Quot.sound] -/
#guard_msgs in #print axioms run_vals

end Cert.Kernel.Hand

end
-- ==== Proof.Value.lean ====
import proofs.«900698_g7700000000000699_dist_ar_v7x_xyz2x2x2_x_m256_n256_bf16_1_alg».proof.Defs
import proofs.«900698_g7700000000000699_dist_ar_v7x_xyz2x2x2_x_m256_n256_bf16_1_alg».proof.Proof.Spec
import proofs.«900698_g7700000000000699_dist_ar_v7x_xyz2x2x2_x_m256_n256_bf16_1_alg».proof.Proof.Gen.ReferenceIdeal.Run
import proofs.«900698_g7700000000000699_dist_ar_v7x_xyz2x2x2_x_m256_n256_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.Proof.Value

open Idealize.ShloMosaic Idealize.ShloMosaic.TcCoe Idealize.SL.Sem

/-! ## The pieces

The result buffer is assembled from four row blocks, each holding, over the extended reals (where rounding
to bf16 and widening back are the identity), the device's own rows plus its partner's. The four blocks cover
the buffer, so the buffer is the pointwise sum of the two halves. A device's half is the block of the whole
array its first mesh coordinate names, and the reference adds the two halves of the whole array to zero. -/

section Pieces

open Cert.KernelIdeal Cert.KernelIdeal.Hand

/-- One row block of the result: own half plus partner's half, at the block's place in the buffer. -/
theorem sumRows_apply (xc xp : (cc0_stg0_0 : Ref sig .tc).ty.Contents (Elt Ideal)) (j : Fin 4) (x : S64x256.Idx) :
    sumRows (F := Ideal) (xRows xc j) (sentV xp j) x
      = (show EReal from xc ((rowR j).emb x)) + (show EReal from xp ((rowR j).emb x)) := by
  unfold sumRows sentV truncRows xRows
  simp only [shapeCast_self]
  rfl

/-- Every index of the buffer lies in one of the four row blocks: row r is in block r / 64. -/
theorem covered (y : S256x256.Idx) : ∃ j : Fin 4, y ∈ (rowR j).set := by
  have h0 : (y 0).val < 256 := (y 0).isLt
  have h1 : (y 1).val < 256 := (y 1).isLt
  refine ⟨⟨(y 0).val / 64, by omega⟩, ?_⟩
  rw [Rect.mem_set_unit]
  refine Fin.forall_fin_two.mpr ⟨⟨?_, ?_⟩, ⟨?_, ?_⟩⟩
  · show 64 * ((y 0).val / 64) ≤ (y 0).val; omega
  · show (y 0).val < 64 * ((y 0).val / 64) + 64; omega
  · show 0 ≤ (y 1).val; omega
  · show (y 1).val < 0 + 256; omega

/-- The sum of the two halves at an index, typed as an element of the bf16 result buffer. -/
def sumAt (xc xp : (cc0_stg0_0 : Ref sig .tc).ty.Contents (Elt Ideal)) : S256x256.Idx → Elt Ideal (.bf16 : EltTy) :=
  fun y => (show EReal from xc y) + (show EReal from xp y)

/-- The result buffer at an index: own half plus partner's half there. Each of the four pieces carries the
    sum on its own rows, and the four row blocks cover the buffer. -/
theorem outAt_apply (xc xp : (cc0_stg0_0 : Ref sig .tc).ty.Contents (Elt Ideal)) (y : S256x256.Idx) :
    outAt (F := Ideal) xc xp y = sumAt xc xp y := by
  unfold outAt
  refine View.canon_apply_of_pieces (Val := Elt Ideal) (sumAt xc xp) _ ?_ y ?_
  · intro p hp x
    simp only [List.mem_cons, List.not_mem_nil, or_false] at hp
    rcases hp with rfl | rfl | rfl | rfl
    · exact sumRows_apply xc xp 3 x
    · exact sumRows_apply xc xp 2 x
    · exact sumRows_apply xc xp 1 x
    · exact sumRows_apply xc xp 0 x
  · obtain ⟨j, hj⟩ := covered y
    rcases j with ⟨_ | _ | _ | _ | n, hn⟩
    · exact ⟨_, .tail _ (.tail _ (.tail _ (.head _))), hj⟩
    · exact ⟨_, .tail _ (.tail _ (.head _)), hj⟩
    · exact ⟨_, .tail _ (.head _), hj⟩
    · exact ⟨_, .head _, hj⟩
    · omega

/-- A device's half as launched is its argument buffer itself: the window is the whole array, its one block
    at offsets zero. -/
theorem xstg_eq (m : (ℓ : Loc nD τ sig) → Buf (Elt Ideal) ℓ) (c : Dev nD) :
    xstg (F := Ideal) m c = m ((c : Thread nD τ).loc main_arg0) := by
  unfold xstg
  exact Memref.read_access_unit_zero (Elt Ideal) main_arg0
    (off := fun a => win0_0.index (0 : Fin 1) a * win0_0.size a) (funext fun a => Nat.zero_mul _) _ _

/-- On the 2 x 2 x 2 mesh, an axis cut along the first mesh axis gives device c block c / 4. -/
theorem meshLin_first : ∀ c : Fin 8, Layout.meshLin [2, 2, 2] c.val [0] = c.val / 4 := by decide

/-- The partner holds the other half. -/
theorem partner_half : ∀ c : Dev nD, (partner c).val / 4 = 1 - c.val / 4 := by decide

theorem half_lt (c : Dev nD) : c.val / 4 < 2 := by
  have hc : c.val < 8 := c.isLt
  omega

/-- Where device c's element at y is in the whole array: in half c / 4 of the array reshaped to
    2 x 256 x 256, at y. Rows: (c / 4) * 256 + y 0 on both sides; columns: y 1. -/
theorem block_idx (c : Dev nD) (y : S256x256.Idx)
    (h : Layout.TilesN ⟨2, ![256, 256]⟩ ⟨2, ![512, 256]⟩ (fun b => Layout.cutSize [2, 2, 2] ((![[0], []] : Fin 2 → List Nat) b))) :
    h.idx (Layout.meshBlock [2, 2, 2] ![[0], []] c) y
      = Cert.ReferenceIdeal.Read.idx_main_v0 (Cert.ReferenceIdeal.Read.idx_main_v1 y ⟨c.val / 4, half_lt c⟩) := by
  have hc : c.val < 8 := c.isLt
  have h0 : (y 0).val < 256 := (y 0).isLt
  have h1 : (y 1).val < 256 := (y 1).isLt
  funext a
  apply Fin.ext
  rw [Layout.TilesN.idx_val]
  match a with
  | ⟨0, _⟩ =>
    show Layout.meshLin [2, 2, 2] c.val [0] * 256 + (y 0).val
      = (((c.val / 4) * 256 + (y 0).val) * 256 + (y 1).val) / 256
    rw [meshLin_first c]; omega
  | ⟨1, _⟩ =>
    show 0 * 256 + (y 1).val = (((c.val / 4) * 256 + (y 0).val) * 256 + (y 1).val) % 256
    omega

/-- The reference at an index: zero plus the sum of the two halves' elements there. -/
theorem ref_apply (X : (⟨Cert.ReferenceIdeal.S512x256, .f32⟩ : BufTy).Contents (Elt Ideal)) (y : S256x256.Idx) :
    Cert.ReferenceIdeal.Read.val_main_v2 (F := Ideal) X y
      = (0 : EReal) + ((show EReal from X (Cert.ReferenceIdeal.Read.idx_main_v0 (Cert.ReferenceIdeal.Read.idx_main_v1 y 0)))
          + (show EReal from X (Cert.ReferenceIdeal.Read.idx_main_v0 (Cert.ReferenceIdeal.Read.idx_main_v1 y 1)))) := by
  rw [Cert.ReferenceIdeal.Read.val_main_v2_apply, Cert.ReferenceIdeal.Read.val_main_v1_apply, Fin.sum_univ_two,
    Cert.ReferenceIdeal.Read.val_main_v0_apply, Cert.ReferenceIdeal.Read.val_main_v0_apply,
    Cert.ReferenceIdeal.Read.val_main_cst_apply]
  rw [Ideal.truncf_def, Ideal.ofBits_def, Ideal.ofBits_zero_f32]

end Pieces

/-- Over the extended reals, what device `c`'s result buffer ends with — its own half plus its partner's, row
    block by row block — is the reference's sum of the two halves of the whole array. -/
theorem value_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 2] ![[0], []] c) (m' (((0 : Dev Cert.ReferenceIdeal.nD).tc : Thread Cert.ReferenceIdeal.nD Cert.ReferenceIdeal.τ).loc Cert.ReferenceIdeal.main_arg0)))
    (c : Dev Cert.KernelIdeal.nD) :
    Cert.KernelIdeal.Hand.outAt (F := Ideal) (Cert.KernelIdeal.Hand.xstg m c) (Cert.KernelIdeal.Hand.xstg m (Cert.KernelIdeal.Hand.partner c))
      = Cert.ReferenceIdeal.Read.val_main_v2 (F := Ideal) (m' (((0 : Dev Cert.ReferenceIdeal.nD).tc : Thread Cert.ReferenceIdeal.nD Cert.ReferenceIdeal.τ).loc Cert.ReferenceIdeal.main_arg0)) := by
  funext y
  rw [outAt_apply, xstg_eq, xstg_eq, hagree c, hagree (Cert.KernelIdeal.Hand.partner c), ref_apply]
  unfold sumAt
  rw [Layout.blockN_apply, Layout.blockN_apply, block_idx, block_idx, zero_add]
  have hc : c.val < 8 := c.isLt
  have hp := partner_half c
  rcases Nat.lt_or_ge c.val 4 with h | h
  · -- the device holds the first half and its partner the second
    have e1 : (⟨c.val / 4, half_lt c⟩ : Fin 2) = 0 := Fin.ext (show c.val / 4 = 0 by omega)
    have e2 : (⟨(Cert.KernelIdeal.Hand.partner c).val / 4, half_lt (Cert.KernelIdeal.Hand.partner c)⟩ : Fin 2) = 1 :=
      Fin.ext (show (Cert.KernelIdeal.Hand.partner c).val / 4 = 1 by omega)
    rw [e1, e2]
  · -- the device holds the second half and its partner the first: addition of extended reals commutes
    have e1 : (⟨c.val / 4, half_lt c⟩ : Fin 2) = 1 := Fin.ext (show c.val / 4 = 1 by omega)
    have e2 : (⟨(Cert.KernelIdeal.Hand.partner c).val / 4, half_lt (Cert.KernelIdeal.Hand.partner c)⟩ : Fin 2) = 0 :=
      Fin.ext (show (Cert.KernelIdeal.Hand.partner c).val / 4 = 0 by omega)
    rw [e1, e2]
    exact add_comm (G := EReal) _ _

end Cert.Proof.Value

end
-- ==== Proof.lean ====
/-
  Eight devices on a 2 x 2 x 2 mesh each hold one half (256 rows) of a 512 x 256 array; a device's partner, the
  device whose first mesh coordinate is flipped, holds the other half. Each device rounds its half to bf16 and
  copies it, in four blocks of 64 rows, into its partner's receive buffer, after a handshake on the runtime's
  barrier semaphore; it adds each block it receives to its own block and stores the sum, rounded to bf16, as its
  result. The reference, on one device, adds the two halves of the whole array and rounds.

  FRAMES. Per device the protocol has nine cells of one round and one duty each (Proof/Sched.lean): the barrier
  (paid by the partner, handing over its receive buffer by row blocks), four send cells (the source block comes
  back) and four receive cells (the block comes, holding what the partner sent). A device waits while owing only
  once, on its barrier while owing the four receive credits, so barrier cells sit below receive cells. The body
  (Proof/Steps.lean, Proof/Body.lean) is run once at a symbolic device; the launch (Proof/Launch.lean) turns the
  eight bodies into the run of the mesh, with every device's result array named. The same text read at the
  word-level instance (Proof/Bits/) is the frame of the program as printed.

  VALUE. Over the extended reals rounding and widening are the identity, so a device's result is its half plus its
  partner's, index by index; the reference's is 0 plus the sum of the two halves; the two agree by
  commutativity of + and 0 + a = a, which hold for all extended reals: finiteness of the input is not used
  (Proof/Value.lean). No rewrite was made when the program was idealized, so `preserves` is trivial.
-/
import proofs.«900698_g7700000000000699_dist_ar_v7x_xyz2x2x2_x_m256_n256_bf16_1_alg».proof.Defs
import proofs.«900698_g7700000000000699_dist_ar_v7x_xyz2x2x2_x_m256_n256_bf16_1_alg».proof.Proof.Gen.Kernel
import proofs.«900698_g7700000000000699_dist_ar_v7x_xyz2x2x2_x_m256_n256_bf16_1_alg».proof.Proof.Gen.KernelIdeal
import proofs.«900698_g7700000000000699_dist_ar_v7x_xyz2x2x2_x_m256_n256_bf16_1_alg».proof.Proof.Gen.ReferenceIdeal
import proofs.«900698_g7700000000000699_dist_ar_v7x_xyz2x2x2_x_m256_n256_bf16_1_alg».proof.Proof.Gen.Pre_finite_inputs_Kernel
import proofs.«900698_g7700000000000699_dist_ar_v7x_xyz2x2x2_x_m256_n256_bf16_1_alg».proof.Proof.Gen.Pre_finite_inputs_ReferenceIdeal
import proofs.«900698_g7700000000000699_dist_ar_v7x_xyz2x2x2_x_m256_n256_bf16_1_alg».proof.Proof.Gen.ReferenceIdeal.Run
import proofs.«900698_g7700000000000699_dist_ar_v7x_xyz2x2x2_x_m256_n256_bf16_1_alg».proof.Proof.Gen.ReferenceIdeal.Read
import proofs.«900698_g7700000000000699_dist_ar_v7x_xyz2x2x2_x_m256_n256_bf16_1_alg».proof.Proof.Body
import proofs.«900698_g7700000000000699_dist_ar_v7x_xyz2x2x2_x_m256_n256_bf16_1_alg».proof.Proof.Launch
import proofs.«900698_g7700000000000699_dist_ar_v7x_xyz2x2x2_x_m256_n256_bf16_1_alg».proof.Proof.Bits.Body
import proofs.«900698_g7700000000000699_dist_ar_v7x_xyz2x2x2_x_m256_n256_bf16_1_alg».proof.Proof.Bits.Launch
import proofs.«900698_g7700000000000699_dist_ar_v7x_xyz2x2x2_x_m256_n256_bf16_1_alg».proof.Proof.Value

noncomputable section

namespace Cert.Proof

open Idealize.ShloMosaic Idealize.SL.Sem

/-- The program as printed: the mesh's run, its values forgotten. -/
theorem frame_k : Cert.frame_Kernel := fun m ρ _ =>
  (θ_run Cert.Kernel.defs _ _).mono (fun _ h c => (h c).2)
    (Cert.Kernel.Hand.run_vals (F := Bits) m (Cert.Kernel.Hand.body_obligation m) ρ)

/-- The idealized program: the same run at the ideal instance. -/
theorem frame_ki : Cert.frame_KernelIdeal := fun m ρ _ =>
  (θ_run Cert.KernelIdeal.defs _ _).mono (fun _ h c => (h c).2)
    (Cert.KernelIdeal.Hand.run_vals (F := Ideal) m (Cert.KernelIdeal.Hand.body_obligation m) ρ)

/-- The reference: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Every device's result is the reference's: its half plus its partner's is the sum of the two halves. -/
theorem algebraic : Cert.algebraic_KernelIdeal_ReferenceIdeal := by
  intro m ρ m' ρ' _ hagree
  refine ⟨Cert.ReferenceIdeal.Read.val_main_v2 (F := Ideal)
    (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨(h c).1.trans (Cert.Proof.Value.value_eq m m' hagree c), (h c).2⟩)
      (Cert.KernelIdeal.Hand.run_vals (F := Ideal) m (Cert.KernelIdeal.Hand.body_obligation m) ρ)
  · exact (θ_run Cert.ReferenceIdeal.defs _ _).mono
      (fun _ h => ⟨(h 0).1.trans (Cert.ReferenceIdeal.Read.val_main_v2_eq _), (h 0).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
